-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.truncf_extf.Statement Cert.KernelIdeal.S1024x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S1x512x512 : Shape := ⟨3, ![1, 512, 512]⟩
abbrev S512x512 : Shape := ⟨2, ![512, 512]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S1x512x512 : S_.BroadcastsInDim S1x512x512 (![] : Fin 0 → Fin S1x512x512.rank)
  reducesTo_S1x512x512_S_d0_1_2 : S1x512x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_arg14 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  main_v73

def fn_part3 {F : FTy → Type} [FloatOps F] (main_arg11 : FVec F S512x512 .f32) (main_arg12 : FVec F S512 .f32) (main_arg13 : FVec F S512 .f32) (main_arg14 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_v63 main_v67

def fn_part2 {F : FTy → Type} [FloatOps F] (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512 .f32) (main_arg14 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512 .f32) (main_arg14 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S65536x512 .f32) (main_arg1 : FVec F S65536x512 .f32) (main_arg2 : FVec F S1x512x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512 .f32) (main_arg14 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S1x512x512 .f32 := Host.absf main_arg2
  let main_cst_2 : FVec F S_ .f32 := constant S_ .f32 0x7F800000#32
  let main_v10 : FVec F S1x512x512 .f32 := broadcastInDim S1x512x512 ![] bcast_S_S1x512x512 main_cst_2
  let main_v11 : IVec S1x512x512 1 := cmpf .olt main_v9 main_v10
  let main_c_3 : IVec S_ 1 := constantI S_ 1 1#1
  let main_v12 : IVec S_ 1 := (fun x v => Host.reduce IntOp.andi x v reducesTo_S1x512x512_S_d0_1_2 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S65536x512 : Shape := ⟨2, ![65536, 512]⟩
abbrev S1x512x512 : Shape := ⟨3, ![1, 512, 512]⟩
abbrev S512x512 : Shape := ⟨2, ![512, 512]⟩
abbrev S512 : Shape := ⟨1, ![512]⟩
abbrev S2x512x1 : Shape := ⟨3, ![2, 512, 1]⟩
abbrev S2x512x512 : Shape := ⟨3, ![2, 512, 512]⟩
abbrev S1024x512 : Shape := ⟨2, ![1024, 512]⟩
abbrev S1x512x1 : Shape := ⟨3, ![1, 512, 1]⟩
abbrev S512x1 : Shape := ⟨2, ![512, 1]⟩
abbrev S512x1024 : Shape := ⟨2, ![512, 1024]⟩
abbrev S1x512 : Shape := ⟨2, ![1, 512]⟩
abbrev S_ : Shape := ⟨0, ![]⟩
abbrev S1024 : Shape := ⟨1, ![1024]⟩
abbrev S1024x1 : Shape := ⟨2, ![1024, 1]⟩

abbrev nBuf : Space → Nat
  | .hbm => 81
  | .vmem => 28
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S1x512x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512x512, .f32⟩
  | .hbm, ⟨16, _⟩ => ⟨S512x512, .bf16⟩
  | .hbm, ⟨17, _⟩ => ⟨S512x512, .f32⟩
  | .hbm, ⟨18, _⟩ => ⟨S512x512, .f32⟩
  | .hbm, ⟨19, _⟩ => ⟨S512x512, .bf16⟩
  | .hbm, ⟨20, _⟩ => ⟨S2x512x1, .f32⟩
  | .hbm, ⟨21, _⟩ => ⟨S2x512x1, .f32⟩
  | .hbm, ⟨22, _⟩ => ⟨S2x512x512, .f32⟩
  | .hbm, ⟨23, _⟩ => ⟨S1x512x1, .f32⟩
  | .hbm, ⟨24, _⟩ => ⟨S512x1, .f32⟩
  | .hbm, ⟨25, _⟩ => ⟨S1x512x1, .f32⟩
  | .hbm, ⟨26, _⟩ => ⟨S512x1, .f32⟩
  | .hbm, ⟨27, _⟩ => ⟨S1x512x1, .f32⟩
  | .hbm, ⟨28, _⟩ => ⟨S512x1, .f32⟩
  | .hbm, ⟨29, _⟩ => ⟨S1x512x1, .f32⟩
  | .hbm, ⟨30, _⟩ => ⟨S512x1, .f32⟩
  | .hbm, ⟨31, _⟩ => ⟨S1x512x512, .f32⟩
  | .hbm, ⟨32, _⟩ => ⟨S512x512, .f32⟩
  | .hbm, ⟨33, _⟩ => ⟨S1x512x512, .f32⟩
  | .hbm, ⟨34, _⟩ => ⟨S512x512, .f32⟩
  | .hbm, ⟨35, _⟩ => ⟨S512x1, .f32⟩
  | .hbm, ⟨36, _⟩ => ⟨S512x1, .f32⟩
  | .hbm, ⟨37, _⟩ => ⟨S512x1, .f32⟩
  | .hbm, ⟨38, _⟩ => ⟨S512x1, .f32⟩
  | .hbm, ⟨39, _⟩ => ⟨S512x1, .f32⟩
  | .hbm, ⟨40, _⟩ => ⟨S512x1, .f32⟩
  | .hbm, ⟨41, _⟩ => ⟨S512x1, .f32⟩
  | .hbm, ⟨42, _⟩ => ⟨S512x1, .f32⟩
  | .hbm, ⟨43, _⟩ => ⟨S512x512, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S512x512, .f32⟩
  | .hbm, ⟨48, _⟩ => ⟨S512x512, .f32⟩
  | .hbm, ⟨49, _⟩ => ⟨S512x512, .f32⟩
  | .hbm, ⟨50, _⟩ => ⟨S512x512, .f32⟩
  | .hbm, ⟨51, _⟩ => ⟨S512x512, .f32⟩
  | .hbm, ⟨52, _⟩ => ⟨S1x512, .f32⟩
  | .hbm, ⟨53, _⟩ => ⟨S512x512, .f32⟩
  | .hbm, ⟨54, _⟩ => ⟨S512x512, .f32⟩
  | .hbm, ⟨55, _⟩ => ⟨S512x512, .f32⟩
  | .hbm, ⟨56, _⟩ => ⟨S512x512, .f32⟩
  | .hbm, ⟨57, _⟩ => ⟨S1x512, .f32⟩
  | .hbm, ⟨58, _⟩ => ⟨S512x512, .f32⟩
  | .hbm, ⟨59, _⟩ => ⟨S512x512, .f32⟩
  | .hbm, ⟨60, _⟩ => ⟨S512x512, .f32⟩
  | .hbm, ⟨61, _⟩ => ⟨S512x512, .f32⟩
  | .hbm, ⟨62, _⟩ => ⟨S512x512, .f32⟩
  | .hbm, ⟨63, _⟩ => ⟨S1x512, .f32⟩
  | .hbm, ⟨64, _⟩ => ⟨S512x512, .f32⟩
  | .hbm, ⟨65, _⟩ => ⟨S512x512, .f32⟩
  | .hbm, ⟨66, _⟩ => ⟨S512x512, .f32⟩
  | .hbm, ⟨67, _⟩ => ⟨S512x512, .bf16⟩
  | .hbm, ⟨68, _⟩ => ⟨S512x512, .f32⟩
  | .hbm, ⟨69, _⟩ => ⟨S512x512, .bf16⟩
  | .hbm, ⟨70, _⟩ => ⟨S512x512, .f32⟩
  | .hbm, ⟨71, _⟩ => ⟨S_, .f32⟩
  | .hbm, ⟨72, _⟩ => ⟨S512x512, .f32⟩
  | .hbm, ⟨73, _⟩ => ⟨S512x512, .f32⟩
  | .hbm, ⟨74, _⟩ => ⟨S512x512, .bf16⟩
  | .hbm, ⟨75, _⟩ => ⟨S512x512, .bf16⟩
  | .hbm, ⟨76, _⟩ => ⟨S512, .f32⟩
  | .hbm, ⟨77, _⟩ => ⟨S1x512, .f32⟩
  | .hbm, ⟨78, _⟩ => ⟨S1x512, .f32⟩
  | .hbm, ⟨79, _⟩ => ⟨S1x512, .f32⟩
  | .hbm, ⟨80, _⟩ => ⟨S65536x512, .f32⟩
  | .local _ .vmem, ⟨0, _⟩ => ⟨S512x512, .bf16⟩
  | .local _ .vmem, ⟨1, _⟩ => ⟨S512x512, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S1x512x512, .f32⟩
  | .local _ .vmem, ⟨11, _⟩ => ⟨S1x512x512, .f32⟩
  | .local _ .vmem, ⟨12, _⟩ => ⟨S512x1, .f32⟩
  | .local _ .vmem, ⟨13, _⟩ => ⟨S512x1, .f32⟩
  | .local _ .vmem, ⟨14, _⟩ => ⟨S512x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S512x512, .bf16⟩
  | .local _ .vmem, ⟨20, _⟩ => ⟨S512x512, .bf16⟩
  | .local _ .vmem, ⟨21, _⟩ => ⟨S1x512, .f32⟩
  | .local _ .vmem, ⟨22, _⟩ => ⟨S512x512, .bf16⟩
  | .local _ .vmem, ⟨23, _⟩ => ⟨S512x512, .bf16⟩
  | .local _ .vmem, ⟨24, _⟩ => ⟨S1x512, .f32⟩
  | .local _ .vmem, ⟨25, _⟩ => ⟨S1x512, .f32⟩
  | .local _ .vmem, ⟨26, _⟩ => ⟨S1024x512, .f32⟩
  | .local _ .vmem, ⟨27, _⟩ => ⟨S1024x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev main_v5_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem9_1 : DmaSem sig := 24

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1024x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S1x512x512_S512x512 : S1x512x512.ShapeCasts S512x512
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  reduces_S512x1024_S512 : S512x1024.Reduces [1] S512
  shapeCasts_S512_S512x1 : S512.ShapeCasts S512x1
  broadcasts_S512x1_S512x1024 : S512x1.Broadcasts S512x1024
  broadcasts_S512x1_S512x512 : S512x1.Broadcasts S512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  inb_S1x512x512_S1x512x512_0_0_0 : ∀ a, (![0, 0, 0] : Fin 3 → Nat) a + S1x512x512.size a ≤ S1x512x512.size a
  h_S1x512x512 : 0 < S1x512x512.numel
  shapeCasts_S512x512_S1x512x512 : S512x512.ShapeCasts S1x512x512
  slices_S2x512x1_S1x512x1_0_0_0 : S2x512x1.Slices ![0, 0, 0] S1x512x1
  slices_S2x512x1_S1x512x1_1_0_0 : S2x512x1.Slices ![1, 0, 0] S1x512x1
  slices_S2x512x512_S1x512x512_0_0_0 : S2x512x512.Slices ![0, 0, 0] S1x512x512
  slices_S2x512x512_S1x512x512_1_0_0 : S2x512x512.Slices ![1, 0, 0] S1x512x512
  bcast_S512x1_S512x512_0_1 : S512x1.BroadcastsInDim S512x512 (![0, 1] : Fin 2 → Fin S512x512.rank)
  transposes_S512x512_S512x512_1_0 : S512x512.Transposes [1, 0] S512x512
  shapeCasts_S512_S1x512 : S512.ShapeCasts S1x512
  bcast_S1x512_S512x512_0_1 : S1x512.BroadcastsInDim S512x512 (![0, 1] : Fin 2 → Fin S512x512.rank)
  bcast_S_S512x512 : S_.BroadcastsInDim S512x512 (![] : Fin 0 → Fin S512x512.rank)
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  dot_S512x512_S1024x512_S512x1024_1_1_0_0_n_n_wf : DotDims.WF S512x512 S1024x512 S512x1024 [1] [1] [0] [0] [] []
  dot_S512x1024_S1024x512_S512x512_1_0_0_1_n_n_wf : DotDims.WF S512x1024 S1024x512 S512x512 [1] [0] [0] [1] [] []
  dot_S512x512_S512x512_S512x512_1_0_0_1_n_n_wf : DotDims.WF S512x512 S512x512 S512x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S65536x512.size a
  hwx0_2 : ∀ i : grid0.Coords, EltTy.bits .f32 = 32 ∨ (Rect.block (s := S65536x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S65536x512.size a
  hwx0_3 : ∀ i : grid0.Coords, EltTy.bits .f32 = 32 ∨ (Rect.block (s := S65536x512) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S2x512x1.size a
  hwx0_4 : ∀ i : grid0.Coords, EltTy.bits .f32 = 32 ∨ (Rect.block (s := S2x512x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S2x512x1.size a
  hwx0_5 : ∀ i : grid0.Coords, EltTy.bits .f32 = 32 ∨ (Rect.block (s := S2x512x1) S1x512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x512.size a ≤ S2x512x512.size a
  hwx0_6 : ∀ i : grid0.Coords, EltTy.bits .f32 = 32 ∨ (Rect.block (s := S2x512x512) S1x512x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S65536x512.size a
  hwx1_0 : ∀ i : grid1.Coords, EltTy.bits .f32 = 32 ∨ (Rect.block (s := S65536x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S65536x512.size a
  hwx1_1 : ∀ i : grid1.Coords, EltTy.bits .f32 = 32 ∨ (Rect.block (s := S65536x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S512x512.size a
  hwx1_6 : ∀ i : grid1.Coords, EltTy.bits .bf16 = 32 ∨ (Rect.block (s := S512x512) S512x512.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x512.size a
  hwx1_8 : ∀ i : grid1.Coords, EltTy.bits .f32 = 32 ∨ (Rect.block (s := S1x512) S1x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x512.size a ≤ S65536x512.size a
  hwx1_9 : ∀ i : grid1.Coords, EltTy.bits .f32 = 32 ∨ (Rect.block (s := S65536x512) S1024x512.size (cc1_transform_9 i) (hinb1_9 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v1) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1x512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_2) S1x512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v57) S512x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v60) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v61) S1x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v62) S1024x512.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S65536x512 : Shape := ⟨2, ![65536, 512]⟩
abbrev S1x512x512 : Shape := ⟨3, ![1, 512, 512]⟩
abbrev S512x512 : Shape := ⟨2, ![512, 512]⟩
abbrev S512 : Shape := ⟨1, ![512]⟩
abbrev S512x65536 : Shape := ⟨2, ![512, 65536]⟩
abbrev S_ : Shape := ⟨0, ![]⟩
abbrev S512x1 : Shape := ⟨2, ![512, 1]⟩
abbrev S1x512 : Shape := ⟨2, ![1, 512]⟩
abbrev S65536 : Shape := ⟨1, ![65536]⟩
abbrev S65536x1 : Shape := ⟨2, ![65536, 1]⟩

abbrev nBuf : Space → Nat
  | .hbm => 108
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S1x512x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512x512, .f32⟩
  | .hbm, ⟨16, _⟩ => ⟨S512x65536, .f32⟩
  | .hbm, ⟨17, _⟩ => ⟨S_, .f32⟩
  | .hbm, ⟨18, _⟩ => ⟨S512, .f32⟩
  | .hbm, ⟨19, _⟩ => ⟨S_, .f32⟩
  | .hbm, ⟨20, _⟩ => ⟨S512, .f32⟩
  | .hbm, ⟨21, _⟩ => ⟨S512, .f32⟩
  | .hbm, ⟨22, _⟩ => ⟨S512x1, .f32⟩
  | .hbm, ⟨23, _⟩ => ⟨S512x65536, .f32⟩
  | .hbm, ⟨24, _⟩ => ⟨S512x65536, .f32⟩
  | .hbm, ⟨25, _⟩ => ⟨S512x65536, .f32⟩
  | .hbm, ⟨26, _⟩ => ⟨S_, .f32⟩
  | .hbm, ⟨27, _⟩ => ⟨S512, .f32⟩
  | .hbm, ⟨28, _⟩ => ⟨S512x1, .f32⟩
  | .hbm, ⟨29, _⟩ => ⟨S512x65536, .f32⟩
  | .hbm, ⟨30, _⟩ => ⟨S512x65536, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S1x512, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S65536x512, .f32⟩
  | .hbm, ⟨39, _⟩ => ⟨S1x512, .f32⟩
  | .hbm, ⟨40, _⟩ => ⟨S65536x512, .f32⟩
  | .hbm, ⟨41, _⟩ => ⟨S65536x512, .f32⟩
  | .hbm, ⟨42, _⟩ => ⟨S512x512, .f32⟩
  | .hbm, ⟨43, _⟩ => ⟨S65536x512, .f32⟩
  | .hbm, ⟨44, _⟩ => ⟨S1x512, .f32⟩
  | .hbm, ⟨45, _⟩ => ⟨S65536x512, .f32⟩
  | .hbm, ⟨46, _⟩ => ⟨S65536x512, .f32⟩
  | .hbm, ⟨47, _⟩ => ⟨S65536x512, .f32⟩
  | .hbm, ⟨48, _⟩ => ⟨S512x512, .f32⟩
  | .hbm, ⟨49, _⟩ => ⟨S512x512, .f32⟩
  | .hbm, ⟨50, _⟩ => ⟨S1x512, .f32⟩
  | .hbm, ⟨51, _⟩ => ⟨S512x512, .f32⟩
  | .hbm, ⟨52, _⟩ => ⟨S512x512, .f32⟩
  | .hbm, ⟨53, _⟩ => ⟨S512x512, .f32⟩
  | .hbm, ⟨54, _⟩ => ⟨S512x512, .f32⟩
  | .hbm, ⟨55, _⟩ => ⟨S512x512, .f32⟩
  | .hbm, ⟨56, _⟩ => ⟨S1x512, .f32⟩
  | .hbm, ⟨57, _⟩ => ⟨S512x512, .f32⟩
  | .hbm, ⟨58, _⟩ => ⟨S512x512, .f32⟩
  | .hbm, ⟨59, _⟩ => ⟨S65536x512, .f32⟩
  | .hbm, ⟨60, _⟩ => ⟨S_, .f32⟩
  | .hbm, ⟨61, _⟩ => ⟨S65536x512, .f32⟩
  | .hbm, ⟨62, _⟩ => ⟨S65536x512, .f32⟩
  | .hbm, ⟨63, _⟩ => ⟨S_, .f32⟩
  | .hbm, ⟨64, _⟩ => ⟨S65536, .f32⟩
  | .hbm, ⟨65, _⟩ => ⟨S_, .f32⟩
  | .hbm, ⟨66, _⟩ => ⟨S65536, .f32⟩
  | .hbm, ⟨67, _⟩ => ⟨S65536, .f32⟩
  | .hbm, ⟨68, _⟩ => ⟨S65536x1, .f32⟩
  | .hbm, ⟨69, _⟩ => ⟨S65536x512, .f32⟩
  | .hbm, ⟨70, _⟩ => ⟨S65536x512, .f32⟩
  | .hbm, ⟨71, _⟩ => ⟨S65536x512, .f32⟩
  | .hbm, ⟨72, _⟩ => ⟨S_, .f32⟩
  | .hbm, ⟨73, _⟩ => ⟨S65536, .f32⟩
  | .hbm, ⟨74, _⟩ => ⟨S65536x1, .f32⟩
  | .hbm, ⟨75, _⟩ => ⟨S65536x512, .f32⟩
  | .hbm, ⟨76, _⟩ => ⟨S65536x512, .f32⟩
  | .hbm, ⟨77, _⟩ => ⟨S65536x512, .f32⟩
  | .hbm, ⟨78, _⟩ => ⟨S65536x512, .f32⟩
  | .hbm, ⟨79, _⟩ => ⟨S_, .f32⟩
  | .hbm, ⟨80, _⟩ => ⟨S65536, .f32⟩
  | .hbm, ⟨81, _⟩ => ⟨S65536x1, .f32⟩
  | .hbm, ⟨82, _⟩ => ⟨S_, .f32⟩
  | .hbm, ⟨83, _⟩ => ⟨S65536x1, .f32⟩
  | .hbm, ⟨84, _⟩ => ⟨S65536x1, .f32⟩
  | .hbm, ⟨85, _⟩ => ⟨S65536x512, .f32⟩
  | .hbm, ⟨86, _⟩ => ⟨S65536x512, .f32⟩
  | .hbm, ⟨87, _⟩ => ⟨S65536x512, .f32⟩
  | .hbm, ⟨88, _⟩ => ⟨S_, .f32⟩
  | .hbm, ⟨89, _⟩ => ⟨S65536, .f32⟩
  | .hbm, ⟨90, _⟩ => ⟨S65536x1, .f32⟩
  | .hbm, ⟨91, _⟩ => ⟨S_, .f32⟩
  | .hbm, ⟨92, _⟩ => ⟨S65536x1, .f32⟩
  | .hbm, ⟨93, _⟩ => ⟨S65536x1, .f32⟩
  | .hbm, ⟨94, _⟩ => ⟨S65536x512, .f32⟩
  | .hbm, ⟨95, _⟩ => ⟨S65536x512, .f32⟩
  | .hbm, ⟨96, _⟩ => ⟨S_, .f32⟩
  | .hbm, ⟨97, _⟩ => ⟨S65536x1, .f32⟩
  | .hbm, ⟨98, _⟩ => ⟨S65536x1, .f32⟩
  | .hbm, ⟨99, _⟩ => ⟨S65536x1, .f32⟩
  | .hbm, ⟨100, _⟩ => ⟨S65536x512, .f32⟩
  | .hbm, ⟨101, _⟩ => ⟨S65536x512, .f32⟩
  | .hbm, ⟨102, _⟩ => ⟨S1x512, .f32⟩
  | .hbm, ⟨103, _⟩ => ⟨S65536x512, .f32⟩
  | .hbm, ⟨104, _⟩ => ⟨S65536x512, .f32⟩
  | .hbm, ⟨105, _⟩ => ⟨S1x512, .f32⟩
  | .hbm, ⟨106, _⟩ => ⟨S65536x512, .f32⟩
  | .hbm, ⟨107, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_2 : Ref sig .tc := ⟨.hbm, 60, rfl⟩
abbrev main_v42 : Ref sig .tc := ⟨.hbm, 61, rfl⟩
abbrev main_v43 : Ref sig .tc := ⟨.hbm, 62, rfl⟩
abbrev main_cst_3 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_6 : Ref sig .tc := ⟨.hbm, 79, rfl⟩
abbrev main_v57 : Ref sig .tc := ⟨.hbm, 80, rfl⟩
abbrev main_v58 : Ref sig .tc := ⟨.hbm, 81, rfl⟩
abbrev main_cst_7 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_8 : Ref sig .tc := ⟨.hbm, 88, rfl⟩
abbrev main_v64 : Ref sig .tc := ⟨.hbm, 89, rfl⟩
abbrev main_v65 : Ref sig .tc := ⟨.hbm, 90, rfl⟩
abbrev main_cst_9 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_10 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩

abbrev nD : Nat := 1
abbrev τ : Topo := Topo.v7x

variable {F : FTy → Type} [FloatOps F]

class Facts₀ : Prop where
  shapeCasts_S1x512x512_S512x512 : S1x512x512.ShapeCasts S512x512
  reducesTo_S512x65536_S512_d1 : S512x65536.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x65536_0_1 : S512x1.BroadcastsInDim S512x65536 (![0, 1] : Fin 2 → Fin S512x65536.rank)
  transposes_S512x512_S512x512_1_0 : S512x512.Transposes [1, 0] S512x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  reducesTo_S65536x512_S65536_d1 : S65536x512.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x512_0_1 : S65536x1.BroadcastsInDim S65536x512 (![0, 1] : Fin 2 → Fin S65536x512.rank)
  bcast_S_S65536x1 : S_.BroadcastsInDim S65536x1 (![] : Fin 0 → Fin S65536x1.rank)
  dot_S512x512_S65536x512_S512x65536_1_1_0_0_n_n_wf : DotDims.WF S512x512 S65536x512 S512x65536 [1] [1] [0] [0] [] []
  dot_S512x65536_S65536x512_S512x512_1_0_0_1_n_n_wf : DotDims.WF S512x65536 S65536x512 S512x512 [1] [0] [0] [1] [] []
  dot_S512x512_S512x512_S512x512_1_0_0_1_n_n_wf : DotDims.WF S512x512 S512x512 S512x512 [1] [0] [0] [1] [] []
  dot_S65536x512_S512x512_S65536x512_1_0_0_1_n_n_wf : DotDims.WF S65536x512 S512x512 S65536x512 [1] [0] [0] [1] [] []
  dot_S65536x512_S512x512_S65536x512_1_1_0_0_n_n_wf : DotDims.WF S65536x512 S512x512 S65536x512 [1] [1] [0] [0] [] []

variable [Facts₀]

def dot_S512x512_S65536x512_S512x65536_1_1_0_0_n_n : DotDims S512x512 S65536x512 S512x65536 where
  lhsContracting := [1]
  rhsContracting := [1]
  lhsNonContracting := [0]
  rhsNonContracting := [0]
  lhsBatch := []
  rhsBatch := []
  wf := dot_S512x512_S65536x512_S512x65536_1_1_0_0_n_n_wf
def dot_S512x65536_S65536x512_S512x512_1_0_0_1_n_n : DotDims S512x65536 S65536x512 S512x512 where
  lhsContracting := [1]
  rhsContracting := [0]
  lhsNonContracting := [0]
  rhsNonContracting := [1]
  lhsBatch := []
  rhsBatch := []
  wf := dot_S512x65536_S65536x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x512_S65536x512_1_1_0_0_n_n : DotDims S65536x512 S512x512 S65536x512 where
  lhsContracting := [1]
  rhsContracting := [1]
  lhsNonContracting := [0]
  rhsNonContracting := [0]
  lhsBatch := []
  rhsBatch := []
  wf := dot_S65536x512_S512x512_S65536x512_1_1_0_0_n_n_wf

class Facts : Prop extends Facts₀ where

variable [Facts]
-- ==== Proof.K.Blk.lean ====
/-
  The two kernels' bodies as pure functions of the blocks they load, generic in the float instance.

  Pooling kernel (grid 2 × 32, one row block of 1024 rows of g and g_p per point): the carried state is the running row
  maximum m, the running denominator l and the running weighted sum acc of a streamed softmax.  One point maps the
  state (m, l, acc) to (m', l', acc') with
      s    = Ws_hi·gᵀ + Ws_hi·(g − g)ᵀ + Ws_lo·gᵀ                      (the 512 × 1024 score block)
      m'   = max m (rowmax s)
      l'   = exp (m − m') · l + rowsum (exp (s − m'))
      acc' = exp (m − m') · acc + exp (s − m') · g_p
  and the state is reset to (−∞, 0, 0) at the first point of each half of the grid.

  Main kernel (grid 64, one row block of 1024 rows per point): the whole block function, from the nine input blocks to
  the output block (projection, scores against the resident Kᵀ, row softmax, value product, residual, layer norm).
-/
import proofs.«410946_j27565100106019_3_alg».proof.Proof.Gen.Kernel.Skeleton

noncomputable section

namespace Cert.Kernel.Hand

open Idealize.ShloMosaic Idealize.SL.Sem Cert.Kernel Cert.Kernel.Gen

variable {F : FTy → Type} [FloatOps F]

/-- The streamed softmax's carried state: running maximum, running denominator, running weighted sum. -/
abbrev St0 (F : FTy → Type) [FloatOps F] : Type :=
  Vec F S512x1 .f32 × Vec F S512x1 .f32 × Vec F S512x512 .f32

/-- The state a half of the grid starts from: (−∞, 0, 0). -/
def init0 : St0 F := (k0_pay6, k0_pay7, k0_pay8)

/-- One point of the pooling kernel on the state: `wh`, `wl` the two halves of the split Ws, `g`, `gp` the point's row
    blocks of g and g_p. -/
def step0 (wh wl : Vec F S512x512 .bf16) (g gp : Vec F S1024x512 .f32) (s : St0 F) : St0 F :=
  (k0_pay2 (k0_pay10 g wh wl s.1),
   k0_pay13 g wh wl s.1 s.1 s.2.1,
   k0_pay1 (k0_pay11 g wh wl s.1 s.1) (k0_pay12 g wh wl s.1) gp s.2.2)

/-- The main kernel's block function: the output block of one point from its nine input blocks (g, g_p, Wqᵀ, Wgpᵀ,
    bq + bgp, Kᵀ/8, V, γ, β). -/
def blk1 (x0 x1 : Vec F S1024x512 .f32) (x2 x3 : Vec F S512x512 .bf16) (x4 : Vec F S1x512 .f32)
    (x5 x6 : Vec F S512x512 .bf16) (x7 x8 : Vec F S1x512 .f32) : Vec F S1024x512 .f32 :=
  k1_pay1 (k1_pay2 x0 x1 x2 x3 x4 x5 x6) (k1_pay3 x0 x1 x2 x3 x4 x5 x6) x7 x8

end Cert.Kernel.Hand

end
-- ==== Proof.K.Body0a.lean ====
/-
  The pooling kernel's body at a point that does not reset (second grid coordinate ≠ 0), on any whole memrefs:
  from the four input blocks and the scratch at a state `s`, it leaves the inputs as they were, the scratch at
  `step0` of the blocks and `s`, and the three output buffers at that new state reshaped.  Every load and store is
  through the whole buffer, so a load reads the buffer's contents (or the payload last stored) and a store leaves
  its payload.
-/
import proofs.«410946_j27565100106019_3_alg».proof.Proof.LaunchK
import proofs.«410946_j27565100106019_3_alg».proof.Proof.Gen.Kernel.Skeleton
import proofs.«410946_j27565100106019_3_alg».proof.Proof.Gen.Kernel.Points
import proofs.«410946_j27565100106019_3_alg».proof.Proof.K.Blk
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 and of a rank-3 whole-buffer access. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Reading back a buffer whose LAST store went through the whole-buffer rectangle at zero offsets gives that store's
    payload, whatever the buffer held and whatever was stored before. -/
theorem read_writes_unit_zero {sig' : RefSig} {κ : Kind} {sp : Space} {Val : EltTy → Type} [∀ e, Nonempty (Val e)] {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.Mem.head _, View.mem_set_unit_zero h inb y⟩),
    View.canon_cons_unit_zero h inb w L]

/-- The body's one branch condition (the reset), from the grid coordinates. -/
abbrev cond0 (i : grid0.Coords) : Prop :=
  (Scalar.cmpi .ne (Scalar.extui (Scalar.cmpi .eq (BitVec.ofNat 32 (i 1).val) 0#32)) 0#32) = 1#1

/-- It holds exactly at the points whose index is a multiple of 32 (the first point of each half). -/
theorem hcond0 : ∀ t : Fin cfg0.N, cond0 (grid0.coords t) ↔ t.val % 32 = 0 :=
  (by decide +kernel : ∀ t : Fin grid0.N, cond0 (grid0.coords t) ↔ t.val % 32 = 0)

set_option maxHeartbeats 4000000 in
/-- The body where the reset is not taken, on whole memrefs: the inputs' at their blocks, the outputs' at anything, the
    scratch at a state `s`.  It runs to the continuation holding the inputs as they were, the scratch at `step0` of the
    blocks and `s`, and each output's buffer at the matching component of that new state, reshaped. -/
theorem run0_carry (c : Dev nD) (E : Set ℕ) (i : grid0.Coords) (arg2 : Memref sig .tc .vmem S512x512 .bf16) (harg2 : arg2.IsWhole) (arg3 : Memref sig .tc .vmem S512x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole)
    (hc : ¬cond0 i) (x0 x1 : Vec F S512x512 .bf16) (x2 x3 : Vec F S1024x512 .f32) (s : St0 F) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s.1 ∗ owns (c : Thread nD τ) arg10 fullShare s.2.1 ∗ owns (c : Thread nD τ) arg11 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay3 (step0 x0 x1 x2 x3 s).1) ∗ owns (c : Thread nD τ) arg7 fullShare (k0_pay4 (step0 x0 x1 x2 x3 s).2.1) ∗ owns (c : Thread nD τ) arg8 fullShare (k0_pay5 (step0 x0 x1 x2 x3 s).2.2)
            ∗ owns (c : Thread nD τ) arg9 fullShare (step0 x0 x1 x2 x3 s).1 ∗ owns (c : Thread nD τ) arg10 fullShare (step0 x0 x1 x2 x3 s).2.1 ∗ owns (c : Thread nD τ) arg11 fullShare (step0 x0 x1 x2 x3 s).2.2) -∗ K ⟨⟩))
      ⊢ wp frame (wpE (defs₀ (F := F)) Variants.none c none) E (cc0_pool_kernel i arg2 harg2 arg3 harg3 arg4 harg4 arg5 harg5 arg6 harg6 arg7 harg7 arg8 harg8 arg9 harg9 arg10 harg10 arg11 harg11) K := by
  simp only [cc0_pool_kernel_eq_skeleton]; unfold cc0_pool_kernel_skel
  simp only [k0_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg9.eq_unread hf9; obtain rfl := harg10.eq_unread hf10; obtain rfl := harg11.eq_unread hf11
  sl_exec (disch := exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [read_writes_unit_zero _ _ hz3]
    simp only [View.readCov_cons_toLoadRect, View.readAt_eq_ld, Memref.IsWhole.read_unread, View.ld_unit_zero (S := S512x512) hz2, View.ld_unit_zero (S := S1024x512) hz2, View.ld_unit_zero (S := S512x1) hz2]
    rfl
  isplitl [H7]
  · iexists _; isplitr
    swap; · iexact H7
    ipureintro
    sl_unfold_run_names
    rw [read_writes_unit_zero _ _ hz3]
    simp only [View.readCov_cons_toLoadRect, View.readAt_eq_ld, Memref.IsWhole.read_unread, View.ld_unit_zero (S := S512x512) hz2, View.ld_unit_zero (S := S1024x512) hz2, View.ld_unit_zero (S := S512x1) hz2]
    rfl
  isplitl [H8]
  · iexists _; isplitr
    swap; · iexact H8
    ipureintro
    sl_unfold_run_names
    rw [read_writes_unit_zero _ _ hz3]
    simp only [View.readCov_cons_toLoadRect, View.readAt_eq_ld, Memref.IsWhole.read_unread, View.ld_unit_zero (S := S512x512) hz2, View.ld_unit_zero (S := S1024x512) hz2, View.ld_unit_zero (S := S512x1) hz2]
    rfl
  isplitl [H9]
  · iexists _; isplitr
    swap; · iexact H9
    ipureintro
    sl_unfold_run_names
    rw [read_writes_unit_zero _ _ hz2]
    simp only [View.readCov_cons_toLoadRect, View.readAt_eq_ld, Memref.IsWhole.read_unread, View.ld_unit_zero (S := S512x512) hz2, View.ld_unit_zero (S := S1024x512) hz2, View.ld_unit_zero (S := S512x1) hz2]
    rfl
  isplitl [H10]
  · iexists _; isplitr
    swap; · iexact H10
    ipureintro
    sl_unfold_run_names
    rw [read_writes_unit_zero _ _ hz2]
    simp only [View.readCov_cons_toLoadRect, View.readAt_eq_ld, Memref.IsWhole.read_unread, View.ld_unit_zero (S := S512x512) hz2, View.ld_unit_zero (S := S1024x512) hz2, View.ld_unit_zero (S := S512x1) hz2]
    rfl
  iexists _; isplitr
  swap; · iexact H11
  ipureintro
  sl_unfold_run_names
  rw [read_writes_unit_zero _ _ hz2]
  simp only [View.readCov_cons_toLoadRect, View.readAt_eq_ld, Memref.IsWhole.read_unread, View.ld_unit_zero (S := S512x512) hz2, View.ld_unit_zero (S := S1024x512) hz2, View.ld_unit_zero (S := S512x1) hz2]
  rfl

end Cert.Kernel.Hand

end
-- ==== Proof.K.Body0b.lean ====
/-
  The pooling kernel's body at a point that resets (second grid coordinate 0), on any whole memrefs: whatever the
  scratch held, the body first stores (−∞, 0, 0) into it, so the state it loads is `init0`; from there it runs as at
  any other point.
-/
import proofs.«410946_j27565100106019_3_alg».proof.Proof.K.Body0a
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the reset is taken, on whole memrefs: the inputs' at their blocks, the outputs' and the scratch at
    anything.  It runs to the continuation holding the inputs as they were, the scratch at `step0` of the blocks and
    `init0`, and each output's buffer at the matching component of that new state, reshaped. -/
theorem run0_reset (c : Dev nD) (E : Set ℕ) (i : grid0.Coords) (arg2 : Memref sig .tc .vmem S512x512 .bf16) (harg2 : arg2.IsWhole) (arg3 : Memref sig .tc .vmem S512x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole)
    (hc : cond0 i) (x0 x1 : Vec F S512x512 .bf16) (x2 x3 : Vec F S1024x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay3 (step0 x0 x1 x2 x3 init0).1) ∗ owns (c : Thread nD τ) arg7 fullShare (k0_pay4 (step0 x0 x1 x2 x3 init0).2.1) ∗ owns (c : Thread nD τ) arg8 fullShare (k0_pay5 (step0 x0 x1 x2 x3 init0).2.2)
            ∗ owns (c : Thread nD τ) arg9 fullShare (step0 x0 x1 x2 x3 init0).1 ∗ owns (c : Thread nD τ) arg10 fullShare (step0 x0 x1 x2 x3 init0).2.1 ∗ owns (c : Thread nD τ) arg11 fullShare (step0 x0 x1 x2 x3 init0).2.2) -∗ K ⟨⟩))
      ⊢ wp frame (wpE (defs₀ (F := F)) Variants.none c none) E (cc0_pool_kernel i arg2 harg2 arg3 harg3 arg4 harg4 arg5 harg5 arg6 harg6 arg7 harg7 arg8 harg8 arg9 harg9 arg10 harg10 arg11 harg11) K := by
  simp only [cc0_pool_kernel_eq_skeleton]; unfold cc0_pool_kernel_skel
  simp only [k0_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf2; obtain rfl := harg3.eq_unread hf3; obtain rfl := harg4.eq_unread hf4; obtain rfl := harg5.eq_unread hf5
  sl_exec (disch := exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [read_writes_unit_zero _ _ hz3]
    simp only [View.readCov_cons_toLoadRect, View.readAt_eq_ld, Memref.IsWhole.read_unread, View.ld_unit_zero (S := S512x512) hz2, View.ld_unit_zero (S := S1024x512) hz2, View.ld_unit_zero (S := S512x1) hz2]
    rfl
  isplitl [H7]
  · iexists _; isplitr
    swap; · iexact H7
    ipureintro
    sl_unfold_run_names
    rw [read_writes_unit_zero _ _ hz3]
    simp only [View.readCov_cons_toLoadRect, View.readAt_eq_ld, Memref.IsWhole.read_unread, View.ld_unit_zero (S := S512x512) hz2, View.ld_unit_zero (S := S1024x512) hz2, View.ld_unit_zero (S := S512x1) hz2]
    rfl
  isplitl [H8]
  · iexists _; isplitr
    swap; · iexact H8
    ipureintro
    sl_unfold_run_names
    rw [read_writes_unit_zero _ _ hz3]
    simp only [View.readCov_cons_toLoadRect, View.readAt_eq_ld, Memref.IsWhole.read_unread, View.ld_unit_zero (S := S512x512) hz2, View.ld_unit_zero (S := S1024x512) hz2, View.ld_unit_zero (S := S512x1) hz2]
    rfl
  isplitl [H9]
  · iexists _; isplitr
    swap; · iexact H9
    ipureintro
    sl_unfold_run_names
    rw [read_writes_unit_zero _ _ hz2]
    simp only [View.readCov_cons_toLoadRect, View.readAt_eq_ld, Memref.IsWhole.read_unread, View.ld_unit_zero (S := S512x512) hz2, View.ld_unit_zero (S := S1024x512) hz2, View.ld_unit_zero (S := S512x1) hz2]
    rfl
  isplitl [H10]
  · iexists _; isplitr
    swap; · iexact H10
    ipureintro
    sl_unfold_run_names
    rw [read_writes_unit_zero _ _ hz2]
    simp only [View.readCov_cons_toLoadRect, View.readAt_eq_ld, Memref.IsWhole.read_unread, View.ld_unit_zero (S := S512x512) hz2, View.ld_unit_zero (S := S1024x512) hz2, View.ld_unit_zero (S := S512x1) hz2]
    rfl
  iexists _; isplitr
  swap; · iexact H11
  ipureintro
  sl_unfold_run_names
  rw [read_writes_unit_zero _ _ hz2]
  simp only [View.readCov_cons_toLoadRect, View.readAt_eq_ld, Memref.IsWhole.read_unread, View.ld_unit_zero (S := S512x512) hz2, View.ld_unit_zero (S := S1024x512) hz2, View.ld_unit_zero (S := S512x1) hz2]
  rfl

end Cert.Kernel.Hand

end
-- ==== Proof.K.Body0.lean ====
/-
  Region 0 (the pooling kernel, grid 2 × 32) at the contents `V` its core's buffers hold when the region is entered.

  The three scratch buffers carry the streamed softmax's state (m, l, acc) from one point to the next.  At a point
  whose second coordinate is 0 the body first stores (−∞, 0, 0) into them, so the state it then loads is `init0`;
  at every other point it loads what the point before left.  Either way it stores `step0` of the loaded state and
  of the point's four input blocks back, and copies the new state, reshaped, into the three output windows' buffers.
  `stAt0 V c n` is the state after point `n`, by recursion on `n`; the invariant before point `n + 1` holds the
  scratch buffers at `stAt0 V c n`, and before point 0 at anything.
-/
import proofs.«410946_j27565100106019_3_alg».proof.Proof.K.Body0b
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks and the carried state -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The state (m, l, acc) the scratch buffers hold after the body at point `n`: one step from `init0` at a point
    that resets (its index a multiple of 32), else one step from the state after point `n - 1`. -/
def stAt0 (c : Dev nD) : (n : ℕ) → n < cfg0.N → St0 F
  | 0, hn => step0 (iblk0 V c 0 ⟨0, hn⟩) (iblk0 V c 1 ⟨0, hn⟩) (iblk0 V c 2 ⟨0, hn⟩) (iblk0 V c 3 ⟨0, hn⟩) init0
  | n + 1, hn => step0 (iblk0 V c 0 ⟨n + 1, hn⟩) (iblk0 V c 1 ⟨n + 1, hn⟩) (iblk0 V c 2 ⟨n + 1, hn⟩) (iblk0 V c 3 ⟨n + 1, hn⟩)
      (if (n + 1) % 32 = 0 then init0 else stAt0 c n (Nat.lt_of_succ_lt hn))

theorem stAt0_reset (c : Dev nD) (t : Fin cfg0.N) (h : t.val % 32 = 0) :
    stAt0 V c t.val t.isLt = step0 (iblk0 V c 0 t) (iblk0 V c 1 t) (iblk0 V c 2 t) (iblk0 V c 3 t) init0 := by
  obtain ⟨n, hn⟩ := t
  cases n with
  | zero => rfl
  | succ n => show step0 _ _ _ _ (if (n + 1) % 32 = 0 then _ else _) = _; rw [if_pos h]

theorem stAt0_carry (c : Dev nD) (t : Fin cfg0.N) (h : t.val % 32 ≠ 0) :
    stAt0 V c t.val t.isLt = step0 (iblk0 V c 0 t) (iblk0 V c 1 t) (iblk0 V c 2 t) (iblk0 V c 3 t) (stAt0 V c (t.val - 1) (by omega)) := by
  obtain ⟨n, hn⟩ := t
  cases n with
  | zero => exact absurd (Nat.zero_mod _) h
  | succ n => show step0 _ _ _ _ (if (n + 1) % 32 = 0 then _ else _) = _; rw [if_neg h]; rfl

/-! ## The invariant -/

/-- The three scratch operands, whole scoped buffers. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x512 .f32 := Memref.whole cc0_scratch2

/-- The core's other scoped buffers (the second region's staging buffers), each at some contents: the body never
    touches them. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_stg9_1), ((c : Thread nD τ).loc cc1_stg9_1) ↦{fullShare} f))

/-- What the region is handed, with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ rest0 (F := F) c) ∗ (∃ r, prngReg c r)) := by
  unfold Pipeline.ΦA rest0; rw [scopedRest0_eq]; simp only [scM0_0, scM0_1, scM0_2, owns_whole]; try rfl

/-- The invariant before point `n`: before the first point what the region is handed (the scratch at anything);
    afterwards the scratch buffers at the state after point `n - 1`. -/
def PhiS0 (c : Dev nD) : (n : ℕ) → n ≤ cfg0.N → sProp 𝕄
  | 0, _ => Pipeline.ΦA spec0 c
  | n + 1, hn => iprop(iprop(owns (c : Thread nD τ) scM0_0 fullShare (stAt0 V c n hn).1
      ∗ owns (c : Thread nD τ) scM0_1 fullShare (stAt0 V c n hn).2.1
      ∗ owns (c : Thread nD τ) scM0_2 fullShare (stAt0 V c n hn).2.2 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (stAt0 V c n hn).1
      ∗ owns (c : Thread nD τ) scM0_1 fullShare (stAt0 V c n hn).2.1
      ∗ owns (c : Thread nD τ) scM0_2 fullShare (stAt0 V c n hn).2.2 ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (stAt0 V c (n - 1) (by omega)).1
      ∗ owns (c : Thread nD τ) scM0_1 fullShare (stAt0 V c (n - 1) (by omega)).2.1
      ∗ owns (c : Thread nD τ) scM0_2 fullShare (stAt0 V c (n - 1) (by omega)).2.2 ∗ rest0 (F := F) c) ∗ (∃ r, prngReg c r)) := by
  cases n with
  | zero => exact absurd rfl hz
  | succ n => rfl

/-! ## The proof data -/

/-- The proof data of the pooling pipeline on core `c`: the arrays as the region finds them; after the body at
    point `t` each input's buffer at its block and the three outputs' at the new state, reshaped. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (stAt0 V c t.val t.isLt).1
    | ⟨5, _⟩ => k0_pay4 (stAt0 V c t.val t.isLt).2.1
    | ⟨6, _⟩ => k0_pay5 (stAt0 V c t.val t.isLt).2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay3 (stAt0 V c t.val t.isLt).1 := by dsimp only [dat0]
theorem after0_5 (c : Dev nD) (t : Fin cfg0.N) : (dat0 V c).after 5 t = k0_pay4 (stAt0 V c t.val t.isLt).2.1 := by dsimp only [dat0]
theorem after0_6 (c : Dev nD) (t : Fin cfg0.N) : (dat0 V c).after 6 t = k0_pay5 (stAt0 V c t.val t.isLt).2.2 := by dsimp only [dat0]

/-! ## What the body finds in the input windows' buffers -/

/-- Each input's current staging buffer holds its block at every point, fetched there or not: an input the body only
    reads keeps its block, and an unfetched window's block index has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body obligation -/

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1600000 in
/-- The body at any point.  The inputs' buffers hold their blocks.  At a point that resets, the scratch is handed over
    at whatever it holds (before point 0 the region's own `∃`; later the state the point before left, forgotten) and
    comes back at one step from `init0`; at any other point it is handed over at the state the point before left and
    comes back at one step from that.  The other scoped buffers, the generator register and the core's tallies pass
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6]
  by_cases h0 : t.val % 32 = 0
  · rw [stAt0_reset V c t h0]
    by_cases hz : t.val = 0
    · rw [PhiS0_castSucc V c t, PhiS0_zero V c _ _ hz, PhiA0_eq]
      iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (run0_reset c Set.univ (grid0.coords t) _ _ _ _ _ _ _ _ _ _ _ _ _ _ _ _ _ _ _ _ ((hcond0 t).mpr h0)
        (iblk0 V c 0 t) (iblk0 V c 1 t) (iblk0 V c 2 t) (iblk0 V c 3 t) _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hr Hg]
      · isplitr [Hg]
        · isplitl [HS0]; · iexact HS0
          isplitl [HS1]; · iexact HS1
          isplitl [HS2]; · iexact HS2
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS0_castSucc V c t, PhiS0_pos V c _ _ hz]
      iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (run0_reset c Set.univ (grid0.coords t) _ _ _ _ _ _ _ _ _ _ _ _ _ _ _ _ _ _ _ _ ((hcond0 t).mpr h0)
        (iblk0 V c 0 t) (iblk0 V c 1 t) (iblk0 V c 2 t) (iblk0 V c 3 t) _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexists _; iexact HS0
      isplitl [HS1]; · iexists _; iexact HS1
      isplitl [HS2]; · iexists _; iexact HS2
      iintro ⟨H0, H1, H2, H3, H4, H5, H6, HS0, HS1, HS2⟩
      isplitl [HS0 HS1 HS2 Hr Hg]
      · isplitr [Hg]
        · isplitl [HS0]; · iexact HS0
          isplitl [HS1]; · iexact HS1
          isplitl [HS2]; · iexact HS2
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun e => h0 (by rw [e])
    rw [stAt0_carry V c t h0, PhiS0_castSucc V c t, PhiS0_pos V c _ _ hz]
    iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (run0_carry c Set.univ (grid0.coords t) _ _ _ _ _ _ _ _ _ _ _ _ _ _ _ _ _ _ _ _ (fun h => h0 ((hcond0 t).mp h))
      (iblk0 V c 0 t) (iblk0 V c 1 t) (iblk0 V c 2 t) (iblk0 V c 3 t) (stAt0 V c (t.val - 1) (by omega)) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hr Hg]
    · isplitr [Hg]
      · isplitl [HS0]; · iexact HS0
        isplitl [HS1]; · iexact HS1
        isplitl [HS2]; · iexact HS2
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives back what the region was handed: the scratch's named state is forgotten. -/
theorem hout0 (c : Dev nD) : (dat0 V c).Φ (Fin.last cfg0.N) ⊢ Pipeline.ΦA spec0 c := by
  have hN : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ hN, PhiA0_eq]
  iintro ⟨⟨HS0, HS1, HS2, Hr⟩, Hg⟩
  isplitr [Hg]
  · isplitl [HS0]; · iexists _; iexact HS0
    isplitl [HS1]; · iexists _; iexact HS1
    isplitl [HS2]; · iexists _; iexact HS2
    iexact Hr
  iexact Hg

end Cert.Kernel.Hand

end
-- ==== Proof.K.Body1.lean ====
/-
  Region 1 (the main kernel, grid 64, ten windows: nine inputs and the output): the pipeline's proof data at a
  parameter V, the core's buffer contents when the region is entered, and the body's obligation.

  At a point t every input window's staging buffer holds that window's block of its array (the row block t of g and
  of g_p; the whole array for the seven resident operands, whose block index never moves).  The body reads the nine
  blocks, reads the output buffer once without using the value, and stores one whole block: the block function
  blk1 of the nine input blocks.  The invariant is the untouched rest of the core; nothing is owed.
-/
import proofs.«410946_j27565100106019_3_alg».proof.Proof.LaunchK
import proofs.«410946_j27565100106019_3_alg».proof.Proof.Gen.Kernel.Skeleton
import proofs.«410946_j27565100106019_3_alg».proof.Proof.Gen.Kernel.Points
import proofs.«410946_j27565100106019_3_alg».proof.Proof.K.Blk
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The proof data -/

/-- The region's proof data on core c: the arrays as found; after the body at point t every input buffer still at its
    block and the output buffer at the block function of the nine input blocks; the invariant the untouched rest of
    the core; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => blk1 (iblk1 V c 0 t) (iblk1 V c 1 t) (iblk1 V c 2 t) (iblk1 V c 3 t) (iblk1 V c 4 t) (iblk1 V c 5 t)
        (iblk1 V c 6 t) (iblk1 V c 7 t) (iblk1 V c 8 t)
  Φ _ := Pipeline.ΦA spec1 c
  q _ := fullShare
  owed _ := 0

/-- The proof data's arrays are the contents at entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t
    = blk1 (iblk1 V c 0 t) (iblk1 V c 1 t) (iblk1 V c 2 t) (iblk1 V c 3 t) (iblk1 V c 4 t) (iblk1 V c 5 t)
        (iblk1 V c 6 t) (iblk1 V c 7 t) (iblk1 V c 8 t) := by dsimp only [dat1]

/-! ## Every input buffer holds its block -/

/-- The body leaves every input block in place and no input window is cut or idle, so at every point, fetched there or
    not, the input's current staging buffer holds the window's block (unfetched, the block index has not moved). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)

/-! ## The body's accesses and what it stores -/

/-- The whole-buffer rectangles the body's loads and its one store go through. -/
abbrev rBlk1 : Rect S1024x512 := Rect.unit (s := S1024x512) ![0, 0] S1024x512.size inb_S1024x512_S1024x512_0_0
abbrev rMat1 : Rect S512x512 := Rect.unit (s := S512x512) ![0, 0] S512x512.size inb_S512x512_S512x512_0_0
abbrev rRow1 : Rect S1x512 := Rect.unit (s := S1x512) ![0, 0] S1x512.size inb_S1x512_S1x512_0_0

theorem zero2_1 : (![0, 0] : Fin 2 → Nat) = fun _ => 0 := funext fun a => by fin_cases a <;> rfl

/-- The output buffer after the body as its one store: the piece over the whole-buffer rectangle whose payload is the
    block function of the nine loads. -/
def out1_9 (x0 : Vec F S1024x512 .f32) (x1 : Vec F S1024x512 .f32) (x2 : Vec F S512x512 .bf16) (x3 : Vec F S512x512 .bf16) (x4 : Vec F S1x512 .f32) (x5 : Vec F S512x512 .bf16) (x6 : Vec F S512x512 .bf16) (x7 : Vec F S1x512 .f32) (x8 : Vec F S1x512 .f32) : Vec F S1024x512 .f32 :=
  View.canon [⟨rBlk1, k1_pay1
    (k1_pay2 (View.ld x0 rBlk1) (View.ld x1 rBlk1) (View.ld x2 rMat1) (View.ld x3 rMat1) (View.ld x4 rRow1) (View.ld x5 rMat1) (View.ld x6 rMat1))
    (k1_pay3 (View.ld x0 rBlk1) (View.ld x1 rBlk1) (View.ld x2 rMat1) (View.ld x3 rMat1) (View.ld x4 rRow1) (View.ld x5 rMat1) (View.ld x6 rMat1))
    (View.ld x7 rRow1) (View.ld x8 rRow1)⟩]

/-- A load through a whole-buffer rectangle reads the contents and the one store through it leaves its payload: the
    output buffer holds the block function of the input blocks. -/
theorem out1_9_eq (x0 : Vec F S1024x512 .f32) (x1 : Vec F S1024x512 .f32) (x2 : Vec F S512x512 .bf16) (x3 : Vec F S512x512 .bf16) (x4 : Vec F S1x512 .f32) (x5 : Vec F S512x512 .bf16) (x6 : Vec F S512x512 .bf16) (x7 : Vec F S1x512 .f32) (x8 : Vec F S1x512 .f32) : out1_9 x0 x1 x2 x3 x4 x5 x6 x7 x8 = blk1 x0 x1 x2 x3 x4 x5 x6 x7 x8 := by
  unfold out1_9 blk1
  rw [View.canon_unit_zero zero2_1]
  simp only [View.ld_unit_zero (S := S1024x512) zero2_1, View.ld_unit_zero (S := S512x512) zero2_1, View.ld_unit_zero (S := S1x512) zero2_1]

/-- The one store covers the output buffer. -/
theorem cover1_9 (p0 : Vec F S1024x512 .f32) (y : S1024x512.Idx) :
    ∃ pc ∈ ([⟨rBlk1, p0⟩] : List (View.Piece (Elt F) S1024x512 .f32)), y ∈ pc.1.set :=
  ⟨_, List.mem_singleton_self _, View.mem_set_unit_zero zero2_1 inb_S1024x512_S1024x512_0_0 y⟩

/-! ## The body's triple -/

set_option maxHeartbeats 4000000 in
/-- The body on whole staging memrefs, the inputs at contents x0 … x8 and the output at anything, runs to the
    continuation with the inputs as they were and the output at the block function of the inputs. -/
theorem sound_kernel1 (c : Dev nD) (E : Set ℕ) (i : grid1.Coords) (a0 : Memref sig .tc .vmem S1024x512 .f32) (h0 : a0.IsWhole) (a1 : Memref sig .tc .vmem S1024x512 .f32) (h1 : a1.IsWhole) (a2 : Memref sig .tc .vmem S512x512 .bf16) (h2 : a2.IsWhole) (a3 : Memref sig .tc .vmem S512x512 .bf16) (h3 : a3.IsWhole) (a4 : Memref sig .tc .vmem S1x512 .f32) (h4 : a4.IsWhole) (a5 : Memref sig .tc .vmem S512x512 .bf16) (h5 : a5.IsWhole) (a6 : Memref sig .tc .vmem S512x512 .bf16) (h6 : a6.IsWhole) (a7 : Memref sig .tc .vmem S1x512 .f32) (h7 : a7.IsWhole) (a8 : Memref sig .tc .vmem S1x512 .f32) (h8 : a8.IsWhole) (a9 : Memref sig .tc .vmem S1024x512 .f32) (h9 : a9.IsWhole)
    (x0 : Vec F S1024x512 .f32) (x1 : Vec F S1024x512 .f32) (x2 : Vec F S512x512 .bf16) (x3 : Vec F S512x512 .bf16) (x4 : Vec F S1x512 .f32) (x5 : Vec F S512x512 .bf16) (x6 : Vec F S512x512 .bf16) (x7 : Vec F S1x512 .f32) (x8 : Vec F S1x512 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (blk1 x0 x1 x2 x3 x4 x5 x6 x7 x8)) -∗ K ⟨⟩))
      ⊢ wp frame (wpE (defs₀ (F := F)) Variants.none c none) E (cc1_main_kernel i a0 h0 a1 h1 a2 h2 a3 h3 a4 h4 a5 h5 a6 h6 a7 h7 a8 h8 a9 h9) K := by
  simp only [cc1_main_kernel_eq_skeleton]; unfold cc1_main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact (View.read_writes_eq_canon _ _ _ (cover1_9 _)).trans (out1_9_eq _ _ _ _ _ _ _ _ _)

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any point: the inputs' buffers hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.RunFold.lean ====
/-
  The program runs four stretches in order: five host operations, the pooling region, fifty-seven host operations,
  the main region.  This module names what every buffer of a core holds at each of the five boundaries, as a fold
  from the launch memory: a host stretch rewrites exactly the buffers its operations write; a region rewrites exactly
  its windows' arrays, each to what the pipeline's write-backs leave there, and an input window's array is left as
  it was found.  Every argument array is then followed back through the fold to the launch memory: no host
  operation writes one, and a region either reads it through an input window or does not touch it.
-/
import proofs.«410946_j27565100106019_3_alg».proof.Proof.LaunchK
import proofs.«410946_j27565100106019_3_alg».proof.Proof.Gen.Kernel.Skeleton
import proofs.«410946_j27565100106019_3_alg».proof.Proof.Gen.Kernel.Points
import proofs.«410946_j27565100106019_3_alg».proof.Proof.K.Body0
import proofs.«410946_j27565100106019_3_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the five boundaries -/

/-- Core `c`'s buffers when the program is launched. -/
abbrev W0 : Dev nD → Valuation τ sig (Elt F) := fun c b => (s₀ m ρ).mem ((c : Dev nD), b)
/-- After the first host stretch: what the pooling region is entered with. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- When the pooling region is left: each of its seven arrays at what the pipeline leaves after the last point,
    every other buffer as the region found it. -/
def W2 (c : Dev nD) : Valuation τ sig (Elt F) :=
  Pipeline.withArrays spec0 c (W1 m ρ c) fun w => (dat0 (V1 m ρ) c).arrAt w cfg0.N
/-- At a window's array the fold holds the pipeline's final contents of that window. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- Away from the seven arrays nothing moved. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- The two facts that put the region's arrays back among the core's buffers at its exit: each array at the
    pipeline's final contents, the rest as at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the main region is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- When the main region is left, which is when the program returns: each of its ten arrays at what the pipeline
    leaves after the last point, every other buffer as the region found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What the host stretches write

Every host operation writes one buffer, its result.  Listing the results of a stretch once, a buffer outside the
list comes through the stretch unchanged. -/

/-- The results of the first stretch's five operations. -/
abbrev written0 : List (Ref sig .tc) := [main_v0, main_v1, main_v2, main_v3, main_v4]
/-- The results of the second stretch's fifty-seven operations. -/
abbrev written1 : List (Ref sig .tc) :=
  [main_v6, main_v7, main_v8, main_v9, main_v10, main_v11, main_v12, main_v13, main_v14, main_v15, main_v16, main_v17,
   main_v18, main_v19, main_v20, main_v21, main_v22, main_v23, main_v24, main_v25, main_v26, main_v27, main_v28, main_v29,
   main_v30, main_v31, main_v32, main_v33, main_v34, main_v35, main_v36, main_v37, main_v38, main_v39, main_v40, main_v41,
   main_v42, main_v43, main_v44, main_v45, main_v46, main_v47, main_v48, main_v49, main_v50, main_v51, main_v52, main_v53,
   main_cst, main_v54, main_v55, main_v56, main_v57, main_v58, main_v59, main_v60, main_v61]

theorem hostOps0_writes_sub :
    (hostOps0 : List (HloOp τ sig (Elt F))).Forall fun op => op.writes ⊆ (written0.map (Proc.devRef (τ := τ) .tc)).toFinset := by
  simp only [List.Forall, StableHlo.nullary_writes, StableHlo.unary_writes, StableHlo.binary_writes, StableHlo.reshape_writes,
    Finset.singleton_subset_iff, List.mem_toFinset]
  repeat' apply And.intro
  all_goals exact List.mem_map_of_mem (by decide)

theorem hostOps1_writes_sub :
    (hostOps1 : List (HloOp τ sig (Elt F))).Forall fun op => op.writes ⊆ (written1.map (Proc.devRef (τ := τ) .tc)).toFinset := by
  simp only [List.Forall, StableHlo.nullary_writes, StableHlo.unary_writes, StableHlo.binary_writes, StableHlo.reshape_writes,
    Finset.singleton_subset_iff, List.mem_toFinset]
  repeat' apply And.intro
  all_goals exact List.mem_map_of_mem (by decide)

/-- A buffer that is no result of the first stretch holds after it what it held at launch. -/
theorem W1_of (c : Dev nD) (r : Ref sig .tc) (h : r ∉ written0) :
    W1 m ρ c (Proc.devRef .tc r) = W0 m ρ c (Proc.devRef .tc r) :=
  StableHlo.after_of_writes_sub hostOps0 _ hostOps0_writes_sub h
/-- A buffer that is no result of the second stretch holds after it what the pooling region left. -/
theorem W3_of (c : Dev nD) (r : Ref sig .tc) (h : r ∉ written1) :
    W3 m ρ c (Proc.devRef .tc r) = W2 m ρ c (Proc.devRef .tc r) :=
  StableHlo.after_of_writes_sub hostOps1 _ hostOps1_writes_sub h

/-! ## The arguments end as launched -/

/-- A buffer that is no window's array of either region and no result of either stretch ends as launched. -/
theorem W4_untouched (c : Dev nD) (r : Ref sig .tc) (h1 : ∀ w, Pipeline.arrRef spec1 w ≠ r) (hs1 : r ∉ written1)
    (h0 : ∀ w, Pipeline.arrRef spec0 w ≠ r) (hs0 : r ∉ written0) :
    W4 m ρ c (Proc.devRef .tc r) = m ((c : Thread nD τ).loc r) :=
  (W4_of_ne m ρ c r h1).trans <| (W3_of m ρ c r hs1).trans <| (W2_of_ne m ρ c r h0).trans <| (W1_of m ρ c r hs0).trans rfl

/-- The first argument (the rows g) is input window 2 of the pooling region and input window 0 of the main region:
    an input window's array is never written back, so each region leaves it as found. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) :=
        (W4_arr m ρ c 0).trans (((dat1 (V3 m ρ) c).arrAt_in 0 rfl _).trans (A_eq1 (V3 m ρ) c 0))
    _ = W2 m ρ c (Proc.devRef .tc main_arg0) := W3_of m ρ c main_arg0 (by decide)
    _ = W1 m ρ c (Proc.devRef .tc main_arg0) :=
        (W2_arr m ρ c 2).trans (((dat0 (V1 m ρ) c).arrAt_in 2 rfl _).trans (A_eq0 (V1 m ρ) c 2))
    _ = W0 m ρ c (Proc.devRef .tc main_arg0) := W1_of m ρ c main_arg0 (by decide)
    _ = m ((c : Thread nD τ).loc main_arg0) := rfl

/-- The second argument (the rows g_p) is input window 3 of the pooling region and input window 1 of the main region. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) :=
        (W4_arr m ρ c 1).trans (((dat1 (V3 m ρ) c).arrAt_in 1 rfl _).trans (A_eq1 (V3 m ρ) c 1))
    _ = W2 m ρ c (Proc.devRef .tc main_arg1) := W3_of m ρ c main_arg1 (by decide)
    _ = W1 m ρ c (Proc.devRef .tc main_arg1) :=
        (W2_arr m ρ c 3).trans (((dat0 (V1 m ρ) c).arrAt_in 3 rfl _).trans (A_eq0 (V1 m ρ) c 3))
    _ = W0 m ρ c (Proc.devRef .tc main_arg1) := W1_of m ρ c main_arg1 (by decide)
    _ = m ((c : Thread nD τ).loc main_arg1) := rfl

/-- The other thirteen arguments (the weights and biases) are read by host operations only. -/
theorem W4_main_arg2 (c : Dev nD) : W4 m ρ c (Proc.devRef .tc main_arg2) = m ((c : Thread nD τ).loc main_arg2) :=
  W4_untouched m ρ c main_arg2 (by decide) (by decide) (by decide) (by decide)
theorem W4_main_arg3 (c : Dev nD) : W4 m ρ c (Proc.devRef .tc main_arg3) = m ((c : Thread nD τ).loc main_arg3) :=
  W4_untouched m ρ c main_arg3 (by decide) (by decide) (by decide) (by decide)
theorem W4_main_arg4 (c : Dev nD) : W4 m ρ c (Proc.devRef .tc main_arg4) = m ((c : Thread nD τ).loc main_arg4) :=
  W4_untouched m ρ c main_arg4 (by decide) (by decide) (by decide) (by decide)
theorem W4_main_arg5 (c : Dev nD) : W4 m ρ c (Proc.devRef .tc main_arg5) = m ((c : Thread nD τ).loc main_arg5) :=
  W4_untouched m ρ c main_arg5 (by decide) (by decide) (by decide) (by decide)
theorem W4_main_arg6 (c : Dev nD) : W4 m ρ c (Proc.devRef .tc main_arg6) = m ((c : Thread nD τ).loc main_arg6) :=
  W4_untouched m ρ c main_arg6 (by decide) (by decide) (by decide) (by decide)
theorem W4_main_arg7 (c : Dev nD) : W4 m ρ c (Proc.devRef .tc main_arg7) = m ((c : Thread nD τ).loc main_arg7) :=
  W4_untouched m ρ c main_arg7 (by decide) (by decide) (by decide) (by decide)
theorem W4_main_arg8 (c : Dev nD) : W4 m ρ c (Proc.devRef .tc main_arg8) = m ((c : Thread nD τ).loc main_arg8) :=
  W4_untouched m ρ c main_arg8 (by decide) (by decide) (by decide) (by decide)
theorem W4_main_arg9 (c : Dev nD) : W4 m ρ c (Proc.devRef .tc main_arg9) = m ((c : Thread nD τ).loc main_arg9) :=
  W4_untouched m ρ c main_arg9 (by decide) (by decide) (by decide) (by decide)
theorem W4_main_arg10 (c : Dev nD) : W4 m ρ c (Proc.devRef .tc main_arg10) = m ((c : Thread nD τ).loc main_arg10) :=
  W4_untouched m ρ c main_arg10 (by decide) (by decide) (by decide) (by decide)
theorem W4_main_arg11 (c : Dev nD) : W4 m ρ c (Proc.devRef .tc main_arg11) = m ((c : Thread nD τ).loc main_arg11) :=
  W4_untouched m ρ c main_arg11 (by decide) (by decide) (by decide) (by decide)
theorem W4_main_arg12 (c : Dev nD) : W4 m ρ c (Proc.devRef .tc main_arg12) = m ((c : Thread nD τ).loc main_arg12) :=
  W4_untouched m ρ c main_arg12 (by decide) (by decide) (by decide) (by decide)
theorem W4_main_arg13 (c : Dev nD) : W4 m ρ c (Proc.devRef .tc main_arg13) = m ((c : Thread nD τ).loc main_arg13) :=
  W4_untouched m ρ c main_arg13 (by decide) (by decide) (by decide) (by decide)
theorem W4_main_arg14 (c : Dev nD) : W4 m ρ c (Proc.devRef .tc main_arg14) = m ((c : Thread nD τ).loc main_arg14) :=
  W4_untouched m ρ c main_arg14 (by decide) (by decide) (by decide) (by decide)

end Cert.Kernel.Hand

end
-- ==== Proof.K.Run.lean ====
/-
  The run of the whole program on the TensorCores, from any launch memory: it terminates, nothing faults, and when
  it returns every unscoped buffer of every core holds what the fold of the boundaries says (W4).

  The program is cut into its four stretches.  Between two stretches a core holds all of its unscoped buffers at the
  boundary's contents, its generator register at some state, and owes nothing.  A host stretch moves the buffers from
  one boundary's contents to the next by the host rule.  A region takes its windows' arrays out of the unscoped
  buffers, hands the generator register and the scoped buffers to its invariant, runs the pipeline, and puts
  the arrays back at what the write-backs left.  The pooling region's invariant carries the streamed softmax's state
  in three scratch buffers; it is entered from, and gives back, the plain invariant (scoped rest and generator
  register), so only those two entailments are asked of it here.
-/
import proofs.«410946_j27565100106019_3_alg».proof.Proof.K.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Both pipelines' proof data, and what a core holds beside its buffers -/

/-- Neither pipeline has a prefetched table. -/
abbrev adm : (p : Fin 2) → (pcfgs (F := F) p).Adm := fun p => (cfgs p).toPCfg_adm
/-- The proof data of each pipeline at the contents its region is entered with: the pooling region after the first
    host stretch, the main region after the second. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core waits on another: no level is assigned. -/
abbrev L : GSem nD τ sig → Finset Unit := fun _ => ∅
abbrev lv : GSem nD τ sig → Unit → ℕ := fun _ _ => 0
/-- Beside its buffers a core holds, between any two stretches, its generator register at some state and the record
    that it owes nothing. -/
abbrev R (c : Dev nD) : sProp 𝕄 := iprop((∃ r, prngReg c r) ∗ ∃ W, owes (c : Thread nD τ) (0 : CellTallies nD τ sig Unit) W)
/-- A line of host operations as a stretch of the run: from the unscoped buffers at `W` to the same buffers at what the
    operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of either stretch allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- A TensorCore reference that is not scoped is one of the unscoped buffers. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds when the program returns, the record of owing nothing apart: the unscoped buffers at the last
    boundary's contents and the generator register. -/
abbrev Tₙ (c : Dev nD) : sProp 𝕄 := iprop(StableHlo.held (c : Thread nD τ) (Pipeline.ucRefs τ sig) (W4 m ρ c) ∗ ∃ r, prngReg c r)

/-! ## The plain invariant, in and out

The plain invariant of a region is its core's scoped buffers that are no staging buffer, each at some contents, and the
generator register.  It is made from the register, whatever stands for the tables (there are none) and those scoped
buffers; and it gives the same back. -/

theorem plain_in {gr W : ℕ} (win : Fin W → Pipeline.WinSpec sig gr) (c : Dev nD) (T : sProp 𝕄) :
    iprop((∃ r, prngReg c r) ∗ T ∗ Pipeline.scopedRest win c) ⊢ (Pipeline.ΦA win c : sProp 𝕄) := by
  unfold Pipeline.ΦA
  iintro ⟨Hg, -, Hs⟩
  isplitl [Hs]; · iexact Hs
  iexact Hg

theorem plain_out {gr W : ℕ} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hs, Hg⟩
  isplitl [Hg]; · iexact Hg
  isplitr; · iempintro
  iexact Hs

/-! ## The two regions as stretches of the run -/

set_option backward.isDefEq.respectTransparency.types false in
/-- The pooling region: entered with the unscoped buffers at `W1`, left with them at `W2`.  Its invariant is entered
    from the plain one and gives the plain one back (the scratch buffers' contents are forgotten at both ends). -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hbufs, Hg, Howe⟩, -, -⟩
    ihave Hparts := hsplit $$ Hbufs
    icases Hparts with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%T, Howe⟩
      iexists T; isplitr
      · ipureintro; exact fun _ _ => Or.inl trivial
      iexact Howe
    isplitl [Hg]; · iexact Hg
    iexact Hrest
  hin c := by
    rw [show (pdats m ρ 0 c).Φ 0 = (dat0 (V1 m ρ) c).Φ 0 from rfl]
    exact (plain_in spec0 c _).trans (hin0 (V1 m ρ) c)
  hout c := by
    rw [Pipeline.ownSems0_none, show (pdats m ρ 0 c).Φ (Fin.last _) = (dat0 (V1 m ρ) c).Φ (Fin.last cfg0.N) from rfl]
    exact (hout0 (V1 m ρ) c).trans (plain_out spec0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Harr, Howe, Hg, Hrest⟩
    imodintro
    isplitl [Harr Hrest]
    · iapply hjoin; isplitl [Harr] <;> iassumption
    isplitl [Hg]; · iexact Hg
    unfold Pipeline.Dat.owesAt Pipeline.owesWithin
    icases Howe with ⟨%T, -, Howe⟩
    iexists T; iexact Howe

set_option backward.isDefEq.respectTransparency.types false in
/-- The main region: entered with the unscoped buffers at `W3`, left with them at `W4`, which is what the program
    returns with.  Its invariant is the plain one at every point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hbufs, Hg, Howe⟩, -, -⟩
    ihave Hparts := hsplit $$ Hbufs
    icases Hparts with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%T, Howe⟩
      iexists T; isplitr
      · ipureintro; exact fun _ _ => Or.inl trivial
      iexact Howe
    isplitl [Hg]; · iexact Hg
    iexact Hrest
  hin c := by
    rw [show (pdats m ρ 1 c).Φ 0 = Pipeline.ΦA spec1 c from rfl]
    exact plain_in spec1 c _
  hout c := by
    rw [Pipeline.ownSems0_none, show (pdats m ρ 1 c).Φ (Fin.last _) = Pipeline.ΦA spec1 c from rfl]
    exact plain_out spec1 c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Harr, Howe, Hg, Hrest⟩
    imodintro
    isplitr [Howe]
    · isplitl [Harr Hrest]
      · iapply hjoin; isplitl [Harr] <;> iassumption
      iexact Hg
    unfold Pipeline.Dat.owesAt Pipeline.owesWithin
    icases Howe with ⟨%T, -, Howe⟩
    iexists T; iexact Howe

/-! ## The program as its four stretches, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the four stretches run in order. -/
theorem main_run (c : Dev nD) : main (F := F) c = Pipeline.Seg.run (segs m ρ) := (main_chain c).trans (by chain_rfl)

set_option backward.isDefEq.respectTransparency.types false in
/-- From any launch memory with the semaphores at zero, every weakly fair execution of the program on the TensorCores
    terminates without a fault, and in its final state every unscoped buffer of every core holds the last boundary's
    contents `W4`. -/
theorem run_named : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howe, -, Hg, -⟩, -⟩
      imodintro
      isplitl [Hbufs]; · iexact Hbufs
      isplitl [Hg]; · iexists _; iexact Hg
      iexists ∅; iexact Howe)
    (QY := fun c s => ∀ b ∈ Pipeline.ucRefs τ sig, s.mem (((c : Thread nD τ)).1, b) = W4 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W4 m ρ c) s')
      isplitl [Hbufs] <;> iassumption)
    (hQ := fun s h => h)

/-! ## What the run says of the arguments and of the result -/

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c),
      (h c _ (mem_uc main_arg14 (by decide))).trans (W4_main_arg14 m ρ c)⟩) (run_named m ρ)

/-- The result array ends at what the main region's pipeline leaves in its output window (window 9) after the last
    point, and the arguments end as launched. -/
theorem run_value : θ_run defs (onTc (τ := τ) (main (F := F))) ⟨m, fun _ => 0, ρ⟩ (fun r => ∀ c : Dev nD,
      r.2.mem ((c.tc : Thread nD τ).loc main_v62) = (dat1 (V3 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v62 (by decide))).trans (W4_arr m ρ c 9),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c),
      (h c _ (mem_uc main_arg14 (by decide))).trans (W4_main_arg14 m ρ c)⟩) (run_named m ρ)

end Cert.Kernel.Hand

end
-- ==== Proof.KI.Blk.lean ====
/-
  The two kernels' bodies as pure functions of the blocks they load, generic in the float instance.

  Pooling kernel (grid 2 × 32, one row block of 1024 rows of g and g_p per point): the carried state is the running row
  maximum m, the running denominator l and the running weighted sum acc of a streamed softmax.  One point maps the
  state (m, l, acc) to (m', l', acc') with
      s    = Ws_hi·gᵀ + Ws_hi·(g − g)ᵀ + Ws_lo·gᵀ                      (the 512 × 1024 score block)
      m'   = max m (rowmax s)
      l'   = exp (m − m') · l + rowsum (exp (s − m'))
      acc' = exp (m − m') · acc + exp (s − m') · g_p
  and the state is reset to (−∞, 0, 0) at the first point of each half of the grid.

  Main kernel (grid 64, one row block of 1024 rows per point): the whole block function, from the nine input blocks to
  the output block (projection, scores against the resident Kᵀ, row softmax, value product, residual, layer norm).
-/
import proofs.«410946_j27565100106019_3_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- The streamed softmax's carried state: running maximum, running denominator, running weighted sum. -/
abbrev St0 (F : FTy → Type) [FloatOps F] : Type :=
  Vec F S512x1 .f32 × Vec F S512x1 .f32 × Vec F S512x512 .f32

/-- The state a half of the grid starts from: (−∞, 0, 0). -/
def init0 : St0 F := (k0_pay6, k0_pay7, k0_pay8)

/-- One point of the pooling kernel on the state: `wh`, `wl` the two halves of the split Ws, `g`, `gp` the point's row
    blocks of g and g_p. -/
def step0 (wh wl : Vec F S512x512 .bf16) (g gp : Vec F S1024x512 .f32) (s : St0 F) : St0 F :=
  (k0_pay2 (k0_pay10 g wh wl s.1),
   k0_pay13 g wh wl s.1 s.1 s.2.1,
   k0_pay1 (k0_pay11 g wh wl s.1 s.1) (k0_pay12 g wh wl s.1) gp s.2.2)

/-- The main kernel's block function: the output block of one point from its nine input blocks (g, g_p, Wqᵀ, Wgpᵀ,
    bq + bgp, Kᵀ/8, V, γ, β). -/
def blk1 (x0 x1 : Vec F S1024x512 .f32) (x2 x3 : Vec F S512x512 .bf16) (x4 : Vec F S1x512 .f32)
    (x5 x6 : Vec F S512x512 .bf16) (x7 x8 : Vec F S1x512 .f32) : Vec F S1024x512 .f32 :=
  k1_pay1 (k1_pay2 x0 x1 x2 x3 x4 x5 x6) (k1_pay3 x0 x1 x2 x3 x4 x5 x6) x7 x8

end Cert.KernelIdeal.Hand

end
-- ==== Proof.KI.Body0a.lean ====
/-
  The pooling kernel's body at a point that does not reset (second grid coordinate ≠ 0), on any whole memrefs:
  from the four input blocks and the scratch at a state `s`, it leaves the inputs as they were, the scratch at
  `step0` of the blocks and `s`, and the three output buffers at that new state reshaped.  Every load and store is
  through the whole buffer, so a load reads the buffer's contents (or the payload last stored) and a store leaves
  its payload.
-/
import proofs.«410946_j27565100106019_3_alg».proof.Proof.LaunchKI
import proofs.«410946_j27565100106019_3_alg».proof.Proof.Gen.KernelIdeal.Skeleton
import proofs.«410946_j27565100106019_3_alg».proof.Proof.Gen.KernelIdeal.Points
import proofs.«410946_j27565100106019_3_alg».proof.Proof.KI.Blk
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 and of a rank-3 whole-buffer access. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Reading back a buffer whose LAST store went through the whole-buffer rectangle at zero offsets gives that store's
    payload, whatever the buffer held and whatever was stored before. -/
theorem read_writes_unit_zero {sig' : RefSig} {κ : Kind} {sp : Space} {Val : EltTy → Type} [∀ e, Nonempty (Val e)] {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.Mem.head _, View.mem_set_unit_zero h inb y⟩),
    View.canon_cons_unit_zero h inb w L]

/-- The body's one branch condition (the reset), from the grid coordinates. -/
abbrev cond0 (i : grid0.Coords) : Prop :=
  (Scalar.cmpi .ne (Scalar.extui (Scalar.cmpi .eq (BitVec.ofNat 32 (i 1).val) 0#32)) 0#32) = 1#1

/-- It holds exactly at the points whose index is a multiple of 32 (the first point of each half). -/
theorem hcond0 : ∀ t : Fin cfg0.N, cond0 (grid0.coords t) ↔ t.val % 32 = 0 :=
  (by decide +kernel : ∀ t : Fin grid0.N, cond0 (grid0.coords t) ↔ t.val % 32 = 0)

set_option maxHeartbeats 4000000 in
/-- The body where the reset is not taken, on whole memrefs: the inputs' at their blocks, the outputs' at anything, the
    scratch at a state `s`.  It runs to the continuation holding the inputs as they were, the scratch at `step0` of the
    blocks and `s`, and each output's buffer at the matching component of that new state, reshaped. -/
theorem run0_carry (c : Dev nD) (E : Set ℕ) (i : grid0.Coords) (arg2 : Memref sig .tc .vmem S512x512 .bf16) (harg2 : arg2.IsWhole) (arg3 : Memref sig .tc .vmem S512x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole)
    (hc : ¬cond0 i) (x0 x1 : Vec F S512x512 .bf16) (x2 x3 : Vec F S1024x512 .f32) (s : St0 F) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s.1 ∗ owns (c : Thread nD τ) arg10 fullShare s.2.1 ∗ owns (c : Thread nD τ) arg11 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay3 (step0 x0 x1 x2 x3 s).1) ∗ owns (c : Thread nD τ) arg7 fullShare (k0_pay4 (step0 x0 x1 x2 x3 s).2.1) ∗ owns (c : Thread nD τ) arg8 fullShare (k0_pay5 (step0 x0 x1 x2 x3 s).2.2)
            ∗ owns (c : Thread nD τ) arg9 fullShare (step0 x0 x1 x2 x3 s).1 ∗ owns (c : Thread nD τ) arg10 fullShare (step0 x0 x1 x2 x3 s).2.1 ∗ owns (c : Thread nD τ) arg11 fullShare (step0 x0 x1 x2 x3 s).2.2) -∗ K ⟨⟩))
      ⊢ wp frame (wpE (defs₀ (F := F)) Variants.none c none) E (cc0_pool_kernel i arg2 harg2 arg3 harg3 arg4 harg4 arg5 harg5 arg6 harg6 arg7 harg7 arg8 harg8 arg9 harg9 arg10 harg10 arg11 harg11) K := by
  simp only [cc0_pool_kernel_eq_skeleton]; unfold cc0_pool_kernel_skel
  simp only [k0_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg9.eq_unread hf9; obtain rfl := harg10.eq_unread hf10; obtain rfl := harg11.eq_unread hf11
  sl_exec (disch := exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [read_writes_unit_zero _ _ hz3]
    simp only [View.readCov_cons_toLoadRect, View.readAt_eq_ld, Memref.IsWhole.read_unread, View.ld_unit_zero (S := S512x512) hz2, View.ld_unit_zero (S := S1024x512) hz2, View.ld_unit_zero (S := S512x1) hz2]
    rfl
  isplitl [H7]
  · iexists _; isplitr
    swap; · iexact H7
    ipureintro
    sl_unfold_run_names
    rw [read_writes_unit_zero _ _ hz3]
    simp only [View.readCov_cons_toLoadRect, View.readAt_eq_ld, Memref.IsWhole.read_unread, View.ld_unit_zero (S := S512x512) hz2, View.ld_unit_zero (S := S1024x512) hz2, View.ld_unit_zero (S := S512x1) hz2]
    rfl
  isplitl [H8]
  · iexists _; isplitr
    swap; · iexact H8
    ipureintro
    sl_unfold_run_names
    rw [read_writes_unit_zero _ _ hz3]
    simp only [View.readCov_cons_toLoadRect, View.readAt_eq_ld, Memref.IsWhole.read_unread, View.ld_unit_zero (S := S512x512) hz2, View.ld_unit_zero (S := S1024x512) hz2, View.ld_unit_zero (S := S512x1) hz2]
    rfl
  isplitl [H9]
  · iexists _; isplitr
    swap; · iexact H9
    ipureintro
    sl_unfold_run_names
    rw [read_writes_unit_zero _ _ hz2]
    simp only [View.readCov_cons_toLoadRect, View.readAt_eq_ld, Memref.IsWhole.read_unread, View.ld_unit_zero (S := S512x512) hz2, View.ld_unit_zero (S := S1024x512) hz2, View.ld_unit_zero (S := S512x1) hz2]
    rfl
  isplitl [H10]
  · iexists _; isplitr
    swap; · iexact H10
    ipureintro
    sl_unfold_run_names
    rw [read_writes_unit_zero _ _ hz2]
    simp only [View.readCov_cons_toLoadRect, View.readAt_eq_ld, Memref.IsWhole.read_unread, View.ld_unit_zero (S := S512x512) hz2, View.ld_unit_zero (S := S1024x512) hz2, View.ld_unit_zero (S := S512x1) hz2]
    rfl
  iexists _; isplitr
  swap; · iexact H11
  ipureintro
  sl_unfold_run_names
  rw [read_writes_unit_zero _ _ hz2]
  simp only [View.readCov_cons_toLoadRect, View.readAt_eq_ld, Memref.IsWhole.read_unread, View.ld_unit_zero (S := S512x512) hz2, View.ld_unit_zero (S := S1024x512) hz2, View.ld_unit_zero (S := S512x1) hz2]
  rfl

end Cert.KernelIdeal.Hand

end
-- ==== Proof.KI.Body0b.lean ====
/-
  The pooling kernel's body at a point that resets (second grid coordinate 0), on any whole memrefs: whatever the
  scratch held, the body first stores (−∞, 0, 0) into it, so the state it loads is `init0`; from there it runs as at
  any other point.
-/
import proofs.«410946_j27565100106019_3_alg».proof.Proof.KI.Body0a
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the reset is taken, on whole memrefs: the inputs' at their blocks, the outputs' and the scratch at
    anything.  It runs to the continuation holding the inputs as they were, the scratch at `step0` of the blocks and
    `init0`, and each output's buffer at the matching component of that new state, reshaped. -/
theorem run0_reset (c : Dev nD) (E : Set ℕ) (i : grid0.Coords) (arg2 : Memref sig .tc .vmem S512x512 .bf16) (harg2 : arg2.IsWhole) (arg3 : Memref sig .tc .vmem S512x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole)
    (hc : cond0 i) (x0 x1 : Vec F S512x512 .bf16) (x2 x3 : Vec F S1024x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay3 (step0 x0 x1 x2 x3 init0).1) ∗ owns (c : Thread nD τ) arg7 fullShare (k0_pay4 (step0 x0 x1 x2 x3 init0).2.1) ∗ owns (c : Thread nD τ) arg8 fullShare (k0_pay5 (step0 x0 x1 x2 x3 init0).2.2)
            ∗ owns (c : Thread nD τ) arg9 fullShare (step0 x0 x1 x2 x3 init0).1 ∗ owns (c : Thread nD τ) arg10 fullShare (step0 x0 x1 x2 x3 init0).2.1 ∗ owns (c : Thread nD τ) arg11 fullShare (step0 x0 x1 x2 x3 init0).2.2) -∗ K ⟨⟩))
      ⊢ wp frame (wpE (defs₀ (F := F)) Variants.none c none) E (cc0_pool_kernel i arg2 harg2 arg3 harg3 arg4 harg4 arg5 harg5 arg6 harg6 arg7 harg7 arg8 harg8 arg9 harg9 arg10 harg10 arg11 harg11) K := by
  simp only [cc0_pool_kernel_eq_skeleton]; unfold cc0_pool_kernel_skel
  simp only [k0_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf2; obtain rfl := harg3.eq_unread hf3; obtain rfl := harg4.eq_unread hf4; obtain rfl := harg5.eq_unread hf5
  sl_exec (disch := exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [read_writes_unit_zero _ _ hz3]
    simp only [View.readCov_cons_toLoadRect, View.readAt_eq_ld, Memref.IsWhole.read_unread, View.ld_unit_zero (S := S512x512) hz2, View.ld_unit_zero (S := S1024x512) hz2, View.ld_unit_zero (S := S512x1) hz2]
    rfl
  isplitl [H7]
  · iexists _; isplitr
    swap; · iexact H7
    ipureintro
    sl_unfold_run_names
    rw [read_writes_unit_zero _ _ hz3]
    simp only [View.readCov_cons_toLoadRect, View.readAt_eq_ld, Memref.IsWhole.read_unread, View.ld_unit_zero (S := S512x512) hz2, View.ld_unit_zero (S := S1024x512) hz2, View.ld_unit_zero (S := S512x1) hz2]
    rfl
  isplitl [H8]
  · iexists _; isplitr
    swap; · iexact H8
    ipureintro
    sl_unfold_run_names
    rw [read_writes_unit_zero _ _ hz3]
    simp only [View.readCov_cons_toLoadRect, View.readAt_eq_ld, Memref.IsWhole.read_unread, View.ld_unit_zero (S := S512x512) hz2, View.ld_unit_zero (S := S1024x512) hz2, View.ld_unit_zero (S := S512x1) hz2]
    rfl
  isplitl [H9]
  · iexists _; isplitr
    swap; · iexact H9
    ipureintro
    sl_unfold_run_names
    rw [read_writes_unit_zero _ _ hz2]
    simp only [View.readCov_cons_toLoadRect, View.readAt_eq_ld, Memref.IsWhole.read_unread, View.ld_unit_zero (S := S512x512) hz2, View.ld_unit_zero (S := S1024x512) hz2, View.ld_unit_zero (S := S512x1) hz2]
    rfl
  isplitl [H10]
  · iexists _; isplitr
    swap; · iexact H10
    ipureintro
    sl_unfold_run_names
    rw [read_writes_unit_zero _ _ hz2]
    simp only [View.readCov_cons_toLoadRect, View.readAt_eq_ld, Memref.IsWhole.read_unread, View.ld_unit_zero (S := S512x512) hz2, View.ld_unit_zero (S := S1024x512) hz2, View.ld_unit_zero (S := S512x1) hz2]
    rfl
  iexists _; isplitr
  swap; · iexact H11
  ipureintro
  sl_unfold_run_names
  rw [read_writes_unit_zero _ _ hz2]
  simp only [View.readCov_cons_toLoadRect, View.readAt_eq_ld, Memref.IsWhole.read_unread, View.ld_unit_zero (S := S512x512) hz2, View.ld_unit_zero (S := S1024x512) hz2, View.ld_unit_zero (S := S512x1) hz2]
  rfl

end Cert.KernelIdeal.Hand

end
-- ==== Proof.KI.Body0.lean ====
/-
  Region 0 (the pooling kernel, grid 2 × 32) at the contents `V` its core's buffers hold when the region is entered.

  The three scratch buffers carry the streamed softmax's state (m, l, acc) from one point to the next.  At a point
  whose second coordinate is 0 the body first stores (−∞, 0, 0) into them, so the state it then loads is `init0`;
  at every other point it loads what the point before left.  Either way it stores `step0` of the loaded state and
  of the point's four input blocks back, and copies the new state, reshaped, into the three output windows' buffers.
  `stAt0 V c n` is the state after point `n`, by recursion on `n`; the invariant before point `n + 1` holds the
  scratch buffers at `stAt0 V c n`, and before point 0 at anything.
-/
import proofs.«410946_j27565100106019_3_alg».proof.Proof.KI.Body0b
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks and the carried state -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The state (m, l, acc) the scratch buffers hold after the body at point `n`: one step from `init0` at a point
    that resets (its index a multiple of 32), else one step from the state after point `n - 1`. -/
def stAt0 (c : Dev nD) : (n : ℕ) → n < cfg0.N → St0 F
  | 0, hn => step0 (iblk0 V c 0 ⟨0, hn⟩) (iblk0 V c 1 ⟨0, hn⟩) (iblk0 V c 2 ⟨0, hn⟩) (iblk0 V c 3 ⟨0, hn⟩) init0
  | n + 1, hn => step0 (iblk0 V c 0 ⟨n + 1, hn⟩) (iblk0 V c 1 ⟨n + 1, hn⟩) (iblk0 V c 2 ⟨n + 1, hn⟩) (iblk0 V c 3 ⟨n + 1, hn⟩)
      (if (n + 1) % 32 = 0 then init0 else stAt0 c n (Nat.lt_of_succ_lt hn))

theorem stAt0_reset (c : Dev nD) (t : Fin cfg0.N) (h : t.val % 32 = 0) :
    stAt0 V c t.val t.isLt = step0 (iblk0 V c 0 t) (iblk0 V c 1 t) (iblk0 V c 2 t) (iblk0 V c 3 t) init0 := by
  obtain ⟨n, hn⟩ := t
  cases n with
  | zero => rfl
  | succ n => show step0 _ _ _ _ (if (n + 1) % 32 = 0 then _ else _) = _; rw [if_pos h]

theorem stAt0_carry (c : Dev nD) (t : Fin cfg0.N) (h : t.val % 32 ≠ 0) :
    stAt0 V c t.val t.isLt = step0 (iblk0 V c 0 t) (iblk0 V c 1 t) (iblk0 V c 2 t) (iblk0 V c 3 t) (stAt0 V c (t.val - 1) (by omega)) := by
  obtain ⟨n, hn⟩ := t
  cases n with
  | zero => exact absurd (Nat.zero_mod _) h
  | succ n => show step0 _ _ _ _ (if (n + 1) % 32 = 0 then _ else _) = _; rw [if_neg h]; rfl

/-! ## The invariant -/

/-- The three scratch operands, whole scoped buffers. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x512 .f32 := Memref.whole cc0_scratch2

/-- The core's other scoped buffers (the second region's staging buffers), each at some contents: the body never
    touches them. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_stg9_1), ((c : Thread nD τ).loc cc1_stg9_1) ↦{fullShare} f))

/-- What the region is handed, with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ rest0 (F := F) c) ∗ (∃ r, prngReg c r)) := by
  unfold Pipeline.ΦA rest0; rw [scopedRest0_eq]; simp only [scM0_0, scM0_1, scM0_2, owns_whole]; try rfl

/-- The invariant before point `n`: before the first point what the region is handed (the scratch at anything);
    afterwards the scratch buffers at the state after point `n - 1`. -/
def PhiS0 (c : Dev nD) : (n : ℕ) → n ≤ cfg0.N → sProp 𝕄
  | 0, _ => Pipeline.ΦA spec0 c
  | n + 1, hn => iprop(iprop(owns (c : Thread nD τ) scM0_0 fullShare (stAt0 V c n hn).1
      ∗ owns (c : Thread nD τ) scM0_1 fullShare (stAt0 V c n hn).2.1
      ∗ owns (c : Thread nD τ) scM0_2 fullShare (stAt0 V c n hn).2.2 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (stAt0 V c n hn).1
      ∗ owns (c : Thread nD τ) scM0_1 fullShare (stAt0 V c n hn).2.1
      ∗ owns (c : Thread nD τ) scM0_2 fullShare (stAt0 V c n hn).2.2 ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (stAt0 V c (n - 1) (by omega)).1
      ∗ owns (c : Thread nD τ) scM0_1 fullShare (stAt0 V c (n - 1) (by omega)).2.1
      ∗ owns (c : Thread nD τ) scM0_2 fullShare (stAt0 V c (n - 1) (by omega)).2.2 ∗ rest0 (F := F) c) ∗ (∃ r, prngReg c r)) := by
  cases n with
  | zero => exact absurd rfl hz
  | succ n => rfl

/-! ## The proof data -/

/-- The proof data of the pooling pipeline on core `c`: the arrays as the region finds them; after the body at
    point `t` each input's buffer at its block and the three outputs' at the new state, reshaped. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (stAt0 V c t.val t.isLt).1
    | ⟨5, _⟩ => k0_pay4 (stAt0 V c t.val t.isLt).2.1
    | ⟨6, _⟩ => k0_pay5 (stAt0 V c t.val t.isLt).2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay3 (stAt0 V c t.val t.isLt).1 := by dsimp only [dat0]
theorem after0_5 (c : Dev nD) (t : Fin cfg0.N) : (dat0 V c).after 5 t = k0_pay4 (stAt0 V c t.val t.isLt).2.1 := by dsimp only [dat0]
theorem after0_6 (c : Dev nD) (t : Fin cfg0.N) : (dat0 V c).after 6 t = k0_pay5 (stAt0 V c t.val t.isLt).2.2 := by dsimp only [dat0]

/-! ## What the body finds in the input windows' buffers -/

/-- Each input's current staging buffer holds its block at every point, fetched there or not: an input the body only
    reads keeps its block, and an unfetched window's block index has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body obligation -/

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1600000 in
/-- The body at any point.  The inputs' buffers hold their blocks.  At a point that resets, the scratch is handed over
    at whatever it holds (before point 0 the region's own `∃`; later the state the point before left, forgotten) and
    comes back at one step from `init0`; at any other point it is handed over at the state the point before left and
    comes back at one step from that.  The other scoped buffers, the generator register and the core's tallies pass
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6]
  by_cases h0 : t.val % 32 = 0
  · rw [stAt0_reset V c t h0]
    by_cases hz : t.val = 0
    · rw [PhiS0_castSucc V c t, PhiS0_zero V c _ _ hz, PhiA0_eq]
      iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (run0_reset c Set.univ (grid0.coords t) _ _ _ _ _ _ _ _ _ _ _ _ _ _ _ _ _ _ _ _ ((hcond0 t).mpr h0)
        (iblk0 V c 0 t) (iblk0 V c 1 t) (iblk0 V c 2 t) (iblk0 V c 3 t) _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hr Hg]
      · isplitr [Hg]
        · isplitl [HS0]; · iexact HS0
          isplitl [HS1]; · iexact HS1
          isplitl [HS2]; · iexact HS2
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS0_castSucc V c t, PhiS0_pos V c _ _ hz]
      iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (run0_reset c Set.univ (grid0.coords t) _ _ _ _ _ _ _ _ _ _ _ _ _ _ _ _ _ _ _ _ ((hcond0 t).mpr h0)
        (iblk0 V c 0 t) (iblk0 V c 1 t) (iblk0 V c 2 t) (iblk0 V c 3 t) _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexists _; iexact HS0
      isplitl [HS1]; · iexists _; iexact HS1
      isplitl [HS2]; · iexists _; iexact HS2
      iintro ⟨H0, H1, H2, H3, H4, H5, H6, HS0, HS1, HS2⟩
      isplitl [HS0 HS1 HS2 Hr Hg]
      · isplitr [Hg]
        · isplitl [HS0]; · iexact HS0
          isplitl [HS1]; · iexact HS1
          isplitl [HS2]; · iexact HS2
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun e => h0 (by rw [e])
    rw [stAt0_carry V c t h0, PhiS0_castSucc V c t, PhiS0_pos V c _ _ hz]
    iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (run0_carry c Set.univ (grid0.coords t) _ _ _ _ _ _ _ _ _ _ _ _ _ _ _ _ _ _ _ _ (fun h => h0 ((hcond0 t).mp h))
      (iblk0 V c 0 t) (iblk0 V c 1 t) (iblk0 V c 2 t) (iblk0 V c 3 t) (stAt0 V c (t.val - 1) (by omega)) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hr Hg]
    · isplitr [Hg]
      · isplitl [HS0]; · iexact HS0
        isplitl [HS1]; · iexact HS1
        isplitl [HS2]; · iexact HS2
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives back what the region was handed: the scratch's named state is forgotten. -/
theorem hout0 (c : Dev nD) : (dat0 V c).Φ (Fin.last cfg0.N) ⊢ Pipeline.ΦA spec0 c := by
  have hN : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ hN, PhiA0_eq]
  iintro ⟨⟨HS0, HS1, HS2, Hr⟩, Hg⟩
  isplitr [Hg]
  · isplitl [HS0]; · iexists _; iexact HS0
    isplitl [HS1]; · iexists _; iexact HS1
    isplitl [HS2]; · iexists _; iexact HS2
    iexact Hr
  iexact Hg

end Cert.KernelIdeal.Hand

end
-- ==== Proof.KI.Body1.lean ====
/-
  Region 1 (the main kernel, grid 64, ten windows: nine inputs and the output): the pipeline's proof data at a
  parameter V, the core's buffer contents when the region is entered, and the body's obligation.

  At a point t every input window's staging buffer holds that window's block of its array (the row block t of g and
  of g_p; the whole array for the seven resident operands, whose block index never moves).  The body reads the nine
  blocks, reads the output buffer once without using the value, and stores one whole block: the block function
  blk1 of the nine input blocks.  The invariant is the untouched rest of the core; nothing is owed.
-/
import proofs.«410946_j27565100106019_3_alg».proof.Proof.LaunchKI
import proofs.«410946_j27565100106019_3_alg».proof.Proof.Gen.KernelIdeal.Skeleton
import proofs.«410946_j27565100106019_3_alg».proof.Proof.Gen.KernelIdeal.Points
import proofs.«410946_j27565100106019_3_alg».proof.Proof.KI.Blk
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The proof data -/

/-- The region's proof data on core c: the arrays as found; after the body at point t every input buffer still at its
    block and the output buffer at the block function of the nine input blocks; the invariant the untouched rest of
    the core; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => blk1 (iblk1 V c 0 t) (iblk1 V c 1 t) (iblk1 V c 2 t) (iblk1 V c 3 t) (iblk1 V c 4 t) (iblk1 V c 5 t)
        (iblk1 V c 6 t) (iblk1 V c 7 t) (iblk1 V c 8 t)
  Φ _ := Pipeline.ΦA spec1 c
  q _ := fullShare
  owed _ := 0

/-- The proof data's arrays are the contents at entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t
    = blk1 (iblk1 V c 0 t) (iblk1 V c 1 t) (iblk1 V c 2 t) (iblk1 V c 3 t) (iblk1 V c 4 t) (iblk1 V c 5 t)
        (iblk1 V c 6 t) (iblk1 V c 7 t) (iblk1 V c 8 t) := by dsimp only [dat1]

/-! ## Every input buffer holds its block -/

/-- The body leaves every input block in place and no input window is cut or idle, so at every point, fetched there or
    not, the input's current staging buffer holds the window's block (unfetched, the block index has not moved). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)

/-! ## The body's accesses and what it stores -/

/-- The whole-buffer rectangles the body's loads and its one store go through. -/
abbrev rBlk1 : Rect S1024x512 := Rect.unit (s := S1024x512) ![0, 0] S1024x512.size inb_S1024x512_S1024x512_0_0
abbrev rMat1 : Rect S512x512 := Rect.unit (s := S512x512) ![0, 0] S512x512.size inb_S512x512_S512x512_0_0
abbrev rRow1 : Rect S1x512 := Rect.unit (s := S1x512) ![0, 0] S1x512.size inb_S1x512_S1x512_0_0

theorem zero2_1 : (![0, 0] : Fin 2 → Nat) = fun _ => 0 := funext fun a => by fin_cases a <;> rfl

/-- The output buffer after the body as its one store: the piece over the whole-buffer rectangle whose payload is the
    block function of the nine loads. -/
def out1_9 (x0 : Vec F S1024x512 .f32) (x1 : Vec F S1024x512 .f32) (x2 : Vec F S512x512 .bf16) (x3 : Vec F S512x512 .bf16) (x4 : Vec F S1x512 .f32) (x5 : Vec F S512x512 .bf16) (x6 : Vec F S512x512 .bf16) (x7 : Vec F S1x512 .f32) (x8 : Vec F S1x512 .f32) : Vec F S1024x512 .f32 :=
  View.canon [⟨rBlk1, k1_pay1
    (k1_pay2 (View.ld x0 rBlk1) (View.ld x1 rBlk1) (View.ld x2 rMat1) (View.ld x3 rMat1) (View.ld x4 rRow1) (View.ld x5 rMat1) (View.ld x6 rMat1))
    (k1_pay3 (View.ld x0 rBlk1) (View.ld x1 rBlk1) (View.ld x2 rMat1) (View.ld x3 rMat1) (View.ld x4 rRow1) (View.ld x5 rMat1) (View.ld x6 rMat1))
    (View.ld x7 rRow1) (View.ld x8 rRow1)⟩]

/-- A load through a whole-buffer rectangle reads the contents and the one store through it leaves its payload: the
    output buffer holds the block function of the input blocks. -/
theorem out1_9_eq (x0 : Vec F S1024x512 .f32) (x1 : Vec F S1024x512 .f32) (x2 : Vec F S512x512 .bf16) (x3 : Vec F S512x512 .bf16) (x4 : Vec F S1x512 .f32) (x5 : Vec F S512x512 .bf16) (x6 : Vec F S512x512 .bf16) (x7 : Vec F S1x512 .f32) (x8 : Vec F S1x512 .f32) : out1_9 x0 x1 x2 x3 x4 x5 x6 x7 x8 = blk1 x0 x1 x2 x3 x4 x5 x6 x7 x8 := by
  unfold out1_9 blk1
  rw [View.canon_unit_zero zero2_1]
  simp only [View.ld_unit_zero (S := S1024x512) zero2_1, View.ld_unit_zero (S := S512x512) zero2_1, View.ld_unit_zero (S := S1x512) zero2_1]

/-- The one store covers the output buffer. -/
theorem cover1_9 (p0 : Vec F S1024x512 .f32) (y : S1024x512.Idx) :
    ∃ pc ∈ ([⟨rBlk1, p0⟩] : List (View.Piece (Elt F) S1024x512 .f32)), y ∈ pc.1.set :=
  ⟨_, List.mem_singleton_self _, View.mem_set_unit_zero zero2_1 inb_S1024x512_S1024x512_0_0 y⟩

/-! ## The body's triple -/

set_option maxHeartbeats 4000000 in
/-- The body on whole staging memrefs, the inputs at contents x0 … x8 and the output at anything, runs to the
    continuation with the inputs as they were and the output at the block function of the inputs. -/
theorem sound_kernel1 (c : Dev nD) (E : Set ℕ) (i : grid1.Coords) (a0 : Memref sig .tc .vmem S1024x512 .f32) (h0 : a0.IsWhole) (a1 : Memref sig .tc .vmem S1024x512 .f32) (h1 : a1.IsWhole) (a2 : Memref sig .tc .vmem S512x512 .bf16) (h2 : a2.IsWhole) (a3 : Memref sig .tc .vmem S512x512 .bf16) (h3 : a3.IsWhole) (a4 : Memref sig .tc .vmem S1x512 .f32) (h4 : a4.IsWhole) (a5 : Memref sig .tc .vmem S512x512 .bf16) (h5 : a5.IsWhole) (a6 : Memref sig .tc .vmem S512x512 .bf16) (h6 : a6.IsWhole) (a7 : Memref sig .tc .vmem S1x512 .f32) (h7 : a7.IsWhole) (a8 : Memref sig .tc .vmem S1x512 .f32) (h8 : a8.IsWhole) (a9 : Memref sig .tc .vmem S1024x512 .f32) (h9 : a9.IsWhole)
    (x0 : Vec F S1024x512 .f32) (x1 : Vec F S1024x512 .f32) (x2 : Vec F S512x512 .bf16) (x3 : Vec F S512x512 .bf16) (x4 : Vec F S1x512 .f32) (x5 : Vec F S512x512 .bf16) (x6 : Vec F S512x512 .bf16) (x7 : Vec F S1x512 .f32) (x8 : Vec F S1x512 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (blk1 x0 x1 x2 x3 x4 x5 x6 x7 x8)) -∗ K ⟨⟩))
      ⊢ wp frame (wpE (defs₀ (F := F)) Variants.none c none) E (cc1_main_kernel i a0 h0 a1 h1 a2 h2 a3 h3 a4 h4 a5 h5 a6 h6 a7 h7 a8 h8 a9 h9) K := by
  simp only [cc1_main_kernel_eq_skeleton]; unfold cc1_main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact (View.read_writes_eq_canon _ _ _ (cover1_9 _)).trans (out1_9_eq _ _ _ _ _ _ _ _ _)

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any point: the inputs' buffers hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.RunFold.lean ====
/-
  The program runs four stretches in order: five host operations, the pooling region, fifty-seven host operations,
  the main region.  This module names what every buffer of a core holds at each of the five boundaries, as a fold
  from the launch memory: a host stretch rewrites exactly the buffers its operations write; a region rewrites exactly
  its windows' arrays, each to what the pipeline's write-backs leave there, and an input window's array is left as
  it was found.  Every argument array is then followed back through the fold to the launch memory: no host
  operation writes one, and a region either reads it through an input window or does not touch it.
-/
import proofs.«410946_j27565100106019_3_alg».proof.Proof.LaunchKI
import proofs.«410946_j27565100106019_3_alg».proof.Proof.Gen.KernelIdeal.Skeleton
import proofs.«410946_j27565100106019_3_alg».proof.Proof.Gen.KernelIdeal.Points
import proofs.«410946_j27565100106019_3_alg».proof.Proof.KI.Body0
import proofs.«410946_j27565100106019_3_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the five boundaries -/

/-- Core `c`'s buffers when the program is launched. -/
abbrev W0 : Dev nD → Valuation τ sig (Elt F) := fun c b => (s₀ m ρ).mem ((c : Dev nD), b)
/-- After the first host stretch: what the pooling region is entered with. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- When the pooling region is left: each of its seven arrays at what the pipeline leaves after the last point,
    every other buffer as the region found it. -/
def W2 (c : Dev nD) : Valuation τ sig (Elt F) :=
  Pipeline.withArrays spec0 c (W1 m ρ c) fun w => (dat0 (V1 m ρ) c).arrAt w cfg0.N
/-- At a window's array the fold holds the pipeline's final contents of that window. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- Away from the seven arrays nothing moved. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- The two facts that put the region's arrays back among the core's buffers at its exit: each array at the
    pipeline's final contents, the rest as at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the main region is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- When the main region is left, which is when the program returns: each of its ten arrays at what the pipeline
    leaves after the last point, every other buffer as the region found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What the host stretches write

Every host operation writes one buffer, its result.  Listing the results of a stretch once, a buffer outside the
list comes through the stretch unchanged. -/

/-- The results of the first stretch's five operations. -/
abbrev written0 : List (Ref sig .tc) := [main_v0, main_v1, main_v2, main_v3, main_v4]
/-- The results of the second stretch's fifty-seven operations. -/
abbrev written1 : List (Ref sig .tc) :=
  [main_v6, main_v7, main_v8, main_v9, main_v10, main_v11, main_v12, main_v13, main_v14, main_v15, main_v16, main_v17,
   main_v18, main_v19, main_v20, main_v21, main_v22, main_v23, main_v24, main_v25, main_v26, main_v27, main_v28, main_v29,
   main_v30, main_v31, main_v32, main_v33, main_v34, main_v35, main_v36, main_v37, main_v38, main_v39, main_v40, main_v41,
   main_v42, main_v43, main_v44, main_v45, main_v46, main_v47, main_v48, main_v49, main_v50, main_v51, main_v52, main_v53,
   main_cst, main_v54, main_v55, main_v56, main_v57, main_v58, main_v59, main_v60, main_v61]

theorem hostOps0_writes_sub :
    (hostOps0 : List (HloOp τ sig (Elt F))).Forall fun op => op.writes ⊆ (written0.map (Proc.devRef (τ := τ) .tc)).toFinset := by
  simp only [List.Forall, StableHlo.nullary_writes, StableHlo.unary_writes, StableHlo.binary_writes, StableHlo.reshape_writes,
    Finset.singleton_subset_iff, List.mem_toFinset]
  repeat' apply And.intro
  all_goals exact List.mem_map_of_mem (by decide)

theorem hostOps1_writes_sub :
    (hostOps1 : List (HloOp τ sig (Elt F))).Forall fun op => op.writes ⊆ (written1.map (Proc.devRef (τ := τ) .tc)).toFinset := by
  simp only [List.Forall, StableHlo.nullary_writes, StableHlo.unary_writes, StableHlo.binary_writes, StableHlo.reshape_writes,
    Finset.singleton_subset_iff, List.mem_toFinset]
  repeat' apply And.intro
  all_goals exact List.mem_map_of_mem (by decide)

/-- A buffer that is no result of the first stretch holds after it what it held at launch. -/
theorem W1_of (c : Dev nD) (r : Ref sig .tc) (h : r ∉ written0) :
    W1 m ρ c (Proc.devRef .tc r) = W0 m ρ c (Proc.devRef .tc r) :=
  StableHlo.after_of_writes_sub hostOps0 _ hostOps0_writes_sub h
/-- A buffer that is no result of the second stretch holds after it what the pooling region left. -/
theorem W3_of (c : Dev nD) (r : Ref sig .tc) (h : r ∉ written1) :
    W3 m ρ c (Proc.devRef .tc r) = W2 m ρ c (Proc.devRef .tc r) :=
  StableHlo.after_of_writes_sub hostOps1 _ hostOps1_writes_sub h

/-! ## The arguments end as launched -/

/-- A buffer that is no window's array of either region and no result of either stretch ends as launched. -/
theorem W4_untouched (c : Dev nD) (r : Ref sig .tc) (h1 : ∀ w, Pipeline.arrRef spec1 w ≠ r) (hs1 : r ∉ written1)
    (h0 : ∀ w, Pipeline.arrRef spec0 w ≠ r) (hs0 : r ∉ written0) :
    W4 m ρ c (Proc.devRef .tc r) = m ((c : Thread nD τ).loc r) :=
  (W4_of_ne m ρ c r h1).trans <| (W3_of m ρ c r hs1).trans <| (W2_of_ne m ρ c r h0).trans <| (W1_of m ρ c r hs0).trans rfl

/-- The first argument (the rows g) is input window 2 of the pooling region and input window 0 of the main region:
    an input window's array is never written back, so each region leaves it as found. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) :=
        (W4_arr m ρ c 0).trans (((dat1 (V3 m ρ) c).arrAt_in 0 rfl _).trans (A_eq1 (V3 m ρ) c 0))
    _ = W2 m ρ c (Proc.devRef .tc main_arg0) := W3_of m ρ c main_arg0 (by decide)
    _ = W1 m ρ c (Proc.devRef .tc main_arg0) :=
        (W2_arr m ρ c 2).trans (((dat0 (V1 m ρ) c).arrAt_in 2 rfl _).trans (A_eq0 (V1 m ρ) c 2))
    _ = W0 m ρ c (Proc.devRef .tc main_arg0) := W1_of m ρ c main_arg0 (by decide)
    _ = m ((c : Thread nD τ).loc main_arg0) := rfl

/-- The second argument (the rows g_p) is input window 3 of the pooling region and input window 1 of the main region. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) :=
        (W4_arr m ρ c 1).trans (((dat1 (V3 m ρ) c).arrAt_in 1 rfl _).trans (A_eq1 (V3 m ρ) c 1))
    _ = W2 m ρ c (Proc.devRef .tc main_arg1) := W3_of m ρ c main_arg1 (by decide)
    _ = W1 m ρ c (Proc.devRef .tc main_arg1) :=
        (W2_arr m ρ c 3).trans (((dat0 (V1 m ρ) c).arrAt_in 3 rfl _).trans (A_eq0 (V1 m ρ) c 3))
    _ = W0 m ρ c (Proc.devRef .tc main_arg1) := W1_of m ρ c main_arg1 (by decide)
    _ = m ((c : Thread nD τ).loc main_arg1) := rfl

/-- The other thirteen arguments (the weights and biases) are read by host operations only. -/
theorem W4_main_arg2 (c : Dev nD) : W4 m ρ c (Proc.devRef .tc main_arg2) = m ((c : Thread nD τ).loc main_arg2) :=
  W4_untouched m ρ c main_arg2 (by decide) (by decide) (by decide) (by decide)
theorem W4_main_arg3 (c : Dev nD) : W4 m ρ c (Proc.devRef .tc main_arg3) = m ((c : Thread nD τ).loc main_arg3) :=
  W4_untouched m ρ c main_arg3 (by decide) (by decide) (by decide) (by decide)
theorem W4_main_arg4 (c : Dev nD) : W4 m ρ c (Proc.devRef .tc main_arg4) = m ((c : Thread nD τ).loc main_arg4) :=
  W4_untouched m ρ c main_arg4 (by decide) (by decide) (by decide) (by decide)
theorem W4_main_arg5 (c : Dev nD) : W4 m ρ c (Proc.devRef .tc main_arg5) = m ((c : Thread nD τ).loc main_arg5) :=
  W4_untouched m ρ c main_arg5 (by decide) (by decide) (by decide) (by decide)
theorem W4_main_arg6 (c : Dev nD) : W4 m ρ c (Proc.devRef .tc main_arg6) = m ((c : Thread nD τ).loc main_arg6) :=
  W4_untouched m ρ c main_arg6 (by decide) (by decide) (by decide) (by decide)
theorem W4_main_arg7 (c : Dev nD) : W4 m ρ c (Proc.devRef .tc main_arg7) = m ((c : Thread nD τ).loc main_arg7) :=
  W4_untouched m ρ c main_arg7 (by decide) (by decide) (by decide) (by decide)
theorem W4_main_arg8 (c : Dev nD) : W4 m ρ c (Proc.devRef .tc main_arg8) = m ((c : Thread nD τ).loc main_arg8) :=
  W4_untouched m ρ c main_arg8 (by decide) (by decide) (by decide) (by decide)
theorem W4_main_arg9 (c : Dev nD) : W4 m ρ c (Proc.devRef .tc main_arg9) = m ((c : Thread nD τ).loc main_arg9) :=
  W4_untouched m ρ c main_arg9 (by decide) (by decide) (by decide) (by decide)
theorem W4_main_arg10 (c : Dev nD) : W4 m ρ c (Proc.devRef .tc main_arg10) = m ((c : Thread nD τ).loc main_arg10) :=
  W4_untouched m ρ c main_arg10 (by decide) (by decide) (by decide) (by decide)
theorem W4_main_arg11 (c : Dev nD) : W4 m ρ c (Proc.devRef .tc main_arg11) = m ((c : Thread nD τ).loc main_arg11) :=
  W4_untouched m ρ c main_arg11 (by decide) (by decide) (by decide) (by decide)
theorem W4_main_arg12 (c : Dev nD) : W4 m ρ c (Proc.devRef .tc main_arg12) = m ((c : Thread nD τ).loc main_arg12) :=
  W4_untouched m ρ c main_arg12 (by decide) (by decide) (by decide) (by decide)
theorem W4_main_arg13 (c : Dev nD) : W4 m ρ c (Proc.devRef .tc main_arg13) = m ((c : Thread nD τ).loc main_arg13) :=
  W4_untouched m ρ c main_arg13 (by decide) (by decide) (by decide) (by decide)
theorem W4_main_arg14 (c : Dev nD) : W4 m ρ c (Proc.devRef .tc main_arg14) = m ((c : Thread nD τ).loc main_arg14) :=
  W4_untouched m ρ c main_arg14 (by decide) (by decide) (by decide) (by decide)

end Cert.KernelIdeal.Hand

end
-- ==== Proof.KI.Run.lean ====
/-
  The run of the whole program on the TensorCores, from any launch memory: it terminates, nothing faults, and when
  it returns every unscoped buffer of every core holds what the fold of the boundaries says (W4).

  The program is cut into its four stretches.  Between two stretches a core holds all of its unscoped buffers at the
  boundary's contents, its generator register at some state, and owes nothing.  A host stretch moves the buffers from
  one boundary's contents to the next by the host rule.  A region takes its windows' arrays out of the unscoped
  buffers, hands the generator register and the scoped buffers to its invariant, runs the pipeline, and puts
  the arrays back at what the write-backs left.  The pooling region's invariant carries the streamed softmax's state
  in three scratch buffers; it is entered from, and gives back, the plain invariant (scoped rest and generator
  register), so only those two entailments are asked of it here.
-/
import proofs.«410946_j27565100106019_3_alg».proof.Proof.KI.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Both pipelines' proof data, and what a core holds beside its buffers -/

/-- Neither pipeline has a prefetched table. -/
abbrev adm : (p : Fin 2) → (pcfgs (F := F) p).Adm := fun p => (cfgs p).toPCfg_adm
/-- The proof data of each pipeline at the contents its region is entered with: the pooling region after the first
    host stretch, the main region after the second. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core waits on another: no level is assigned. -/
abbrev L : GSem nD τ sig → Finset Unit := fun _ => ∅
abbrev lv : GSem nD τ sig → Unit → ℕ := fun _ _ => 0
/-- Beside its buffers a core holds, between any two stretches, its generator register at some state and the record
    that it owes nothing. -/
abbrev R (c : Dev nD) : sProp 𝕄 := iprop((∃ r, prngReg c r) ∗ ∃ W, owes (c : Thread nD τ) (0 : CellTallies nD τ sig Unit) W)
/-- A line of host operations as a stretch of the run: from the unscoped buffers at `W` to the same buffers at what the
    operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of either stretch allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- A TensorCore reference that is not scoped is one of the unscoped buffers. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds when the program returns, the record of owing nothing apart: the unscoped buffers at the last
    boundary's contents and the generator register. -/
abbrev Tₙ (c : Dev nD) : sProp 𝕄 := iprop(StableHlo.held (c : Thread nD τ) (Pipeline.ucRefs τ sig) (W4 m ρ c) ∗ ∃ r, prngReg c r)

/-! ## The plain invariant, in and out

The plain invariant of a region is its core's scoped buffers that are no staging buffer, each at some contents, and the
generator register.  It is made from the register, whatever stands for the tables (there are none) and those scoped
buffers; and it gives the same back. -/

theorem plain_in {gr W : ℕ} (win : Fin W → Pipeline.WinSpec sig gr) (c : Dev nD) (T : sProp 𝕄) :
    iprop((∃ r, prngReg c r) ∗ T ∗ Pipeline.scopedRest win c) ⊢ (Pipeline.ΦA win c : sProp 𝕄) := by
  unfold Pipeline.ΦA
  iintro ⟨Hg, -, Hs⟩
  isplitl [Hs]; · iexact Hs
  iexact Hg

theorem plain_out {gr W : ℕ} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hs, Hg⟩
  isplitl [Hg]; · iexact Hg
  isplitr; · iempintro
  iexact Hs

/-! ## The two regions as stretches of the run -/

set_option backward.isDefEq.respectTransparency.types false in
/-- The pooling region: entered with the unscoped buffers at `W1`, left with them at `W2`.  Its invariant is entered
    from the plain one and gives the plain one back (the scratch buffers' contents are forgotten at both ends). -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hbufs, Hg, Howe⟩, -, -⟩
    ihave Hparts := hsplit $$ Hbufs
    icases Hparts with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%T, Howe⟩
      iexists T; isplitr
      · ipureintro; exact fun _ _ => Or.inl trivial
      iexact Howe
    isplitl [Hg]; · iexact Hg
    iexact Hrest
  hin c := by
    rw [show (pdats m ρ 0 c).Φ 0 = (dat0 (V1 m ρ) c).Φ 0 from rfl]
    exact (plain_in spec0 c _).trans (hin0 (V1 m ρ) c)
  hout c := by
    rw [Pipeline.ownSems0_none, show (pdats m ρ 0 c).Φ (Fin.last _) = (dat0 (V1 m ρ) c).Φ (Fin.last cfg0.N) from rfl]
    exact (hout0 (V1 m ρ) c).trans (plain_out spec0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Harr, Howe, Hg, Hrest⟩
    imodintro
    isplitl [Harr Hrest]
    · iapply hjoin; isplitl [Harr] <;> iassumption
    isplitl [Hg]; · iexact Hg
    unfold Pipeline.Dat.owesAt Pipeline.owesWithin
    icases Howe with ⟨%T, -, Howe⟩
    iexists T; iexact Howe

set_option backward.isDefEq.respectTransparency.types false in
/-- The main region: entered with the unscoped buffers at `W3`, left with them at `W4`, which is what the program
    returns with.  Its invariant is the plain one at every point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hbufs, Hg, Howe⟩, -, -⟩
    ihave Hparts := hsplit $$ Hbufs
    icases Hparts with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%T, Howe⟩
      iexists T; isplitr
      · ipureintro; exact fun _ _ => Or.inl trivial
      iexact Howe
    isplitl [Hg]; · iexact Hg
    iexact Hrest
  hin c := by
    rw [show (pdats m ρ 1 c).Φ 0 = Pipeline.ΦA spec1 c from rfl]
    exact plain_in spec1 c _
  hout c := by
    rw [Pipeline.ownSems0_none, show (pdats m ρ 1 c).Φ (Fin.last _) = Pipeline.ΦA spec1 c from rfl]
    exact plain_out spec1 c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Harr, Howe, Hg, Hrest⟩
    imodintro
    isplitr [Howe]
    · isplitl [Harr Hrest]
      · iapply hjoin; isplitl [Harr] <;> iassumption
      iexact Hg
    unfold Pipeline.Dat.owesAt Pipeline.owesWithin
    icases Howe with ⟨%T, -, Howe⟩
    iexists T; iexact Howe

/-! ## The program as its four stretches, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the four stretches run in order. -/
theorem main_run (c : Dev nD) : main (F := F) c = Pipeline.Seg.run (segs m ρ) := (main_chain c).trans (by chain_rfl)

set_option backward.isDefEq.respectTransparency.types false in
/-- From any launch memory with the semaphores at zero, every weakly fair execution of the program on the TensorCores
    terminates without a fault, and in its final state every unscoped buffer of every core holds the last boundary's
    contents `W4`. -/
theorem run_named : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howe, -, Hg, -⟩, -⟩
      imodintro
      isplitl [Hbufs]; · iexact Hbufs
      isplitl [Hg]; · iexists _; iexact Hg
      iexists ∅; iexact Howe)
    (QY := fun c s => ∀ b ∈ Pipeline.ucRefs τ sig, s.mem (((c : Thread nD τ)).1, b) = W4 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W4 m ρ c) s')
      isplitl [Hbufs] <;> iassumption)
    (hQ := fun s h => h)

/-! ## What the run says of the arguments and of the result -/

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c),
      (h c _ (mem_uc main_arg14 (by decide))).trans (W4_main_arg14 m ρ c)⟩) (run_named m ρ)

/-- The result array ends at what the main region's pipeline leaves in its output window (window 9) after the last
    point, and the arguments end as launched. -/
theorem run_value : θ_run defs (onTc (τ := τ) (main (F := F))) ⟨m, fun _ => 0, ρ⟩ (fun r => ∀ c : Dev nD,
      r.2.mem ((c.tc : Thread nD τ).loc main_v62) = (dat1 (V3 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v62 (by decide))).trans (W4_arr m ρ c 9),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c),
      (h c _ (mem_uc main_arg14 (by decide))).trans (W4_main_arg14 m ρ c)⟩) (run_named m ρ)

end Cert.KernelIdeal.Hand

end
-- ==== Proof.KI.Host.lean ====
/-
  What the two stretches of whole-array operations of the program leave in the arrays the two kernels read, as
  explicit terms over the contents `Vin` the stretch starts from (any contents: nothing is assumed of them).

  Before the pooling kernel:   Ws = W[0];  Ws_hi = bf16 Ws;  Ws_lo = bf16 (Ws − f32 Ws_hi).
  Between the kernels, from the two halves' final (m_c, l_c, acc_c), c = 0, 1, of the streamed softmax:
      mmax = max m_0 m_1,   a_c = exp (m_c − mmax),
      pooled = (a_0 · acc_0 + a_1 · acc_1) / (a_0 · l_0 + a_1 · l_1),
      K = (Ws · Wkᵀ + bk) + (pooled · Wkpᵀ + bkp),   V = Ws · Wvᵀ + bv,
  and the main kernel reads  bf16 Wqᵀ,  bf16 Wgpᵀ,  bq + bgp,  bf16 (Kᵀ · 0.125),  bf16 V,  γ and β as rows.
-/
import proofs.«410946_j27565100106019_3_alg».proof.Proof.LaunchKI
import Idealize.ShloMosaic.Lib.StableHlo.Run

noncomputable section

namespace Cert.KernelIdeal.Hand

open Idealize.ShloMosaic Idealize.ShloMosaic.TcCoe Idealize.SL.Sem Cert.KernelIdeal Cert.KernelIdeal.Gen Cert.KernelIdeal.GenP

variable {F : FTy → Type} [FloatOps F]

/-! ## The arrays, as functions -/

/-- Ws: the one slab of W as a 512 × 512 array. -/
def wsH (w : Vec F S1x512x512 .f32) : Vec F S512x512 .f32 :=
  shapeCast _ w shapeCasts_S1x512x512_S512x512

/-- The high half of the split of Ws: Ws rounded to bf16. -/
def wsHiH (w : Vec F S1x512x512 .f32) : Vec F S512x512 .bf16 :=
  truncf .bf16 (wsH w) bitsLt_bf16_f32

/-- The low half of the split: what the rounding lost, rounded again. -/
def wsLoH (w : Vec F S1x512x512 .f32) : Vec F S512x512 .bf16 :=
  truncf .bf16 (subf (wsH w) (extf .f32 (wsHiH w) bitsLt_bf16_f32)) bitsLt_bf16_f32

/-- Half `c` of a (2, 512, 1) array as a column. -/
def col0H (x : Vec F S2x512x1 .f32) : Vec F S512x1 .f32 :=
  shapeCast _ (extractStridedSlice S1x512x1 ![0, 0, 0] x slices_S2x512x1_S1x512x1_0_0_0) shapeCasts_S1x512x1_S512x1
def col1H (x : Vec F S2x512x1 .f32) : Vec F S512x1 .f32 :=
  shapeCast _ (extractStridedSlice S1x512x1 ![1, 0, 0] x slices_S2x512x1_S1x512x1_1_0_0) shapeCasts_S1x512x1_S512x1

/-- Half `c` of a (2, 512, 512) array as a matrix. -/
def mat0H (x : Vec F S2x512x512 .f32) : Vec F S512x512 .f32 :=
  shapeCast _ (extractStridedSlice S1x512x512 ![0, 0, 0] x slices_S2x512x512_S1x512x512_0_0_0) shapeCasts_S1x512x512_S512x512
def mat1H (x : Vec F S2x512x512 .f32) : Vec F S512x512 .f32 :=
  shapeCast _ (extractStridedSlice S1x512x512 ![1, 0, 0] x slices_S2x512x512_S1x512x512_1_0_0) shapeCasts_S1x512x512_S512x512

/-- mmax = max m_0 m_1. -/
def mmaxH (mm : Vec F S2x512x1 .f32) : Vec F S512x1 .f32 := maximumf (col0H mm) (col1H mm)

/-- a_c = exp (m_c − mmax): the weight of half `c`. -/
def a0H (mm : Vec F S2x512x1 .f32) : Vec F S512x1 .f32 := Host.exp (subf (col0H mm) (mmaxH mm))
def a1H (mm : Vec F S2x512x1 .f32) : Vec F S512x1 .f32 := Host.exp (subf (col1H mm) (mmaxH mm))

/-- The combined denominator a_0 · l_0 + a_1 · l_1. -/
def lH (mm ll : Vec F S2x512x1 .f32) : Vec F S512x1 .f32 :=
  addf (mulf (a0H mm) (col0H ll)) (mulf (a1H mm) (col1H ll))

/-- The combined numerator a_0 · acc_0 + a_1 · acc_1. -/
def accH (mm : Vec F S2x512x1 .f32) (aa : Vec F S2x512x512 .f32) : Vec F S512x512 .f32 :=
  addf (mulf (broadcastInDim S512x512 ![0, 1] bcast_S512x1_S512x512_0_1 (a0H mm)) (mat0H aa))
       (mulf (broadcastInDim S512x512 ![0, 1] bcast_S512x1_S512x512_0_1 (a1H mm)) (mat1H aa))

/-- pooled = numerator / denominator, row by row. -/
def pooledH (mm ll : Vec F S2x512x1 .f32) (aa : Vec F S2x512x512 .f32) : Vec F S512x512 .f32 :=
  Host.divf (accH mm aa) (broadcastInDim S512x512 ![0, 1] bcast_S512x1_S512x512_0_1 (lH mm ll))

/-- A vector of 512 entries as a row. -/
def rowH (b : Vec F S512 .f32) : Vec F S1x512 .f32 := shapeCast _ b shapeCasts_S512_S1x512

/-- The transpose of a 512 × 512 matrix. -/
def trH (w : Vec F S512x512 .f32) : Vec F S512x512 .f32 :=
  transpose S512x512 [1, 0] w transposes_S512x512_S512x512_1_0

/-- x · wᵀ + b, the bias added to every row. -/
def linH (x w : Vec F S512x512 .f32) (b : Vec F S512 .f32) : Vec F S512x512 .f32 :=
  addf (Host.dotGeneral dot_S512x512_S512x512_S512x512_1_0_0_1_n_n none x (trH w))
       (broadcastInDim S512x512 ![0, 1] bcast_S1x512_S512x512_0_1 (rowH b))

/-- K = (Ws · Wkᵀ + bk) + (pooled · Wkpᵀ + bkp). -/
def Kh (ws wk : Vec F S512x512 .f32) (bk : Vec F S512 .f32) (pooled wkp : Vec F S512x512 .f32) (bkp : Vec F S512 .f32) :
    Vec F S512x512 .f32 :=
  addf (linH ws wk bk) (linH pooled wkp bkp)

/-- V = Ws · Wvᵀ + bv. -/
def Vh (ws wv : Vec F S512x512 .f32) (bv : Vec F S512 .f32) : Vec F S512x512 .f32 := linH ws wv bv

/-- A weight matrix as the main kernel reads it: transposed, rounded to bf16. -/
def wTH (w : Vec F S512x512 .f32) : Vec F S512x512 .bf16 := truncf .bf16 (trH w) bitsLt_bf16_f32

/-- Kᵀ · 0.125, rounded to bf16. -/
def kTH (k : Vec F S512x512 .f32) : Vec F S512x512 .bf16 :=
  truncf .bf16 (mulf (trH k) (broadcastInDim S512x512 ![] bcast_S_S512x512 (constant (F := F) S_ .f32 0x3E000000#32))) bitsLt_bf16_f32

variable (Vin : Valuation τ sig (Elt F))

/-! ## The stretch before the pooling kernel -/

theorem after0_v0 : StableHlo.after hostOps0 Vin (Proc.devRef .tc main_v0) = wsH (Vin (Proc.devRef .tc main_arg2)) := by
  after_results; rfl

theorem after0_v1 : StableHlo.after hostOps0 Vin (Proc.devRef .tc main_v1) = wsHiH (Vin (Proc.devRef .tc main_arg2)) := by
  after_results; rfl

theorem after0_v4 : StableHlo.after hostOps0 Vin (Proc.devRef .tc main_v4) = wsLoH (Vin (Proc.devRef .tc main_arg2)) := by
  after_results; rfl

theorem after0_arg0 : StableHlo.after hostOps0 Vin (Proc.devRef .tc main_arg0) = Vin (Proc.devRef .tc main_arg0) := by
  after_results

theorem after0_arg1 : StableHlo.after hostOps0 Vin (Proc.devRef .tc main_arg1) = Vin (Proc.devRef .tc main_arg1) := by
  after_results

/-! ## The stretch between the kernels -/

theorem after1_v50 : StableHlo.after hostOps1 Vin (Proc.devRef .tc main_v50) = wTH (Vin (Proc.devRef .tc main_arg3)) := by
  after_results_simp; rfl

theorem after1_v52 : StableHlo.after hostOps1 Vin (Proc.devRef .tc main_v52) = wTH (Vin (Proc.devRef .tc main_arg9)) := by
  after_results_simp; rfl

theorem after1_v59 : StableHlo.after hostOps1 Vin (Proc.devRef .tc main_v59)
    = rowH (addf (Vin (Proc.devRef .tc main_arg4)) (Vin (Proc.devRef .tc main_arg10))) := by
  after_results_simp; rfl

theorem after1_v60 : StableHlo.after hostOps1 Vin (Proc.devRef .tc main_v60) = rowH (Vin (Proc.devRef .tc main_arg13)) := by
  after_results_simp; rfl

theorem after1_v61 : StableHlo.after hostOps1 Vin (Proc.devRef .tc main_v61) = rowH (Vin (Proc.devRef .tc main_arg14)) := by
  after_results_simp; rfl

theorem after1_arg0 : StableHlo.after hostOps1 Vin (Proc.devRef .tc main_arg0) = Vin (Proc.devRef .tc main_arg0) := by
  after_results_simp

theorem after1_arg1 : StableHlo.after hostOps1 Vin (Proc.devRef .tc main_arg1) = Vin (Proc.devRef .tc main_arg1) := by
  after_results_simp

/-- pooled, the quotient of the combined numerator by the combined denominator. -/
theorem after1_v32 : StableHlo.after hostOps1 Vin (Proc.devRef .tc main_v32)
    = pooledH (Vin (Proc.devRef .tc main_v5_0)) (Vin (Proc.devRef .tc main_v5_1)) (Vin (Proc.devRef .tc main_v5_2)) := by
  after_results_simp; rfl

theorem after1_v57 : StableHlo.after hostOps1 Vin (Proc.devRef .tc main_v57)
    = truncf .bf16 (Vh (Vin (Proc.devRef .tc main_v0)) (Vin (Proc.devRef .tc main_arg7)) (Vin (Proc.devRef .tc main_arg8))) bitsLt_bf16_f32 := by
  after_results_simp; rfl

theorem after1_v56 : StableHlo.after hostOps1 Vin (Proc.devRef .tc main_v56)
    = kTH (Kh (Vin (Proc.devRef .tc main_v0)) (Vin (Proc.devRef .tc main_arg5)) (Vin (Proc.devRef .tc main_arg6))
        (pooledH (Vin (Proc.devRef .tc main_v5_0)) (Vin (Proc.devRef .tc main_v5_1)) (Vin (Proc.devRef .tc main_v5_2)))
        (Vin (Proc.devRef .tc main_arg11)) (Vin (Proc.devRef .tc main_arg12))) := by
  after_results_simp; rfl

end Cert.KernelIdeal.Hand

end
-- ==== Proof.KI.RunHost.lean ====
/-
  What each kernel finds in the arrays it reads, as explicit terms over the memory `m` the program is launched with.

  The program's buffers are followed through its four stretches (whole-array operations, the pooling kernel,
  whole-array operations, the main kernel).  A stretch of whole-array operations leaves in each array it writes the
  term of its operations, and every other array as it was; the pooling kernel changes its three result arrays only.
  So, with a(r) the launch contents of argument r:

    the pooling kernel finds   Ws_hi = bf16 Ws,  Ws_lo = bf16 (Ws − f32 Ws_hi)  with Ws = W[0] = wsH a(W),  and g, g_p as launched;
    the main kernel finds      g, g_p as launched,  bf16 Wqᵀ,  bf16 Wgpᵀ,  bq + bgp, γ, β as rows,
                               bf16 V  with V = Ws · Wvᵀ + bv,
                               bf16 (Kᵀ · 0.125)  with K = (Ws · Wkᵀ + bk) + (pooled · Wkpᵀ + bkp),
    where pooled is the combination of the two halves' final (m, l, acc) the pooling kernel left in its three
    result arrays.
-/
import proofs.«410946_j27565100106019_3_alg».proof.Proof.KI.RunFold
import proofs.«410946_j27565100106019_3_alg».proof.Proof.KI.Host

noncomputable section

namespace Cert.KernelIdeal.Hand

open Cert.KernelIdeal Cert.KernelIdeal.Gen Cert.KernelIdeal.GenP
open Idealize.ShloMosaic Idealize.ShloMosaic.TcCoe Idealize.SL.Sem
open Idealize.ShloMosaic.Pipeline (Dat)

variable {F : FTy → Type} [FloatOps F]

variable (m : (ℓ : Loc nD τ sig) → Buf (Elt F) ℓ) (ρ : Dev nD → PrngReg) (c : Dev nD)

/-! ## What the pooling kernel finds -/

/-- Ws_hi. -/
theorem V1_v1 : V1 m ρ c main_v1 = wsHiH (m ((c : Thread nD τ).loc main_arg2)) :=
  after0_v1 (W0 m ρ c)

/-- Ws_lo. -/
theorem V1_v4 : V1 m ρ c main_v4 = wsLoH (m ((c : Thread nD τ).loc main_arg2)) :=
  after0_v4 (W0 m ρ c)

/-- The rows g. -/
theorem V1_arg0 : V1 m ρ c main_arg0 = m ((c : Thread nD τ).loc main_arg0) :=
  after0_arg0 (W0 m ρ c)

/-- The rows g_p. -/
theorem V1_arg1 : V1 m ρ c main_arg1 = m ((c : Thread nD τ).loc main_arg1) :=
  after0_arg1 (W0 m ρ c)

/-! ## When the pooling kernel returns -/

/-- An array that no operation of the first stretch writes and that is no array of the pooling kernel's windows holds,
    when the pooling kernel returns, what it held at launch. -/
theorem W2_launch (r : Ref sig .tc) (h0 : ∀ w, Pipeline.arrRef spec0 w ≠ r) (hs0 : r ∉ written0) :
    W2 m ρ c (Proc.devRef .tc r) = m ((c : Thread nD τ).loc r) :=
  (W2_of_ne m ρ c r h0).trans ((W1_of m ρ c r hs0).trans rfl)

/-- Ws: written by the first stretch, by nothing after it. -/
theorem W2_v0 : W2 m ρ c (Proc.devRef .tc main_v0) = wsH (m ((c : Thread nD τ).loc main_arg2)) :=
  (W2_of_ne m ρ c main_v0 (by decide)).trans (after0_v0 (W0 m ρ c))

/-- The rows g are an input window's array of the pooling kernel: read, never written back. -/
theorem W2_arg0 : W2 m ρ c (Proc.devRef .tc main_arg0) = m ((c : Thread nD τ).loc main_arg0) :=
  (W2_arr m ρ c 2).trans (((dat0 (V1 m ρ) c).arrAt_in 2 rfl _).trans ((A_eq0 (V1 m ρ) c 2).trans (V1_arg0 m ρ c)))

/-- The rows g_p likewise. -/
theorem W2_arg1 : W2 m ρ c (Proc.devRef .tc main_arg1) = m ((c : Thread nD τ).loc main_arg1) :=
  (W2_arr m ρ c 3).trans (((dat0 (V1 m ρ) c).arrAt_in 3 rfl _).trans ((A_eq0 (V1 m ρ) c 3).trans (V1_arg1 m ρ c)))

/-- The two halves' final running maxima. -/
theorem W2_v5_0 : W2 m ρ c (Proc.devRef .tc main_v5_0) = (dat0 (V1 m ρ) c).arrAt 4 cfg0.N := W2_arr m ρ c 4

/-- The two halves' final denominators. -/
theorem W2_v5_1 : W2 m ρ c (Proc.devRef .tc main_v5_1) = (dat0 (V1 m ρ) c).arrAt 5 cfg0.N := W2_arr m ρ c 5

/-- The two halves' final weighted sums. -/
theorem W2_v5_2 : W2 m ρ c (Proc.devRef .tc main_v5_2) = (dat0 (V1 m ρ) c).arrAt 6 cfg0.N := W2_arr m ρ c 6

/-! ## What the main kernel finds -/

/-- The rows g. -/
theorem V3_arg0 : V3 m ρ c main_arg0 = m ((c : Thread nD τ).loc main_arg0) :=
  (after1_arg0 (W2 m ρ c)).trans (W2_arg0 m ρ c)

/-- The rows g_p. -/
theorem V3_arg1 : V3 m ρ c main_arg1 = m ((c : Thread nD τ).loc main_arg1) :=
  (after1_arg1 (W2 m ρ c)).trans (W2_arg1 m ρ c)

/-- bf16 Wqᵀ. -/
theorem V3_v50 : V3 m ρ c main_v50 = wTH (m ((c : Thread nD τ).loc main_arg3)) :=
  (after1_v50 (W2 m ρ c)).trans (congrArg wTH (W2_launch m ρ c main_arg3 (by decide) (by decide)))

/-- bf16 Wgpᵀ. -/
theorem V3_v52 : V3 m ρ c main_v52 = wTH (m ((c : Thread nD τ).loc main_arg9)) :=
  (after1_v52 (W2 m ρ c)).trans (congrArg wTH (W2_launch m ρ c main_arg9 (by decide) (by decide)))

/-- bq + bgp, as a row. -/
theorem V3_v59 : V3 m ρ c main_v59
    = rowH (addf (m ((c : Thread nD τ).loc main_arg4)) (m ((c : Thread nD τ).loc main_arg10))) := by
  refine (after1_v59 (W2 m ρ c)).trans ?_
  rw [W2_launch m ρ c main_arg4 (by decide) (by decide), W2_launch m ρ c main_arg10 (by decide) (by decide)]

/-- γ, as a row. -/
theorem V3_v60 : V3 m ρ c main_v60 = rowH (m ((c : Thread nD τ).loc main_arg13)) :=
  (after1_v60 (W2 m ρ c)).trans (congrArg rowH (W2_launch m ρ c main_arg13 (by decide) (by decide)))

/-- β, as a row. -/
theorem V3_v61 : V3 m ρ c main_v61 = rowH (m ((c : Thread nD τ).loc main_arg14)) :=
  (after1_v61 (W2 m ρ c)).trans (congrArg rowH (W2_launch m ρ c main_arg14 (by decide) (by decide)))

/-- bf16 V, V = Ws · Wvᵀ + bv. -/
theorem V3_v57 : V3 m ρ c main_v57
    = truncf .bf16 (Vh (wsH (m ((c : Thread nD τ).loc main_arg2))) (m ((c : Thread nD τ).loc main_arg7))
        (m ((c : Thread nD τ).loc main_arg8))) bitsLt_bf16_f32 := by
  refine (after1_v57 (W2 m ρ c)).trans ?_
  rw [W2_v0 m ρ c, W2_launch m ρ c main_arg7 (by decide) (by decide), W2_launch m ρ c main_arg8 (by decide) (by decide)]

/-- bf16 (Kᵀ · 0.125), K = (Ws · Wkᵀ + bk) + (pooled · Wkpᵀ + bkp), pooled the combination of the pooling kernel's
    three results. -/
theorem V3_v56 : V3 m ρ c main_v56
    = kTH (Kh (wsH (m ((c : Thread nD τ).loc main_arg2))) (m ((c : Thread nD τ).loc main_arg5))
        (m ((c : Thread nD τ).loc main_arg6))
        (pooledH ((dat0 (V1 m ρ) c).arrAt 4 cfg0.N) ((dat0 (V1 m ρ) c).arrAt 5 cfg0.N) ((dat0 (V1 m ρ) c).arrAt 6 cfg0.N))
        (m ((c : Thread nD τ).loc main_arg11)) (m ((c : Thread nD τ).loc main_arg12))) := by
  refine (after1_v56 (W2 m ρ c)).trans ?_
  rw [W2_v0 m ρ c, W2_launch m ρ c main_arg5 (by decide) (by decide), W2_launch m ρ c main_arg6 (by decide) (by decide),
    W2_v5_0 m ρ c, W2_v5_1 m ρ c, W2_v5_2 m ρ c,
    W2_launch m ρ c main_arg11 (by decide) (by decide), W2_launch m ρ c main_arg12 (by decide) (by decide)]

end Cert.KernelIdeal.Hand

end
-- ==== Proof.KI.HostIdx.lean ====
/-
  The whole-array stretches' arrays read at an index, at the ideal values.

  Each array the two kernels read is a named function of the contents the stretch starts from: the one slab Ws of W and
  its split (a change of format is the identity on extended reals, so the high half is Ws and the low half Ws − Ws);
  the two halves (m_c, l_c, acc_c) of the streamed softmax combined, mmax = max m_0 m_1, a_c = exp (m_c − mmax),
  pooled = (a_0 · acc_0 + a_1 · acc_1) / (a_0 · l_0 + a_1 · l_1); the key and value matrices
  K = (Ws · Wkᵀ + bk) + (pooled · Wkpᵀ + bkp), V = Ws · Wvᵀ + bv; and what the main kernel reads, the transposed
  weights, the bias rows and Kᵀ · 0.125.  Here each is read at an index given by its coordinates: a slab of a rank-3
  array at (c, m, d), a column or row or scalar broadcast at the coordinate it keeps, a transpose at the swapped pair,
  a whole-array product as the sum over the contracted coordinate.
-/
import proofs.«410946_j27565100106019_3_alg».proof.Proof.KI.Host
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.ValueIdx Cert.KernelIdeal Cert.KernelIdeal.Gen Cert.KernelIdeal.Hand
open scoped BigOperators

namespace Cert.KernelIdeal.Val

/-! ### Layout operations of the whole-array stretches, at an index -/

section Layout
variable {α : Type}

/-- A rank-3 array cut to one slab along its leading axis at `o` reads, at (u, i, j), the source at (k, i, j) with k = o. -/
theorem slice3_axis0_apply {n a b : ℕ} (o : ℕ) (X : (⟨3, ![n, a, b]⟩ : Shape).Idx → α)
    (h : (⟨3, ![n, a, b]⟩ : Shape).Slices ![o, 0, 0] ⟨3, ![1, a, b]⟩)
    (u : Fin 1) (i : Fin a) (j : Fin b) (k : Fin n) (hk : k.val = o) :
    extractStridedSlice ⟨3, ![1, a, b]⟩ ![o, 0, 0] X h (ix3 u i j) = X (ix3 k i j) :=
  extractStridedSlice_apply _ _ _ _ _ (fun ax => by
    match ax with
    | ⟨0, _⟩ => show k.val = o + u.val; omega
    | ⟨1, _⟩ => exact (Nat.zero_add _).symm
    | ⟨2, _⟩ => exact (Nat.zero_add _).symm)

/-- A 512 × 1 column broadcast along dims [0, 1] to 512 × 512 reads, at (m, d), the column at m. -/
theorem bcastCol_apply (v : S512x1.Idx → α) (h : S512x1.BroadcastsInDim S512x512 (![0, 1] : Fin 2 → Fin S512x512.rank))
    (m d : Fin 512) : broadcastInDim S512x512 ![0, 1] h v (ix2 m d) = v (ix2 m (0 : Fin 1)) :=
  broadcastInDim_apply _ h v (ix2 m d) (ix2 m (0 : Fin 1)) (fun a => match a with
    | ⟨0, _⟩ => by show m.val = if (512 : Nat) = 1 then 0 else m.val; rw [if_neg (by decide)]
    | ⟨1, _⟩ => by show 0 = if (1 : Nat) = 1 then 0 else d.val; rw [if_pos rfl])

/-- A 1 × 512 row broadcast along dims [0, 1] to 512 × 512 reads, at (m, e), the row at e. -/
theorem bcastRow_apply (v : S1x512.Idx → α) (h : S1x512.BroadcastsInDim S512x512 (![0, 1] : Fin 2 → Fin S512x512.rank))
    (m e : Fin 512) : broadcastInDim S512x512 ![0, 1] h v (ix2 m e) = v (ix2 (0 : Fin 1) e) :=
  broadcastInDim_apply _ h v (ix2 m e) (ix2 (0 : Fin 1) e) (fun a => match a with
    | ⟨0, _⟩ => by show 0 = if (1 : Nat) = 1 then 0 else m.val; rw [if_pos rfl]
    | ⟨1, _⟩ => by show e.val = if (512 : Nat) = 1 then 0 else e.val; rw [if_neg (by decide)])

/-- A scalar broadcast to 512 × 512 reads the scalar everywhere. -/
theorem bcastScalar_apply (v : S_.Idx → α) (h : S_.BroadcastsInDim S512x512 (![] : Fin 0 → Fin S512x512.rank))
    (m e : Fin 512) : broadcastInDim S512x512 ![] h v (ix2 m e) = v ix0 :=
  broadcastInDim_apply _ h v (ix2 m e) ix0 (fun a => a.elim0)

end Layout

/-! ### The whole-array product of two 512 × 512 matrices -/

theorem lhs_hd_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_hd_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_hd_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_hd_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The whole-array product at (m, e): the sum over the 512 contracted coordinates of row m of the left operand times
    column e of the right. -/
theorem hdot_apply {φ₁ φ₂ : FTy} (lhs : FVec Ideal S512x512 φ₁) (rhs : FVec Ideal S512x512 φ₂) (m e : Fin 512) :
    Host.dotGeneral dot_S512x512_S512x512_S512x512_1_0_0_1_n_n none lhs rhs (ix2 m e)
      = ∑ k : Fin 512, lhs (ix2 m k) * rhs (ix2 k e) := by
  simp only [Host.dotGeneral]
  rw [Ideal.dotGeneral_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 m e) ((ValueIdx.contrEquiv1 dot_S512x512_S512x512_S512x512_1_0_0_1_n_n 512 rfl rfl).symm k) = ix2 m k := funext fun a => Fin.ext (by
    match a with
    | ⟨0, _⟩ => exact lhs_hd_0 _ _
    | ⟨1, _⟩ => exact (lhs_hd_1 _ _).trans hk)
  have er : dot_S512x512_S512x512_S512x512_1_0_0_1_n_n.rhsIdx (ix2 m e) ((ValueIdx.contrEquiv1 dot_S512x512_S512x512_S512x512_1_0_0_1_n_n 512 rfl rfl).symm k) = ix2 k e := funext fun a => Fin.ext (by
    match a with
    | ⟨0, _⟩ => exact (rhs_hd_0 _ _).trans hk
    | ⟨1, _⟩ => exact rhs_hd_1 _ _)
  rw [el, er]

/-! ### The pointwise whole-array operations with corners, at an index -/

theorem hostExp_apply {s : Shape} {φ : FTy} (a : FVec Ideal s φ) (i : s.Idx) : Host.exp a i = Ideal.exp (a i) := rfl
theorem hostDivf_apply {s : Shape} {φ : FTy} (a b : FVec Ideal s φ) (i : s.Idx) : Host.divf a b i = Ideal.div (a i) (b i) := rfl

/-! ### The split of Ws -/

/-- Ws at (m, d) is W's one slab at (m, d). -/
theorem wsH_apply (w : FVec Ideal S1x512x512 .f32) (m d : Fin 512) :
    wsH (F := Ideal) w (ix2 m d) = w (ix3 (0 : Fin 1) m d) := by
  unfold wsH
  exact shapeCast_1ab_ab_apply w _ m d

/-- A change of format is the identity: the high half is Ws. -/
theorem wsHiH_apply (w : FVec Ideal S1x512x512 .f32) (m d : Fin 512) :
    wsHiH (F := Ideal) w (ix2 m d) = w (ix3 (0 : Fin 1) m d) := by
  unfold wsHiH
  rw [truncf_apply, wsH_apply]

/-- The low half is Ws − Ws. -/
theorem wsLoH_apply (w : FVec Ideal S1x512x512 .f32) (m d : Fin 512) :
    wsLoH (F := Ideal) w (ix2 m d) = w (ix3 (0 : Fin 1) m d) - w (ix3 (0 : Fin 1) m d) := by
  unfold wsLoH
  rw [truncf_apply, subf_apply, extf_apply, wsHiH_apply, wsH_apply]

/-! ### The two halves of the streamed softmax, combined -/

theorem col0H_apply (x : FVec Ideal S2x512x1 .f32) (m : Fin 512) (u : Fin 1) :
    col0H (F := Ideal) x (ix2 m u) = x (ix3 (0 : Fin 2) m u) := by
  unfold col0H
  rw [shapeCast_1ab_ab_apply]
  exact slice3_axis0_apply 0 x _ 0 m u 0 rfl

theorem col1H_apply (x : FVec Ideal S2x512x1 .f32) (m : Fin 512) (u : Fin 1) :
    col1H (F := Ideal) x (ix2 m u) = x (ix3 (1 : Fin 2) m u) := by
  unfold col1H
  rw [shapeCast_1ab_ab_apply]
  exact slice3_axis0_apply 1 x _ 0 m u 1 rfl

theorem mat0H_apply (x : FVec Ideal S2x512x512 .f32) (m d : Fin 512) :
    mat0H (F := Ideal) x (ix2 m d) = x (ix3 (0 : Fin 2) m d) := by
  unfold mat0H
  rw [shapeCast_1ab_ab_apply]
  exact slice3_axis0_apply 0 x _ 0 m d 0 rfl

theorem mat1H_apply (x : FVec Ideal S2x512x512 .f32) (m d : Fin 512) :
    mat1H (F := Ideal) x (ix2 m d) = x (ix3 (1 : Fin 2) m d) := by
  unfold mat1H
  rw [shapeCast_1ab_ab_apply]
  exact slice3_axis0_apply 1 x _ 0 m d 1 rfl

/-- mmax at row m: the larger of the two halves' maxima. -/
theorem mmaxH_apply (mm : FVec Ideal S2x512x1 .f32) (m : Fin 512) (u : Fin 1) :
    mmaxH (F := Ideal) mm (ix2 m u) = max (mm (ix3 (0 : Fin 2) m u)) (mm (ix3 (1 : Fin 2) m u)) := by
  unfold mmaxH
  rw [maximumf_apply, col0H_apply, col1H_apply]

theorem a0H_apply (mm : FVec Ideal S2x512x1 .f32) (m : Fin 512) (u : Fin 1) :
    a0H (F := Ideal) mm (ix2 m u)
      = Ideal.exp (mm (ix3 (0 : Fin 2) m u) - max (mm (ix3 (0 : Fin 2) m u)) (mm (ix3 (1 : Fin 2) m u))) := by
  unfold a0H
  rw [hostExp_apply, subf_apply, col0H_apply, mmaxH_apply]

theorem a1H_apply (mm : FVec Ideal S2x512x1 .f32) (m : Fin 512) (u : Fin 1) :
    a1H (F := Ideal) mm (ix2 m u)
      = Ideal.exp (mm (ix3 (1 : Fin 2) m u) - max (mm (ix3 (0 : Fin 2) m u)) (mm (ix3 (1 : Fin 2) m u))) := by
  unfold a1H
  rw [hostExp_apply, subf_apply, col1H_apply, mmaxH_apply]

/-- The combined denominator at row m. -/
theorem lH_apply (mm ll : FVec Ideal S2x512x1 .f32) (m : Fin 512) (u : Fin 1) :
    lH (F := Ideal) mm ll (ix2 m u)
      = Ideal.exp (mm (ix3 (0 : Fin 2) m u) - max (mm (ix3 (0 : Fin 2) m u)) (mm (ix3 (1 : Fin 2) m u))) * ll (ix3 (0 : Fin 2) m u)
        + Ideal.exp (mm (ix3 (1 : Fin 2) m u) - max (mm (ix3 (0 : Fin 2) m u)) (mm (ix3 (1 : Fin 2) m u))) * ll (ix3 (1 : Fin 2) m u) := by
  unfold lH
  rw [addf_apply, mulf_apply, mulf_apply, a0H_apply, a1H_apply, col0H_apply, col1H_apply]

/-- The combined numerator at (m, d). -/
theorem accH_apply (mm : FVec Ideal S2x512x1 .f32) (aa : FVec Ideal S2x512x512 .f32) (m d : Fin 512) :
    accH (F := Ideal) mm aa (ix2 m d)
      = Ideal.exp (mm (ix3 (0 : Fin 2) m (0 : Fin 1)) - max (mm (ix3 (0 : Fin 2) m (0 : Fin 1))) (mm (ix3 (1 : Fin 2) m (0 : Fin 1)))) * aa (ix3 (0 : Fin 2) m d)
        + Ideal.exp (mm (ix3 (1 : Fin 2) m (0 : Fin 1)) - max (mm (ix3 (0 : Fin 2) m (0 : Fin 1))) (mm (ix3 (1 : Fin 2) m (0 : Fin 1)))) * aa (ix3 (1 : Fin 2) m d) := by
  unfold accH
  rw [addf_apply, mulf_apply, mulf_apply, bcastCol_apply, bcastCol_apply, a0H_apply, a1H_apply, mat0H_apply, mat1H_apply]

/-- pooled at (m, d): the combined numerator over the combined denominator of row m. -/
theorem pooledH_apply (mm ll : FVec Ideal S2x512x1 .f32) (aa : FVec Ideal S2x512x512 .f32) (m d : Fin 512) :
    pooledH (F := Ideal) mm ll aa (ix2 m d)
      = Ideal.div
          (Ideal.exp (mm (ix3 (0 : Fin 2) m (0 : Fin 1)) - max (mm (ix3 (0 : Fin 2) m (0 : Fin 1))) (mm (ix3 (1 : Fin 2) m (0 : Fin 1)))) * aa (ix3 (0 : Fin 2) m d)
            + Ideal.exp (mm (ix3 (1 : Fin 2) m (0 : Fin 1)) - max (mm (ix3 (0 : Fin 2) m (0 : Fin 1))) (mm (ix3 (1 : Fin 2) m (0 : Fin 1)))) * aa (ix3 (1 : Fin 2) m d))
          (Ideal.exp (mm (ix3 (0 : Fin 2) m (0 : Fin 1)) - max (mm (ix3 (0 : Fin 2) m (0 : Fin 1))) (mm (ix3 (1 : Fin 2) m (0 : Fin 1)))) * ll (ix3 (0 : Fin 2) m (0 : Fin 1))
            + Ideal.exp (mm (ix3 (1 : Fin 2) m (0 : Fin 1)) - max (mm (ix3 (0 : Fin 2) m (0 : Fin 1))) (mm (ix3 (1 : Fin 2) m (0 : Fin 1)))) * ll (ix3 (1 : Fin 2) m (0 : Fin 1))) := by
  unfold pooledH
  rw [hostDivf_apply, bcastCol_apply, accH_apply, lH_apply]

/-! ### The key and value matrices and what the main kernel reads -/

/-- A vector as a row. -/
theorem rowH_apply (b : FVec Ideal S512 .f32) (u : Fin 1) (j : Fin 512) : rowH (F := Ideal) b (ix2 u j) = b (ix1 j) := by
  unfold rowH
  exact shapeCast_a_1a_apply b _ u j

/-- A transpose at (e, j) reads (j, e). -/
theorem trH_apply (w : FVec Ideal S512x512 .f32) (e j : Fin 512) : trH (F := Ideal) w (ix2 e j) = w (ix2 j e) := by
  unfold trH
  exact transpose_ix2_apply w _ e j

/-- x · wᵀ + b at (m, e). -/
theorem linH_apply (x w : FVec Ideal S512x512 .f32) (b : FVec Ideal S512 .f32) (m e : Fin 512) :
    linH (F := Ideal) x w b (ix2 m e) = (∑ d : Fin 512, x (ix2 m d) * w (ix2 e d)) + b (ix1 e) := by
  unfold linH
  rw [addf_apply, hdot_apply, bcastRow_apply, rowH_apply]
  simp only [trH_apply]

theorem Vh_apply (ws wv : FVec Ideal S512x512 .f32) (bv : FVec Ideal S512 .f32) (m e : Fin 512) :
    Vh (F := Ideal) ws wv bv (ix2 m e) = (∑ d : Fin 512, ws (ix2 m d) * wv (ix2 e d)) + bv (ix1 e) := by
  unfold Vh
  exact linH_apply ws wv bv m e

theorem Kh_apply (ws wk : FVec Ideal S512x512 .f32) (bk : FVec Ideal S512 .f32) (pooled wkp : FVec Ideal S512x512 .f32)
    (bkp : FVec Ideal S512 .f32) (m e : Fin 512) :
    Kh (F := Ideal) ws wk bk pooled wkp bkp (ix2 m e)
      = ((∑ d : Fin 512, ws (ix2 m d) * wk (ix2 e d)) + bk (ix1 e))
        + ((∑ d : Fin 512, pooled (ix2 m d) * wkp (ix2 e d)) + bkp (ix1 e)) := by
  unfold Kh
  rw [addf_apply, linH_apply, linH_apply]

/-- A weight matrix as the main kernel reads it, at (e, j): the matrix at (j, e). -/
theorem wTH_apply (w : FVec Ideal S512x512 .f32) (e j : Fin 512) : wTH (F := Ideal) w (ix2 e j) = w (ix2 j e) := by
  unfold wTH
  rw [truncf_apply, trH_apply]

/-- Kᵀ · 0.125 at (e, m): K at (m, e) times the constant. -/
theorem kTH_apply (k : FVec Ideal S512x512 .f32) (e m : Fin 512) :
    kTH (F := Ideal) k (ix2 e m) = k (ix2 m e) * Ideal.ofBits .f32 0x3E000000#32 := by
  unfold kTH
  rw [truncf_apply, mulf_apply, trH_apply, bcastScalar_apply]
  rfl

end Cert.KernelIdeal.Val

end
-- ==== Proof.KI.Val1.lean ====
/-
  Region 1, the value side: the output array after the region as one whole-array function of the entry contents.

  The output window's block index at point t is (t, 0) and a block is 1024 rows by all 512 columns, written back at
  every point; so the 64 blocks tile the array, row r lies in the block of point r / 1024 at local row r % 1024, and
  the array ends holding, at (r, d), the block function of point r / 1024's nine input blocks read at (r % 1024, d).
  The input blocks themselves: rows 1024·t … 1024·t + 1023 of g and of g_p for the two streamed windows; the whole
  array for the seven resident operands, whose block index is (0, 0) at every point.
-/
import proofs.«410946_j27565100106019_3_alg».proof.Proof.KI.Body1
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The printed index maps, decided over the grid -/

/-- The streamed windows (g, g_p) and the output window sit on row block t at point t, column block 0. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_9 : ∀ t : Fin cfg1.N, win1_9.index t (0 : Fin 2) = t.val ∧ win1_9.index t (1 : Fin 2) = 0 :=
  (by decide +kernel : ∀ t : Fin grid1.N, _)
/-- The resident windows never move: block (0, 0) at every point. -/
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)

/-! ## The input blocks, read off the arrays -/

/-- Window 0's block at point t is rows 1024·t … of g: local (r, d) is the array's (1024·t + r, d). -/
theorem iblk1_0_apply (c : Dev nD) (t : Fin cfg1.N) (y : S1024x512.Idx) :
    iblk1 V c 0 t y = V c main_arg0 (ValueIdx.ix2 ⟨1024 * t.val + (y 0).val, by
        have ht : t.val < 64 := Nat.lt_of_lt_of_eq t.isLt N_1
        have hy : (y 0).val < 1024 := (y 0).isLt
        omega⟩ ⟨(y 1).val, (y 1).isLt⟩) := by
  show V c main_arg0 (((cfg1.win 0).blk t).view.emb y) = _
  congr 1
  funext a; apply Fin.ext
  obtain ⟨e0, e1⟩ := idx1_0 t
  match a with
  | ⟨0, _⟩ => show win1_0.index t (0 : Fin 2) * 1024 + 1 * (y 0).val = 1024 * t.val + (y 0).val; omega
  | ⟨1, _⟩ => show win1_0.index t (1 : Fin 2) * 512 + 1 * (y 1).val = (y 1).val; omega

/-- Window 1's block at point t is rows 1024·t … of g_p. -/
theorem iblk1_1_apply (c : Dev nD) (t : Fin cfg1.N) (y : S1024x512.Idx) :
    iblk1 V c 1 t y = V c main_arg1 (ValueIdx.ix2 ⟨1024 * t.val + (y 0).val, by
        have ht : t.val < 64 := Nat.lt_of_lt_of_eq t.isLt N_1
        have hy : (y 0).val < 1024 := (y 0).isLt
        omega⟩ ⟨(y 1).val, (y 1).isLt⟩) := by
  show V c main_arg1 (((cfg1.win 1).blk t).view.emb y) = _
  congr 1
  funext a; apply Fin.ext
  obtain ⟨e0, e1⟩ := idx1_1 t
  match a with
  | ⟨0, _⟩ => show win1_1.index t (0 : Fin 2) * 1024 + 1 * (y 0).val = 1024 * t.val + (y 0).val; omega
  | ⟨1, _⟩ => show win1_1.index t (1 : Fin 2) * 512 + 1 * (y 1).val = (y 1).val; omega

/-- A resident window's block is its whole array, at every point. -/
theorem iblk1_2_apply (c : Dev nD) (t : Fin cfg1.N) (y : S512x512.Idx) : iblk1 V c 2 t y = V c main_v50 y := by
  show V c main_v50 (((cfg1.win 2).blk t).view.emb y) = V c main_v50 y
  congr 1
  funext a; apply Fin.ext
  obtain ⟨e0, e1⟩ := idx1_2 t
  match a with
  | ⟨0, _⟩ => show win1_2.index t (0 : Fin 2) * 512 + 1 * (y 0).val = (y 0).val; omega
  | ⟨1, _⟩ => show win1_2.index t (1 : Fin 2) * 512 + 1 * (y 1).val = (y 1).val; omega
theorem iblk1_3_apply (c : Dev nD) (t : Fin cfg1.N) (y : S512x512.Idx) : iblk1 V c 3 t y = V c main_v52 y := by
  show V c main_v52 (((cfg1.win 3).blk t).view.emb y) = V c main_v52 y
  congr 1
  funext a; apply Fin.ext
  obtain ⟨e0, e1⟩ := idx1_3 t
  match a with
  | ⟨0, _⟩ => show win1_3.index t (0 : Fin 2) * 512 + 1 * (y 0).val = (y 0).val; omega
  | ⟨1, _⟩ => show win1_3.index t (1 : Fin 2) * 512 + 1 * (y 1).val = (y 1).val; omega
theorem iblk1_4_apply (c : Dev nD) (t : Fin cfg1.N) (y : S1x512.Idx) : iblk1 V c 4 t y = V c main_v59 y := by
  show V c main_v59 (((cfg1.win 4).blk t).view.emb y) = V c main_v59 y
  congr 1
  funext a; apply Fin.ext
  obtain ⟨e0, e1⟩ := idx1_4 t
  match a with
  | ⟨0, _⟩ => show win1_4.index t (0 : Fin 2) * 1 + 1 * (y 0).val = (y 0).val; omega
  | ⟨1, _⟩ => show win1_4.index t (1 : Fin 2) * 512 + 1 * (y 1).val = (y 1).val; omega
theorem iblk1_5_apply (c : Dev nD) (t : Fin cfg1.N) (y : S512x512.Idx) : iblk1 V c 5 t y = V c main_v56 y := by
  show V c main_v56 (((cfg1.win 5).blk t).view.emb y) = V c main_v56 y
  congr 1
  funext a; apply Fin.ext
  obtain ⟨e0, e1⟩ := idx1_5 t
  match a with
  | ⟨0, _⟩ => show win1_5.index t (0 : Fin 2) * 512 + 1 * (y 0).val = (y 0).val; omega
  | ⟨1, _⟩ => show win1_5.index t (1 : Fin 2) * 512 + 1 * (y 1).val = (y 1).val; omega
theorem iblk1_6_apply (c : Dev nD) (t : Fin cfg1.N) (y : S512x512.Idx) : iblk1 V c 6 t y = V c main_v57 y := by
  show V c main_v57 (((cfg1.win 6).blk t).view.emb y) = V c main_v57 y
  congr 1
  funext a; apply Fin.ext
  obtain ⟨e0, e1⟩ := idx1_6 t
  match a with
  | ⟨0, _⟩ => show win1_6.index t (0 : Fin 2) * 512 + 1 * (y 0).val = (y 0).val; omega
  | ⟨1, _⟩ => show win1_6.index t (1 : Fin 2) * 512 + 1 * (y 1).val = (y 1).val; omega
theorem iblk1_7_apply (c : Dev nD) (t : Fin cfg1.N) (y : S1x512.Idx) : iblk1 V c 7 t y = V c main_v60 y := by
  show V c main_v60 (((cfg1.win 7).blk t).view.emb y) = V c main_v60 y
  congr 1
  funext a; apply Fin.ext
  obtain ⟨e0, e1⟩ := idx1_7 t
  match a with
  | ⟨0, _⟩ => show win1_7.index t (0 : Fin 2) * 1 + 1 * (y 0).val = (y 0).val; omega
  | ⟨1, _⟩ => show win1_7.index t (1 : Fin 2) * 512 + 1 * (y 1).val = (y 1).val; omega
theorem iblk1_8_apply (c : Dev nD) (t : Fin cfg1.N) (y : S1x512.Idx) : iblk1 V c 8 t y = V c main_v61 y := by
  show V c main_v61 (((cfg1.win 8).blk t).view.emb y) = V c main_v61 y
  congr 1
  funext a; apply Fin.ext
  obtain ⟨e0, e1⟩ := idx1_8 t
  match a with
  | ⟨0, _⟩ => show win1_8.index t (0 : Fin 2) * 1 + 1 * (y 0).val = (y 0).val; omega
  | ⟨1, _⟩ => show win1_8.index t (1 : Fin 2) * 512 + 1 * (y 1).val = (y 1).val; omega

/-! ## The output array -/

/-- The point whose output block holds row (i 0): (i 0) / 1024. -/
def pt1 (i : S65536x512.Idx) : Fin cfg1.N := ⟨(i 0).val / 1024, by
  have h : (i 0).val < 65536 := (i 0).isLt
  show (i 0).val / 1024 < grid1.N
  rw [N_1]; omega⟩

/-- The output array after the region: at (r, d), the block function of point r / 1024's input blocks at (r % 1024, d). -/
def G1 (c : Dev nD) : S65536x512.Idx → Elt F .f32 := fun i =>
  blk1 (iblk1 V c 0 (pt1 i)) (iblk1 V c 1 (pt1 i)) (iblk1 V c 2 (pt1 i)) (iblk1 V c 3 (pt1 i)) (iblk1 V c 4 (pt1 i))
    (iblk1 V c 5 (pt1 i)) (iblk1 V c 6 (pt1 i)) (iblk1 V c 7 (pt1 i)) (iblk1 V c 8 (pt1 i))
    (ValueIdx.ix2 ⟨(i 0).val % 1024, Nat.mod_lt _ (by norm_num)⟩ ⟨(i 1).val, (i 1).isLt⟩)

/-- The same with the point named. -/
theorem G1_at (c : Dev nD) (t : Fin cfg1.N) (i : S65536x512.Idx) (h : pt1 i = t) (y : S1024x512.Idx)
    (hy : (ValueIdx.ix2 ⟨(i 0).val % 1024, Nat.mod_lt _ (by norm_num)⟩ ⟨(i 1).val, (i 1).isLt⟩ : S1024x512.Idx) = y) :
    G1 V c i = blk1 (iblk1 V c 0 t) (iblk1 V c 1 t) (iblk1 V c 2 t) (iblk1 V c 3 t) (iblk1 V c 4 t)
      (iblk1 V c 5 t) (iblk1 V c 6 t) (iblk1 V c 7 t) (iblk1 V c 8 t) y := by
  subst h; subst hy; rfl

/-- Where point t's output block sits in the array: local (r, d) is the array's (1024·t + r, d). -/
theorem emb1_9 (t : Fin cfg1.N) (j : S1024x512.Idx) :
    ((((cfg1.win 9).blk t).view.emb j) 0).val = t.val * 1024 + (j 0).val
    ∧ ((((cfg1.win 9).blk t).view.emb j) 1).val = (j 1).val := by
  obtain ⟨e0, e1⟩ := idx1_9 t
  constructor
  · show win1_9.index t (0 : Fin 2) * 1024 + 1 * (j 0).val = _; omega
  · show win1_9.index t (1 : Fin 2) * 512 + 1 * (j 1).val = _; omega

/-- What point t writes back is block t of G1. -/
theorem flushed1_9_eq (c : Dev nD) (t : Fin cfg1.N) :
    (dat1 V c).flushed 9 t = ((cfg1.win 9).blk t).view.read (Elt F) (G1 V c) := by
  show (cfg1.win 9).cut (grid1.coords t) ((dat1 V c).after 9 t) = _
  rw [after1_9]
  funext j
  obtain ⟨e0, e1⟩ := emb1_9 t j
  have hj : (j 0).val < 1024 := (j 0).isLt
  show _ = G1 V c (((cfg1.win 9).blk t).view.emb j)
  rw [G1_at V c t _ (Fin.ext (by show ((((cfg1.win 9).blk t).view.emb j) 0).val / 1024 = t.val; omega)) j
    (by
      funext a; apply Fin.ext
      match a with
      | ⟨0, _⟩ => show ((((cfg1.win 9).blk t).view.emb j) 0).val % 1024 = (j 0).val; omega
      | ⟨1, _⟩ => show ((((cfg1.win 9).blk t).view.emb j) 1).val = (j 1).val; omega)]

/-- An index of the array is in point t's block iff each coordinate is in the block's range on its axis. -/
theorem mem_blk1_9 (t : Fin cfg1.N) (i : S65536x512.Idx) :
    i ∈ ((cfg1.win 9).blk t).view.set ↔ ∀ a : Fin 2, win1_9.index t a * S1024x512.size a ≤ (i a).val ∧ (i a).val < win1_9.index t a * S1024x512.size a + S1024x512.size a := by
  show i ∈ ((View.whole main_v62).slice (win1_9.rect t)).set ↔ _
  rw [View.set_slice_whole, Rect.mem_set_unit]
  exact Iff.rfl

/-- The 64 output blocks tile the array: row r is in the block of point r / 1024. -/
theorem cover1 (i : S65536x512.Idx) :
    ∃ t : Fin cfg1.N, (cfg1.win 9).flush t = true ∧ i ∈ ((cfg1.win 9).blk t).view.set := by
  refine ⟨pt1 i, flush1_9 _, ?_⟩
  rw [mem_blk1_9]
  obtain ⟨e0, e1⟩ := idx1_9 (pt1 i)
  have q : (pt1 i).val = (i 0).val / 1024 := rfl
  have h1 : (i 1).val < 512 := (i 1).isLt
  intro a
  match a with
  | ⟨0, _⟩ => show win1_9.index (pt1 i) (0 : Fin 2) * 1024 ≤ (i 0).val ∧ (i 0).val < win1_9.index (pt1 i) (0 : Fin 2) * 1024 + 1024; omega
  | ⟨1, _⟩ => show win1_9.index (pt1 i) (1 : Fin 2) * 512 ≤ (i 1).val ∧ (i 1).val < win1_9.index (pt1 i) (1 : Fin 2) * 512 + 512; omega

/-- The output array after the region is G1. -/
theorem final1 (c : Dev nD) : (dat1 V c).arrAt 9 cfg1.N = G1 V c :=
  (dat1 V c).arrAt_eq_of_cover 9 (G1 V c) (fun t _ => flushed1_9_eq V c t) cover1

end Cert.KernelIdeal.Hand

end
-- ==== Proof.Math.Spec.lean ====
/-
  The two functions both programs are compared through.

  `poolR`: softmax pooling over the reals.  For one row m of W the scores over the 65536 rows of g are
  s n = ∑ d, W m d · g n d; the pooled row is ∑ n, (exp (s n − max s) / ∑ n', exp (s n' − max s)) · gp n d.

  `rowOut`: one output row over the extended reals, from the row's query q, the key and value matrices K and V, the
  residual row g and the layer norm's scale and shift: scaled scores (∑ e, q e · K m e) · c, the row softmax
  (maximum as a fold of max from −∞, exponentials, their sum, quotients), the value product plus the residual, then
  (o − μ) · rsqrt (var + ε) · γ + β with μ and var the mean and variance over the row (quotients by `n`).

  `qrow`: a query row, (g·Wqᵀ + bq) + (gp·Wgpᵀ + bgp).
-/
import Idealize.ShloMosaic.PureOps.Ideal
import Mathlib.Analysis.SpecialFunctions.Exp
import Mathlib.Algebra.BigOperators.Group.Finset.Basic
import Mathlib.Order.Fin.Basic

noncomputable section

open Idealize.ShloMosaic
open scoped BigOperators

namespace Cert.Spec

/-- The pooling scores of one row of W against every row of g. -/
def sc (W : Fin 512 → Fin 512 → ℝ) (g : Fin 65536 → Fin 512 → ℝ) (m : Fin 512) (n : Fin 65536) : ℝ :=
  ∑ d : Fin 512, W m d * g n d

/-- The maximum of a family over the 65536 rows. -/
def mx (s : Fin 65536 → ℝ) : ℝ := Finset.univ.sup' ⟨(0 : Fin 65536), Finset.mem_univ _⟩ s

/-- Softmax pooling: row m of W pools the rows of gp with the softmax weights of its scores against g. -/
def poolR (W : Fin 512 → Fin 512 → ℝ) (g gp : Fin 65536 → Fin 512 → ℝ) (m d : Fin 512) : ℝ :=
  ∑ n : Fin 65536,
    (Real.exp (sc W g m n - mx (sc W g m)) / ∑ n' : Fin 65536, Real.exp (sc W g m n' - mx (sc W g m))) * gp n d

/-- A query row: (g·Wqᵀ + bq) + (gp·Wgpᵀ + bgp). -/
def qrow (g gp : Fin 512 → EReal) (Wq Wgp : Fin 512 → Fin 512 → EReal) (bq bgp : Fin 512 → EReal) (j : Fin 512) : EReal :=
  ((∑ e : Fin 512, g e * Wq j e) + bq j) + ((∑ e : Fin 512, gp e * Wgp j e) + bgp j)

/-- One output row: scaled scores, row softmax, value product plus residual, layer norm. -/
def rowOut (c eps n : EReal) (q : Fin 512 → EReal) (K V : Fin 512 → Fin 512 → EReal) (g gam bet : Fin 512 → EReal)
    (d : Fin 512) : EReal :=
  let s : Fin 512 → EReal := fun m => (∑ e : Fin 512, q e * K m e) * c
  let M : EReal := (Finset.univ : Finset (Fin 512)).fold max ⊥ s
  let p : Fin 512 → EReal := fun m => Ideal.exp (s m - M)
  let L : EReal := ∑ m : Fin 512, p m
  let a : Fin 512 → EReal := fun m => Ideal.div (p m) L
  let o : Fin 512 → EReal := fun d' => (∑ m : Fin 512, a m * V m d') + g d'
  let mu : EReal := Ideal.div (∑ d' : Fin 512, o d') n
  let var : EReal := Ideal.div (∑ d' : Fin 512, (o d' - mu) * (o d' - mu)) n
  (o d - mu) * Ideal.rsqrt (var + eps) * gam d + bet d

end Cert.Spec

end
-- ==== Proof.Math.Lift.lean ====
/-
  Passing between the extended reals and the reals.

  A finite sum, a maximum, an exponential, a quotient by a nonzero real and a reciprocal square root of a positive
  real, each taken of (the images of) real numbers in the extended reals, is the image of the same operation on the
  reals.  The fold of max from −∞ over a nonempty finite family of reals is the image of the family's maximum.  A
  nonnegative real constant distributes over every finite sum of extended reals (the products with a finite
  nonnegative factor have no ∞ − ∞ corner).  And the five float constants the programs spell, as the extended reals
  their patterns denote: −∞, 0, 1/8, 512 and a positive ε.
-/
import Idealize.ShloMosaic.PureOps.Ideal
import Idealize.ShloMosaic.PureOps.Ideal.Laws
import Mathlib.Data.EReal.Operations
import Mathlib.Data.EReal.Inv
import Mathlib.Data.Finset.Fold
import Mathlib.Data.Finset.Lattice.Fold
import Mathlib.Algebra.BigOperators.Group.Finset.Basic
import proofs.«410946_j27565100106019_3_alg».proof.Proof.Math.Spec

noncomputable section

open Idealize.ShloMosaic
open scoped BigOperators

namespace Cert.Lift

/-! ### Sums -/

/-- A nonnegative real constant on the right distributes over a finite sum of extended reals. -/
theorem finset_sum_mul_of_nonneg (c : ℝ) (hc : 0 ≤ c) {ι : Type*} (s : Finset ι) (f : ι → EReal) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- The same over a whole finite type. -/
theorem mul_sum_of_nonneg (c : ℝ) (hc : 0 ≤ c) {ι : Type*} [Fintype ι] (f : ι → EReal) :
    (∑ i, f i) * (c : EReal) = ∑ i, f i * (c : EReal) :=
  finset_sum_mul_of_nonneg c hc Finset.univ f

/-- A nonnegative real constant on the left distributes over a finite sum of extended reals. -/
theorem sum_mul_left_of_nonneg (c : ℝ) (hc : 0 ≤ c) {ι : Type*} [Fintype ι] (f : ι → EReal) :
    (c : EReal) * (∑ i, f i) = ∑ i, (c : EReal) * f i := by
  rw [mul_comm, mul_sum_of_nonneg c hc]
  exact Finset.sum_congr rfl fun i _ => mul_comm _ _

/-- A finite sum of reals, taken in the extended reals, is the real sum. -/
theorem finset_sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem sum_coe {ι : Type*} [Fintype ι] (f : ι → ℝ) :
    (∑ i, ((f i : ℝ) : EReal)) = ((∑ i, f i : ℝ) : EReal) :=
  finset_sum_coe Finset.univ f

/-! ### Maxima -/

theorem max_coe (x y : ℝ) : max (x : EReal) (y : EReal) = ((max x y : ℝ) : EReal) :=
  (Monotone.map_max EReal.coe_strictMono.monotone).symm

theorem max_bot_left (x : EReal) : max ⊥ x = x := bot_sup_eq x

theorem max_bot_right (x : EReal) : max x ⊥ = x := sup_bot_eq x

/-- The fold of max from −∞ over a nonempty finite family of reals is the family's maximum. -/
theorem finset_fold_max_coe {ι : Type*} (s : Finset ι) (hs : s.Nonempty) (f : ι → ℝ) :
    s.fold max ⊥ (fun i => ((f i : ℝ) : EReal)) = ((s.sup' hs f : ℝ) : EReal) := by
  have h1 : s.fold max ⊥ (fun i => ((f i : ℝ) : EReal)) = s.sup (fun i => ((f i : ℝ) : EReal)) := rfl
  rw [h1, ← Finset.sup'_eq_sup hs,
    Finset.comp_sup'_eq_sup'_comp hs (fun r : ℝ => (r : EReal)) (fun x y => (max_coe x y).symm)]
  rfl

theorem fold_max_coe {n : ℕ} (f : Fin (n + 1) → ℝ) :
    (Finset.univ : Finset (Fin (n + 1))).fold max ⊥ (fun i => ((f i : ℝ) : EReal))
      = ((Finset.univ.sup' ⟨0, Finset.mem_univ _⟩ f : ℝ) : EReal) :=
  finset_fold_max_coe Finset.univ _ f

/-- At the 65536 rows: the fold of max from −∞ is the maximum `Cert.Spec.mx`. -/
theorem fold_max_mx (s : Fin 65536 → ℝ) :
    (Finset.univ : Finset (Fin 65536)).fold max ⊥ (fun n => ((s n : ℝ) : EReal)) = ((Cert.Spec.mx s : ℝ) : EReal) :=
  finset_fold_max_coe Finset.univ _ s

/-- Every member of the family is at most the maximum. -/
theorem le_mx (s : Fin 65536 → ℝ) (n : Fin 65536) : s n ≤ Cert.Spec.mx s :=
  Finset.le_sup' s (Finset.mem_univ n)

/-! ### The operations with corners, at real arguments -/

theorem exp_coe (x : ℝ) : Ideal.exp (x : EReal) = ((Real.exp x : ℝ) : EReal) := rfl

theorem exp_bot : Ideal.exp ⊥ = 0 := rfl

theorem div_coe_coe (x y : ℝ) (hy : y ≠ 0) : Ideal.div (x : EReal) (y : EReal) = ((x / y : ℝ) : EReal) := by
  rw [Ideal.div, if_neg (EReal.coe_ne_zero.mpr hy), ← EReal.coe_inv, ← EReal.coe_mul, div_eq_mul_inv]

theorem rsqrt_coe (x : ℝ) (hx : 0 < x) : Ideal.rsqrt (x : EReal) = (((Real.sqrt x)⁻¹ : ℝ) : EReal) := by
  rw [Ideal.rsqrt_coe, if_neg (not_lt.mpr hx.le), if_neg hx.ne']

/-! ### The constants -/

/-- The pattern of −∞. -/
theorem ofBits_neg_inf : Ideal.ofBits .f32 0xFF800000#32 = ⊥ := by
  simp [Ideal.ofBits, Ideal.ieee]

/-- The pattern of +0. -/
theorem ofBits_zero : Ideal.ofBits .f32 0x00000000#32 = 0 := Ideal.ofBits_zero_f32

/-- The pattern of 1/8. -/
theorem ofBits_eighth : Ideal.ofBits .f32 0x3E000000#32 = ((0.125 : ℝ) : EReal) := by
  simp [Ideal.ofBits, Ideal.ieee, -EReal.coe_mul]; norm_num

/-- The pattern of 512. -/
theorem ofBits_512 : Ideal.ofBits .f32 0x44000000#32 = ((512 : ℝ) : EReal) := by
  simp [Ideal.ofBits, Ideal.ieee, -EReal.coe_mul]; norm_num

/-- The real the pattern `0x3727C5AC` denotes: 10995116 · 2⁻⁴⁰ (the float nearest 10⁻⁵). -/
def eps : ℝ := 10995116 * (2 : ℝ) ^ (-40 : ℤ)

theorem eps_pos : 0 < eps := by unfold eps; positivity

theorem ofBits_eps : Ideal.ofBits .f32 0x3727C5AC#32 = ((eps : ℝ) : EReal) := by
  unfold eps
  simp [Ideal.ofBits, Ideal.ieee, -EReal.coe_mul]

end Cert.Lift

end
-- ==== Proof.KI.ValTailOps.lean ====
/-
  The main kernel's vector operations read at an index given by coordinates, at the ideal values:
  the keepdims column forms of a shape cast and a broadcast, the row sum and row maximum of a 1024 × 512 block,
  and the product of a 1024 × 512 block with a 512 × 512 matrix.
-/
import proofs.«410946_j27565100106019_3_alg».proof.Proof.KI.Blk
import proofs.«410946_j27565100106019_3_alg».proof.Proof.Math.Spec
import proofs.«410946_j27565100106019_3_alg».proof.Proof.Math.Lift
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.ValueIdx Cert.KernelIdeal Cert.KernelIdeal.Gen
open scoped BigOperators

namespace Cert.KernelIdeal.Val

/-! ### The keepdims column forms -/

/-- A length-a vector cast to an a × 1 column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column broadcast to a × b reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### Row reductions of a 1024 × 512 block -/

/-- The index over row r with column k, as the reduction's own insertion spells it. -/
theorem lift_row (h : S1024x512.Reduces [1] S1024) (r : Fin 1024) (k : Fin 512) :
    h.lift (ix1 r) k = ix2 r k := by
  funext a
  match a with
  | ⟨0, _⟩ => rfl
  | ⟨1, _⟩ => rfl

/-- A row sum at row r is the sum over the 512 columns. -/
theorem rowsum_apply (src : FVec Ideal S1024x512 .f32) (h : S1024x512.Reduces [1] S1024) (hφ : FKind.Formats .f32)
    (hacc : (0x00000000#32 : BitVec 32) = 0x00000000#32) (r : Fin 1024) :
    multiReduction (F := Ideal) .add [1] S1024 src 0x00000000#32 h hφ hacc (ix1 r) = ∑ k : Fin 512, src (ix2 r k) :=
  (Ideal.multiReduction_add_single src 0x00000000#32 h hφ hacc (ix1 r)).trans
    (Finset.sum_congr rfl fun k _ => congrArg src (lift_row h r k))

/-- A row maximum at row r is the fold of max from −∞ over the 512 columns. -/
theorem rowmax_apply (src : FVec Ideal S1024x512 .f32) (h : S1024x512.Reduces [1] S1024) (hφ : FKind.Formats .f32)
    (hacc : (0xFF800000#32 : BitVec 32) = 0xFF800000#32) (r : Fin 1024) :
    multiReduction (F := Ideal) .maximumf [1] S1024 src 0xFF800000#32 h hφ hacc (ix1 r)
      = (Finset.univ : Finset (Fin 512)).fold max ⊥ (fun k => src (ix2 r k)) := by
  refine (Ideal.multiReduction_maximumf_single src 0xFF800000#32 h hφ hacc (ix1 r)).trans ?_
  rw [Ideal.ofBits_def, Cert.Lift.ofBits_neg_inf]
  exact congrArg (fun f => (Finset.univ : Finset (Fin 512)).fold max ⊥ f) (funext fun k => congrArg src (lift_row h r k))

/-! ### The product of a 1024 × 512 block with a 512 × 512 matrix -/

theorem lhs_mm_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_mm_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_mm_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_mm_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product into the zero accumulator at (r, j): the sum over the 512 contracted coordinates of row r of the left
    operand times column j of the right. -/
theorem mm_apply {φ₁ φ₂ : FTy} (lhs : FVec Ideal S1024x512 φ₁) (rhs : FVec Ideal S512x512 φ₂) (r : Fin 1024) (j : Fin 512) :
    matmul dot_S1024x512_S512x512_S1024x512_1_0_0_1_n_n none lhs rhs (constant (F := Ideal) S1024x512 .f32 0x00000000#32) (ix2 r j)
      = ∑ k : Fin 512, lhs (ix2 r k) * rhs (ix2 k j) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 r j) ((ValueIdx.contrEquiv1 dot_S1024x512_S512x512_S1024x512_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S1024x512_S512x512_S1024x512_1_0_0_1_n_n.rhsIdx (ix2 r j) ((ValueIdx.contrEquiv1 dot_S1024x512_S512x512_S1024x512_1_0_0_1_n_n 512 rfl rfl).symm k) = ix2 k j := funext fun a => Fin.ext (by
    match a with
    | ⟨0, _⟩ => exact (rhs_mm_0 _ _).trans hk
    | ⟨1, _⟩ => exact rhs_mm_1 _ _)
  rw [el, er]

end Cert.KernelIdeal.Val

end
-- ==== Proof.KI.ValTail.lean ====
/-
  The main kernel's block function read at an index, at the ideal values, as the shared row function.

  One grid point maps 1024 rows. Row r of the output block depends only on row r of g and g_p and on the resident
  matrices: the query row q = (g·Wqᵀ + g_p·Wgpᵀ) + (bq + bgp), the scores q·(Kᵀ·c), the row softmax (maximum as a fold
  of max from −∞, exponentials, their sum, quotients), the value product plus the residual, and the layer norm
  (o − μ) · rsqrt (var + ε) · γ + β with μ and var the row's mean and variance. A change of float format is the identity
  on extended reals, so the block function at (r, d) is an equation between extended reals with no finiteness
  hypothesis: it is the specification's row, `Cert.Spec.rowOut` of `Cert.Spec.qrow`.

  The body is cut into stages (query block, score block, exponentials, weights, value product, mean; centred block,
  reciprocal deviation), each equal to its part of the printed payload by unfolding, and each read at (r, j) by the
  operation lemmas: a product into the zero accumulator as the sum over the contracted coordinate, a row reduction
  as the sum or the fold of max over the 512 columns, a column cast or broadcast as the column's entry at r.
-/
import proofs.«410946_j27565100106019_3_alg».proof.Proof.KI.ValTailOps

noncomputable section

open Idealize.ShloMosaic Idealize.ShloMosaic.ValueIdx Cert.KernelIdeal Cert.KernelIdeal.Gen
open scoped BigOperators

namespace Cert.KernelIdeal.Val

/-! ### The pointwise transcendental operations at an index -/

theorem exp_apply {s : Shape} {φ : FTy} (a : FVec Ideal s φ) (i : s.Idx) : exp a i = Ideal.exp (a i) := rfl
theorem rsqrt_apply {s : Shape} {φ : FTy} (a : FVec Ideal s φ) (i : s.Idx) : rsqrt a i = Ideal.rsqrt (a i) := rfl

/-! ### The block function in stages

The body of the main kernel, cut where the mathematics cuts it: the query block, the score block, the exponentials,
the softmax weights, the value product with the residual, the row mean, and the layer norm. -/

/-- The query block: g·Wqᵀ + g_p·Wgpᵀ plus the broadcast bias row. -/
def qblk (x0 x1 : FVec Ideal S1024x512 .f32) (x2 x3 : FVec Ideal S512x512 .bf16) (x4 : FVec Ideal S1x512 .f32) :
    FVec Ideal S1024x512 .f32 :=
  addf
    (addf
      (matmul dot_S1024x512_S512x512_S1024x512_1_0_0_1_n_n none (truncf .bf16 x0 Facts₀.bitsLt_bf16_f32)
        (shapeCast S512x512 x2 Facts₀.shapeCasts_S512x512_S512x512) (constant (F := Ideal) S1024x512 .f32 0x00000000#32))
      (matmul dot_S1024x512_S512x512_S1024x512_1_0_0_1_n_n none (truncf .bf16 x1 Facts₀.bitsLt_bf16_f32)
        (shapeCast S512x512 x3 Facts₀.shapeCasts_S512x512_S512x512) (constant (F := Ideal) S1024x512 .f32 0x00000000#32)))
    (broadcastTo S1024x512 (shapeCast S1x512 x4 Facts₀.shapeCasts_S1x512_S1x512) Facts₀.broadcasts_S1x512_S1024x512)

/-- The score block: the query block against the resident scaled key matrix. -/
def sblk (q : FVec Ideal S1024x512 .f32) (x5 : FVec Ideal S512x512 .bf16) : FVec Ideal S1024x512 .f32 :=
  matmul dot_S1024x512_S512x512_S1024x512_1_0_0_1_n_n none (truncf .bf16 q Facts₀.bitsLt_bf16_f32)
    (shapeCast S512x512 x5 Facts₀.shapeCasts_S512x512_S512x512) (constant (F := Ideal) S1024x512 .f32 0x00000000#32)

/-- The exponentials of the scores less their row maximum. -/
def eblk (s : FVec Ideal S1024x512 .f32) : FVec Ideal S1024x512 .f32 :=
  exp (subf s (broadcastTo S1024x512
    (shapeCast S1024x1 (multiReduction (F := Ideal) .maximumf [1] S1024 s 0xFF800000#32 Facts₀.reduces_S1024x512_S1024 (.inl rfl) rfl)
      Facts₀.shapeCasts_S1024_S1024x1) Facts₀.broadcasts_S1024x1_S1024x512))

/-- The softmax weights: the exponentials over their row sum. -/
def ablk (e : FVec Ideal S1024x512 .f32) : FVec Ideal S1024x512 .f32 :=
  divf e (broadcastTo S1024x512
    (shapeCast S1024x1 (multiReduction (F := Ideal) .add [1] S1024 e 0x00000000#32 Facts₀.reduces_S1024x512_S1024 (.inl rfl) rfl)
      Facts₀.shapeCasts_S1024_S1024x1) Facts₀.broadcasts_S1024x1_S1024x512)

/-- The value product plus the residual. -/
def oblk (a : FVec Ideal S1024x512 .f32) (x6 : FVec Ideal S512x512 .bf16) (x0 : FVec Ideal S1024x512 .f32) :
    FVec Ideal S1024x512 .f32 :=
  addf
    (matmul dot_S1024x512_S512x512_S1024x512_1_0_0_1_n_n none (truncf .bf16 a Facts₀.bitsLt_bf16_f32)
      (shapeCast S512x512 x6 Facts₀.shapeCasts_S512x512_S512x512) (constant (F := Ideal) S1024x512 .f32 0x00000000#32))
    x0

/-- The row mean as a column: the row sum over 512. -/
def mublk (o : FVec Ideal S1024x512 .f32) : FVec Ideal S1024x1 .f32 :=
  divf
    (shapeCast S1024x1 (multiReduction (F := Ideal) .add [1] S1024 o 0x00000000#32 Facts₀.reduces_S1024x512_S1024 (.inl rfl) rfl)
      Facts₀.shapeCasts_S1024_S1024x1)
    (broadcast S1024x1 (Scalar.ofBits (F := Ideal) .f32 0x44000000#32))

theorem pay2_eq (x0 x1 : Vec Ideal S1024x512 .f32) (x2 x3 : Vec Ideal S512x512 .bf16) (x4 : Vec Ideal S1x512 .f32)
    (x5 x6 : Vec Ideal S512x512 .bf16) :
    k1_pay2 (F := Ideal) x0 x1 x2 x3 x4 x5 x6 = oblk (ablk (eblk (sblk (qblk x0 x1 x2 x3 x4) x5))) x6 x0 := rfl

theorem pay3_eq (x0 x1 : Vec Ideal S1024x512 .f32) (x2 x3 : Vec Ideal S512x512 .bf16) (x4 : Vec Ideal S1x512 .f32)
    (x5 x6 : Vec Ideal S512x512 .bf16) :
    k1_pay3 (F := Ideal) x0 x1 x2 x3 x4 x5 x6 = mublk (k1_pay2 (F := Ideal) x0 x1 x2 x3 x4 x5 x6) := rfl

/-! ### Each stage at an index -/

theorem qblk_apply (x0 x1 : FVec Ideal S1024x512 .f32) (x2 x3 : FVec Ideal S512x512 .bf16) (x4 : FVec Ideal S1x512 .f32)
    (r : Fin 1024) (j : Fin 512) :
    qblk x0 x1 x2 x3 x4 (ix2 r j)
      = ((∑ e : Fin 512, x0 (ix2 r e) * x2 (ix2 e j)) + (∑ e : Fin 512, x1 (ix2 r e) * x3 (ix2 e j))) + x4 (ix2 (0 : Fin 1) j) := by
  unfold qblk
  rw [addf_apply, addf_apply, mm_apply, mm_apply, broadcastTo_1b_ab_apply, shapeCast_self, shapeCast_self, shapeCast_self]
  rfl

theorem sblk_apply (q : FVec Ideal S1024x512 .f32) (x5 : FVec Ideal S512x512 .bf16) (r : Fin 1024) (m : Fin 512) :
    sblk q x5 (ix2 r m) = ∑ e : Fin 512, q (ix2 r e) * x5 (ix2 e m) := by
  unfold sblk
  rw [mm_apply, shapeCast_self]
  rfl

theorem eblk_apply (s : FVec Ideal S1024x512 .f32) (r : Fin 1024) (m : Fin 512) :
    eblk s (ix2 r m) = Ideal.exp (s (ix2 r m) - (Finset.univ : Finset (Fin 512)).fold max ⊥ (fun k => s (ix2 r k))) := by
  unfold eblk
  rw [exp_apply, subf_apply, broadcastTo_a1_ab_apply, shapeCast_a_a1_apply, rowmax_apply]

theorem ablk_apply (e : FVec Ideal S1024x512 .f32) (r : Fin 1024) (m : Fin 512) :
    ablk e (ix2 r m) = Ideal.div (e (ix2 r m)) (∑ k : Fin 512, e (ix2 r k)) := by
  unfold ablk
  rw [divf_apply, broadcastTo_a1_ab_apply, shapeCast_a_a1_apply, rowsum_apply]

theorem oblk_apply (a : FVec Ideal S1024x512 .f32) (x6 : FVec Ideal S512x512 .bf16) (x0 : FVec Ideal S1024x512 .f32)
    (r : Fin 1024) (d : Fin 512) :
    oblk a x6 x0 (ix2 r d) = (∑ m : Fin 512, a (ix2 r m) * x6 (ix2 m d)) + x0 (ix2 r d) := by
  unfold oblk
  rw [addf_apply, mm_apply, shapeCast_self]
  rfl

theorem mublk_apply (o : FVec Ideal S1024x512 .f32) (r : Fin 1024) (u : Fin 1) :
    mublk o (ix2 r u) = Ideal.div (∑ d : Fin 512, o (ix2 r d)) (Ideal.ofBits .f32 0x44000000#32) := by
  unfold mublk
  rw [divf_apply, shapeCast_a_a1_apply, rowsum_apply]
  rfl

/-! ### The layer norm in stages -/

/-- The block less its row mean. -/
def cblk (o : FVec Ideal S1024x512 .f32) (mu : FVec Ideal S1024x1 .f32) : FVec Ideal S1024x512 .f32 :=
  subf o (broadcastTo S1024x512 mu Facts₀.broadcasts_S1024x1_S1024x512)

/-- The reciprocal standard deviation as a column: rsqrt of the mean square of the centred block plus ε. -/
def rblk (cen : FVec Ideal S1024x512 .f32) : FVec Ideal S1024x1 .f32 :=
  rsqrt (addf
    (divf
      (shapeCast S1024x1
        (multiReduction (F := Ideal) .add [1] S1024 (mulf cen cen) 0x00000000#32 Facts₀.reduces_S1024x512_S1024 (.inl rfl) rfl)
        Facts₀.shapeCasts_S1024_S1024x1)
      (broadcast S1024x1 (Scalar.ofBits (F := Ideal) .f32 0x44000000#32)))
    (broadcast S1024x1 (Scalar.ofBits (F := Ideal) .f32 0x3727C5AC#32)))

theorem pay1_eq (o : FVec Ideal S1024x512 .f32) (mu : FVec Ideal S1024x1 .f32) (x7 x8 : FVec Ideal S1x512 .f32) :
    k1_pay1 (F := Ideal) o mu x7 x8
      = addf
          (mulf
            (mulf (cblk o mu) (broadcastTo S1024x512 (rblk (cblk o mu)) Facts₀.broadcasts_S1024x1_S1024x512))
            (broadcastTo S1024x512 (shapeCast S1x512 x7 Facts₀.shapeCasts_S1x512_S1x512) Facts₀.broadcasts_S1x512_S1024x512))
          (broadcastTo S1024x512 (shapeCast S1x512 x8 Facts₀.shapeCasts_S1x512_S1x512) Facts₀.broadcasts_S1x512_S1024x512) := rfl

theorem cblk_apply (o : FVec Ideal S1024x512 .f32) (mu : FVec Ideal S1024x1 .f32) (r : Fin 1024) (d : Fin 512) :
    cblk o mu (ix2 r d) = o (ix2 r d) - mu (ix2 r (0 : Fin 1)) := by
  unfold cblk
  rw [subf_apply, broadcastTo_a1_ab_apply]

theorem rblk_apply (cen : FVec Ideal S1024x512 .f32) (r : Fin 1024) (u : Fin 1) :
    rblk cen (ix2 r u)
      = Ideal.rsqrt (Ideal.div (∑ d : Fin 512, cen (ix2 r d) * cen (ix2 r d)) (Ideal.ofBits .f32 0x44000000#32)
          + Ideal.ofBits .f32 0x3727C5AC#32) := by
  unfold rblk
  rw [rsqrt_apply, addf_apply, divf_apply, shapeCast_a_a1_apply, rowsum_apply]
  rfl

/-- The layer norm at (r, d), from the block o, the mean column mu and the scale and shift rows. -/
theorem pay1_apply (o : FVec Ideal S1024x512 .f32) (mu : FVec Ideal S1024x1 .f32) (x7 x8 : FVec Ideal S1x512 .f32)
    (r : Fin 1024) (d : Fin 512) :
    k1_pay1 (F := Ideal) o mu x7 x8 (ix2 r d)
      = (o (ix2 r d) - mu (ix2 r (0 : Fin 1)))
          * Ideal.rsqrt (Ideal.div (∑ d' : Fin 512, (o (ix2 r d') - mu (ix2 r (0 : Fin 1))) * (o (ix2 r d') - mu (ix2 r (0 : Fin 1))))
              (Ideal.ofBits .f32 0x44000000#32) + Ideal.ofBits .f32 0x3727C5AC#32)
          * x7 (ix2 (0 : Fin 1) d) + x8 (ix2 (0 : Fin 1) d) := by
  rw [pay1_eq, addf_apply, mulf_apply, mulf_apply, broadcastTo_a1_ab_apply, rblk_apply, broadcastTo_1b_ab_apply,
    broadcastTo_1b_ab_apply, shapeCast_self, shapeCast_self]
  simp only [cblk_apply]

/-! ### One output row without the intermediate names -/

/-- A row of the value product plus the residual, from the row's scores: softmax weights (exponentials of the scores
    less their maximum, over their sum) against V, plus g. -/
def oRow (s : Fin 512 → EReal) (V : Fin 512 → Fin 512 → EReal) (g : Fin 512 → EReal) (d' : Fin 512) : EReal :=
  (∑ m : Fin 512,
      Ideal.div (Ideal.exp (s m - (Finset.univ : Finset (Fin 512)).fold max ⊥ s))
        (∑ k : Fin 512, Ideal.exp (s k - (Finset.univ : Finset (Fin 512)).fold max ⊥ s)) * V m d') + g d'

/-- The layer norm of a row o: (o − μ) · rsqrt (var + ε) · γ + β, with μ and var the row's mean and variance. -/
def lnRow (eps n : EReal) (o gam bet : Fin 512 → EReal) (d : Fin 512) : EReal :=
  (o d - Ideal.div (∑ d' : Fin 512, o d') n)
    * Ideal.rsqrt (Ideal.div (∑ d' : Fin 512, (o d' - Ideal.div (∑ d'' : Fin 512, o d'') n) * (o d' - Ideal.div (∑ d'' : Fin 512, o d'') n)) n + eps)
    * gam d + bet d

/-- The specification's row is the layer norm of the softmax row of the scaled scores. -/
theorem rowOut_eq (c eps n : EReal) (q : Fin 512 → EReal) (K V : Fin 512 → Fin 512 → EReal) (g gam bet : Fin 512 → EReal)
    (d : Fin 512) :
    Cert.Spec.rowOut c eps n q K V g gam bet d
      = lnRow eps n (oRow (fun m => (∑ e : Fin 512, q e * K m e) * c) V g) gam bet d := rfl

/-! ### The kernel's rows -/

/-- The value product plus residual at (r, d) is the softmax row of the kernel's own scores. -/
theorem pay2_apply (x0 x1 : FVec Ideal S1024x512 .f32) (x2 x3 : FVec Ideal S512x512 .bf16) (x4 : FVec Ideal S1x512 .f32)
    (x5 x6 : FVec Ideal S512x512 .bf16) (r : Fin 1024) (d : Fin 512) :
    k1_pay2 (F := Ideal) x0 x1 x2 x3 x4 x5 x6 (ix2 r d)
      = oRow (fun m => ∑ e : Fin 512, qblk x0 x1 x2 x3 x4 (ix2 r e) * x5 (ix2 e m)) (fun m d' => x6 (ix2 m d'))
          (fun e => x0 (ix2 r e)) d := by
  rw [pay2_eq, oblk_apply]
  unfold oRow
  simp only [ablk_apply, eblk_apply, sblk_apply]

/-- THE BLOCK FUNCTION AT AN INDEX: row r of the output block is the specification's row of the query row of g and g_p
    at r, the key and value matrices, the residual row and the layer norm's scale and shift. The query row: the two
    bias rows added after the two products are the sum of the biases added to the sum of the products (the extended
    reals are a commutative additive monoid). The scores: the scale 1/8 inside the resident key matrix comes out of the
    contraction, a nonnegative real factor distributing over any sum of extended reals. -/
theorem blk1_apply (x0 x1 : Vec Ideal S1024x512 .f32) (x2 x3 : Vec Ideal S512x512 .bf16) (x4 : Vec Ideal S1x512 .f32)
    (x5 x6 : Vec Ideal S512x512 .bf16) (x7 x8 : Vec Ideal S1x512 .f32)
    (Wq Wgp K V : Fin 512 → Fin 512 → EReal) (bq bgp gam bet : Fin 512 → EReal) (c : ℝ) (hc : 0 ≤ c)
    (h2 : ∀ e j, x2 (ValueIdx.ix2 e j) = Wq j e) (h3 : ∀ e j, x3 (ValueIdx.ix2 e j) = Wgp j e)
    (h4 : ∀ j, x4 (ValueIdx.ix2 0 j) = bq j + bgp j)
    (h5 : ∀ e m, x5 (ValueIdx.ix2 e m) = K m e * (c : EReal)) (h6 : ∀ m d, x6 (ValueIdx.ix2 m d) = V m d)
    (h7 : ∀ d, x7 (ValueIdx.ix2 0 d) = gam d) (h8 : ∀ d, x8 (ValueIdx.ix2 0 d) = bet d) (r : Fin 1024) (d : Fin 512) :
    Cert.KernelIdeal.Hand.blk1 (F := Ideal) x0 x1 x2 x3 x4 x5 x6 x7 x8 (ValueIdx.ix2 r d)
      = Cert.Spec.rowOut (c : EReal) (Ideal.ofBits .f32 0x3727C5AC#32) (Ideal.ofBits .f32 0x44000000#32)
          (Cert.Spec.qrow (fun e => x0 (ValueIdx.ix2 r e)) (fun e => x1 (ValueIdx.ix2 r e)) Wq Wgp bq bgp) K V
          (fun e => x0 (ValueIdx.ix2 r e)) gam bet d := by
  have hq : ∀ e : Fin 512, qblk x0 x1 x2 x3 x4 (ix2 r e)
      = Cert.Spec.qrow (fun e => x0 (ix2 r e)) (fun e => x1 (ix2 r e)) Wq Wgp bq bgp e := by
    intro e
    rw [qblk_apply]
    unfold Cert.Spec.qrow
    simp only [h2, h3, h4]
    exact add_add_add_comm _ _ _ _
  have hs : (fun m : Fin 512 => ∑ e : Fin 512, qblk x0 x1 x2 x3 x4 (ix2 r e) * x5 (ix2 e m))
      = fun m => (∑ e : Fin 512, Cert.Spec.qrow (fun e => x0 (ix2 r e)) (fun e => x1 (ix2 r e)) Wq Wgp bq bgp e * K m e) * (c : EReal) := by
    funext m
    rw [Cert.Lift.mul_sum_of_nonneg c hc]
    refine Finset.sum_congr rfl fun e _ => ?_
    rw [hq, h5, mul_assoc]
  have hV : (fun m d' : Fin 512 => x6 (ix2 m d')) = V := funext fun m => funext fun d' => h6 m d'
  have hO : ∀ d' : Fin 512, k1_pay2 (F := Ideal) x0 x1 x2 x3 x4 x5 x6 (ix2 r d')
      = oRow (fun m => (∑ e : Fin 512, Cert.Spec.qrow (fun e => x0 (ix2 r e)) (fun e => x1 (ix2 r e)) Wq Wgp bq bgp e * K m e) * (c : EReal))
          V (fun e => x0 (ix2 r e)) d' := by
    intro d'
    rw [pay2_apply, hs, hV]
  rw [rowOut_eq]
  unfold Cert.KernelIdeal.Hand.blk1 lnRow
  rw [pay1_apply, pay3_eq, mublk_apply, h7, h8]
  simp only [hO]

end Cert.KernelIdeal.Val

end
-- ==== Proof.KI.GlueTail.lean ====
/-
  The main kernel's output array at an index, as the shared row function, at the ideal values.

  Row n of the output lies in the block of point n / 1024 at local row n % 1024.  That point's blocks of g and g_p are
  rows 1024·(n / 1024) … of the arrays, so their local row n % 1024 is the arrays' row n; the seven resident blocks are
  their whole arrays.  The block function read at (n % 1024, d) is the row function of those rows and matrices, so the
  output array at (n, d) is the row function of row n of g and g_p.
-/
import proofs.«410946_j27565100106019_3_alg».proof.Proof.KI.Val1
import proofs.«410946_j27565100106019_3_alg».proof.Proof.KI.ValTail
import proofs.«410946_j27565100106019_3_alg».proof.Proof.Math.Spec
import proofs.«410946_j27565100106019_3_alg».proof.Proof.Math.Lift
import Idealize.ShloMosaic.Lib.ValueIdx

set_option maxRecDepth 16384

noncomputable section

namespace Cert.KernelIdeal.Val

open Cert.KernelIdeal Cert.KernelIdeal.Gen Cert.KernelIdeal.GenP Cert.KernelIdeal.Hand
open Idealize.ShloMosaic Idealize.ShloMosaic.TcCoe Idealize.ShloMosaic.ValueIdx
open Idealize.SL Idealize.SL.Sem
open scoped BigOperators

variable (V : (c : Dev nD) → (b : Ref sig .tc) → Buf (Elt Ideal) ((c : Thread nD τ).loc b)) (c : Dev nD)
variable (X0 X1 : S65536x512.Idx → EReal) (Wq Wgp K Vv : Fin 512 → Fin 512 → EReal) (bq bgp gam bet : Fin 512 → EReal)

/-- Row n of an array of 65536 rows is local row n % 1024 of the 1024-row block n / 1024. -/
theorem row_split (n : Fin 65536) (e : Fin 512) (h : 1024 * (n.val / 1024) + n.val % 1024 < 65536) :
    (ix2 (⟨1024 * (n.val / 1024) + n.val % 1024, h⟩ : Fin 65536) (⟨e.val, e.isLt⟩ : Fin 512) : S65536x512.Idx) = ix2 n e := by
  funext a; apply Fin.ext
  match a with
  | ⟨0, _⟩ => show 1024 * (n.val / 1024) + n.val % 1024 = n.val; omega
  | ⟨1, _⟩ => rfl

/-- The output array at (n, d) is the row function of row n of g and g_p, the resident matrices and rows. -/
theorem G1_rowOut
    (h0 : ∀ (n : Fin 65536) (e : Fin 512), V c main_arg0 (ix2 n e) = X0 (ix2 n e))
    (h1 : ∀ (n : Fin 65536) (e : Fin 512), V c main_arg1 (ix2 n e) = X1 (ix2 n e))
    (h50 : ∀ e j : Fin 512, V c main_v50 (ix2 e j) = Wq j e)
    (h52 : ∀ e j : Fin 512, V c main_v52 (ix2 e j) = Wgp j e)
    (h59 : ∀ j : Fin 512, V c main_v59 (ix2 (0 : Fin 1) j) = bq j + bgp j)
    (h56 : ∀ e m : Fin 512, V c main_v56 (ix2 e m) = K m e * ((0.125 : ℝ) : EReal))
    (h57 : ∀ m d : Fin 512, V c main_v57 (ix2 m d) = Vv m d)
    (h60 : ∀ d : Fin 512, V c main_v60 (ix2 (0 : Fin 1) d) = gam d)
    (h61 : ∀ d : Fin 512, V c main_v61 (ix2 (0 : Fin 1) d) = bet d)
    (n : Fin 65536) (d : Fin 512) :
    G1 V c (ix2 n d)
      = Cert.Spec.rowOut ((0.125 : ℝ) : EReal) (Ideal.ofBits .f32 0x3727C5AC#32) (Ideal.ofBits .f32 0x44000000#32)
          (Cert.Spec.qrow (fun e => X0 (ix2 n e)) (fun e => X1 (ix2 n e)) Wq Wgp bq bgp) K Vv (fun e => X0 (ix2 n e)) gam bet d := by
  have hn : n.val < 65536 := n.isLt
  have e0 : (fun e : Fin 512 => iblk1 V c 0 (pt1 (ix2 n d)) (ix2 (⟨n.val % 1024, Nat.mod_lt _ (by norm_num)⟩ : Fin 1024) e))
      = fun e => X0 (ix2 n e) := funext fun e =>
    (iblk1_0_apply V c _ _).trans ((congrArg (V c main_arg0) (row_split n e _)).trans (h0 n e))
  have e1 : (fun e : Fin 512 => iblk1 V c 1 (pt1 (ix2 n d)) (ix2 (⟨n.val % 1024, Nat.mod_lt _ (by norm_num)⟩ : Fin 1024) e))
      = fun e => X1 (ix2 n e) := funext fun e =>
    (iblk1_1_apply V c _ _).trans ((congrArg (V c main_arg1) (row_split n e _)).trans (h1 n e))
  refine (G1_at V c (pt1 (ix2 n d)) (ix2 n d) rfl (ix2 (⟨n.val % 1024, Nat.mod_lt _ (by norm_num)⟩ : Fin 1024) d) rfl).trans ?_
  refine (blk1_apply _ _ _ _ _ _ _ _ _ Wq Wgp K Vv bq bgp gam bet 0.125 (by norm_num)
    (fun e j => (iblk1_2_apply V c _ _).trans (h50 e j))
    (fun e j => (iblk1_3_apply V c _ _).trans (h52 e j))
    (fun j => (iblk1_4_apply V c _ _).trans (h59 j))
    (fun e m => (iblk1_5_apply V c _ _).trans (h56 e m))
    (fun m d => (iblk1_6_apply V c _ _).trans (h57 m d))
    (fun d => (iblk1_7_apply V c _ _).trans (h60 d))
    (fun d => (iblk1_8_apply V c _ _).trans (h61 d)) _ d).trans ?_
  rw [e0, e1]

end Cert.KernelIdeal.Val

end
-- ==== Proof.KI.Val0.lean ====
/-
  Region 0 (the pooling kernel) after its run: the three output arrays as whole-array functions of the carried
  state, and the four input blocks as reads of the arrays the region finds.

  The grid is 2 × 32, point t = 32·h + i.  The three outputs have block index (h, 0, 0) and are written back only at
  the last point of a half (t % 32 = 31), where the staging buffers hold the reshaped state after that point.  So
  half h of each output array is the state after point 32·h + 31, read at (0, r, k).  The two row-block inputs have
  block index t at the point t: block row y is array row 1024·t + y.  The two resident inputs have block index
  (0, 0): the block is the array.
-/
import proofs.«410946_j27565100106019_3_alg».proof.Proof.KI.Body0
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The index maps over the grid -/

/-- The printed index maps, decided over the 64 points: the resident inputs sit at block (0, 0), the row-block
    inputs at block (t, 0), the outputs at block (t / 32, 0, 0). -/
theorem idx0_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val / 32 ∧ win0_4.index t (1 : Fin 3) = 0 ∧ win0_4.index t (2 : Fin 3) = 0
    ∧ win0_5.index t (0 : Fin 3) = t.val / 32 ∧ win0_5.index t (1 : Fin 3) = 0 ∧ win0_5.index t (2 : Fin 3) = 0
    ∧ win0_6.index t (0 : Fin 3) = t.val / 32 ∧ win0_6.index t (1 : Fin 3) = 0 ∧ win0_6.index t (2 : Fin 3) = 0 :=
  (by decide +kernel : ∀ t : Fin grid0.N, _)

/-- The last point of half h is a point of the grid. -/
theorem last_lt (h : Fin 2) : 32 * h.val + 31 < cfg0.N := by
  show _ < grid0.N
  rw [N_0]
  have := h.isLt
  omega

/-- The state after a point depends on the point's number only. -/
theorem stAt0_congr (c : Dev nD) {n n' : ℕ} (h : n < cfg0.N) (h' : n' < cfg0.N) (e : n = n') :
    stAt0 V c n h = stAt0 V c n' h' := by
  subst e; rfl

/-! ## The input blocks -/

/-- Row y, column k of the row block of g at point t is row 1024·t + y, column k of g. -/
theorem iblk0_2_apply (c : Dev nD) (t : Fin cfg0.N) (y : S1024x512.Idx) (k : S65536x512.Idx)
    (hk0 : (k 0).val = 1024 * t.val + (y 0).val) (hk1 : (k 1).val = (y 1).val) :
    (iblk0 V c 2 t : Vec F S1024x512 .f32) y = (V c main_arg0 : S65536x512.Idx → Elt F .f32) k := by
  obtain ⟨-, -, -, -, e0, e1, -⟩ := idx0_facts t
  unfold iblk0
  rw [View.read_apply]
  show V c main_arg0 _ = V c main_arg0 _
  congr 1
  funext a
  apply Fin.ext
  match a with
  | ⟨0, _⟩ => show win0_2.index t (0 : Fin 2) * 1024 + 1 * (y 0).val = (k 0).val; rw [e0, hk0]; omega
  | ⟨1, _⟩ => show win0_2.index t (1 : Fin 2) * 512 + 1 * (y 1).val = (k 1).val; rw [e1, hk1]; omega

/-- The same for the row block of g_p. -/
theorem iblk0_3_apply (c : Dev nD) (t : Fin cfg0.N) (y : S1024x512.Idx) (k : S65536x512.Idx)
    (hk0 : (k 0).val = 1024 * t.val + (y 0).val) (hk1 : (k 1).val = (y 1).val) :
    (iblk0 V c 3 t : Vec F S1024x512 .f32) y = (V c main_arg1 : S65536x512.Idx → Elt F .f32) k := by
  obtain ⟨-, -, -, -, -, -, e0, e1, -⟩ := idx0_facts t
  unfold iblk0
  rw [View.read_apply]
  show V c main_arg1 _ = V c main_arg1 _
  congr 1
  funext a
  apply Fin.ext
  match a with
  | ⟨0, _⟩ => show win0_3.index t (0 : Fin 2) * 1024 + 1 * (y 0).val = (k 0).val; rw [e0, hk0]; omega
  | ⟨1, _⟩ => show win0_3.index t (1 : Fin 2) * 512 + 1 * (y 1).val = (k 1).val; rw [e1, hk1]; omega

/-- The first resident input's block is its array, at every point. -/
theorem iblk0_0_eq (c : Dev nD) (t : Fin cfg0.N) :
    (iblk0 V c 0 t : Vec F S512x512 .bf16) = (V c main_v1 : S512x512.Idx → Elt F .bf16) := by
  obtain ⟨e0, e1, -⟩ := idx0_facts t
  funext y
  unfold iblk0
  rw [View.read_apply]
  show V c main_v1 _ = V c main_v1 _
  congr 1
  funext a
  apply Fin.ext
  match a with
  | ⟨0, _⟩ => show win0_0.index t (0 : Fin 2) * 512 + 1 * (y 0).val = (y 0).val; rw [e0]; omega
  | ⟨1, _⟩ => show win0_0.index t (1 : Fin 2) * 512 + 1 * (y 1).val = (y 1).val; rw [e1]; omega

/-- The second resident input's block is its array, at every point. -/
theorem iblk0_1_eq (c : Dev nD) (t : Fin cfg0.N) :
    (iblk0 V c 1 t : Vec F S512x512 .bf16) = (V c main_v4 : S512x512.Idx → Elt F .bf16) := by
  obtain ⟨-, -, e0, e1, -⟩ := idx0_facts t
  funext y
  unfold iblk0
  rw [View.read_apply]
  show V c main_v4 _ = V c main_v4 _
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 512 + 1 * (y 1).val = (y 1).val; rw [e1]; omega

/-- The array index of row y, column k of the row block at point t: row 1024·t + y, column k. -/
abbrev rowIdx0 (t : Fin cfg0.N) (y : S1024x512.Idx) : S65536x512.Idx :=
  ix2 (⟨1024 * t.val + (y 0).val, by
    have ht : t.val < 64 := Nat.lt_of_lt_of_eq t.isLt N_0
    have hy : (y 0).val < 1024 := (y 0).isLt
    omega⟩ : Fin 65536) (y 1 : Fin 512)

/-- The row block of g at point t, read at y, is g at `rowIdx0 t y`. -/
theorem iblk0_2_at (c : Dev nD) (t : Fin cfg0.N) (y : S1024x512.Idx) :
    (iblk0 V c 2 t : Vec F S1024x512 .f32) y = (V c main_arg0 : S65536x512.Idx → Elt F .f32) (rowIdx0 t y) :=
  iblk0_2_apply V c t y _ rfl rfl

/-- The row block of g_p at point t, read at y, is g_p at `rowIdx0 t y`. -/
theorem iblk0_3_at (c : Dev nD) (t : Fin cfg0.N) (y : S1024x512.Idx) :
    (iblk0 V c 3 t : Vec F S1024x512 .f32) y = (V c main_arg1 : S65536x512.Idx → Elt F .f32) (rowIdx0 t y) :=
  iblk0_3_apply V c t y _ rfl rfl

/-! ## The output arrays after the run -/

/-- The running maximum's output array: half h holds the state after point 32·h + 31. -/
abbrev arr0_4 (c : Dev nD) : S2x512x1.Idx → Elt F .f32 :=
  fun i => k0_pay3 (stAt0 V c (32 * (i 0).val + 31) (last_lt (i 0))).1 (ix3 (0 : Fin 1) (i 1) (i 2))

/-- The running denominator's output array, likewise. -/
abbrev arr0_5 (c : Dev nD) : S2x512x1.Idx → Elt F .f32 :=
  fun i => k0_pay4 (stAt0 V c (32 * (i 0).val + 31) (last_lt (i 0))).2.1 (ix3 (0 : Fin 1) (i 1) (i 2))

/-- The running weighted sum's output array, likewise. -/
abbrev arr0_6 (c : Dev nD) : S2x512x512.Idx → Elt F .f32 :=
  fun i => k0_pay5 (stAt0 V c (32 * (i 0).val + 31) (last_lt (i 0))).2.2 (ix3 (0 : Fin 1) (i 1) (i 2))

/-- What a point that writes back writes is its block of `arr0_4`: the point is the last of its half. -/
theorem flushed0_4_eq (c : Dev nD) (t : Fin cfg0.N) (hf : (cfg0.win 4).flush t = true) :
    (dat0 V c).flushed 4 t = ((cfg0.win 4).blk t).view.read (Elt F) (arr0_4 V c) := by
  have h31 : t.val % 32 = 31 := (flush0_4 t).mp hf
  obtain ⟨-, -, -, -, -, -, -, -, e0, e1, e2, -⟩ := idx0_facts t
  show (cfg0.win 4).cut (grid0.coords t) ((dat0 V c).after 4 t) = _
  rw [after0_4]
  funext y
  rw [View.read_apply]
  have hy0 : (y 0).val < 1 := (y 0).isLt
  have q0 : ((((cfg0.win 4).blk t).view.emb y) 0 : ℕ) = t.val / 32 := by
    show win0_4.index t (0 : Fin 3) * 1 + 1 * (y 0).val = _
    rw [e0]; omega
  show k0_pay3 (stAt0 V c t.val t.isLt).1 _ = k0_pay3 (stAt0 V c (32 * ((((cfg0.win 4).blk t).view.emb y) 0 : ℕ) + 31) _).1 _
  refine congr (congrArg (fun s : St0 F => k0_pay3 s.1) (stAt0_congr V c _ _ ?_)) ?_
  · rw [q0]; omega
  · funext a
    apply Fin.ext
    match a with
    | ⟨0, _⟩ => show (y 0).val = 0; omega
    | ⟨1, _⟩ => show (y 1).val = win0_4.index t (1 : Fin 3) * 512 + 1 * (y 1).val; rw [e1]; omega
    | ⟨2, _⟩ => show (y 2).val = win0_4.index t (2 : Fin 3) * 1 + 1 * (y 2).val; rw [e2]; omega

/-- An index of the array is in point t's block iff each coordinate is in the block's range on its axis. -/
theorem mem_blk0_4 (t : Fin cfg0.N) (i : S2x512x1.Idx) :
    i ∈ ((cfg0.win 4).blk t).view.set ↔ ∀ a : Fin 3, win0_4.index t a * S1x512x1.size a ≤ (i a).val ∧ (i a).val < win0_4.index t a * S1x512x1.size a + S1x512x1.size a := by
  show i ∈ ((View.whole main_v5_0).slice (win0_4.rect t)).set ↔ _
  rw [View.set_slice_whole, Rect.mem_set_unit]
  exact Iff.rfl

/-- Every index of the array is in the block of the last point of its half. -/
theorem cover0_4 (i : S2x512x1.Idx) :
    ∃ t : Fin cfg0.N, (cfg0.win 4).flush t = true ∧ i ∈ ((cfg0.win 4).blk t).view.set := by
  have h0 : (i 0).val < 2 := (i 0).isLt
  have h1 : (i 1).val < 512 := (i 1).isLt
  have h2 : (i 2).val < 1 := (i 2).isLt
  obtain ⟨-, -, -, -, -, -, -, -, e0, e1, e2, -⟩ := idx0_facts ⟨32 * (i 0).val + 31, last_lt (i 0)⟩
  have e0' : win0_4.index ⟨32 * (i 0).val + 31, last_lt (i 0)⟩ (0 : Fin 3) = (32 * (i 0).val + 31) / 32 := e0
  refine ⟨⟨32 * (i 0).val + 31, last_lt (i 0)⟩, (flush0_4 _).mpr (by show (32 * (i 0).val + 31) % 32 = 31; omega), ?_⟩
  rw [mem_blk0_4]
  intro a
  match a with
  | ⟨0, _⟩ => show win0_4.index _ (0 : Fin 3) * 1 ≤ (i 0).val ∧ (i 0).val < win0_4.index _ (0 : Fin 3) * 1 + 1; rw [e0']; omega
  | ⟨1, _⟩ => show win0_4.index _ (1 : Fin 3) * 512 ≤ (i 1).val ∧ (i 1).val < win0_4.index _ (1 : Fin 3) * 512 + 512; rw [e1]; omega
  | ⟨2, _⟩ => show win0_4.index _ (2 : Fin 3) * 1 ≤ (i 2).val ∧ (i 2).val < win0_4.index _ (2 : Fin 3) * 1 + 1; rw [e2]; omega

/-- The running maximum's output array after the region. -/
theorem final0_4 (c : Dev nD) : (dat0 V c).arrAt 4 cfg0.N = arr0_4 V c :=
  (dat0 V c).arrAt_eq_of_cover 4 (arr0_4 V c) (flushed0_4_eq V c) cover0_4

/-- What a point that writes back writes is its block of `arr0_5`: the point is the last of its half. -/
theorem flushed0_5_eq (c : Dev nD) (t : Fin cfg0.N) (hf : (cfg0.win 5).flush t = true) :
    (dat0 V c).flushed 5 t = ((cfg0.win 5).blk t).view.read (Elt F) (arr0_5 V c) := by
  have h31 : t.val % 32 = 31 := (flush0_5 t).mp hf
  obtain ⟨-, -, -, -, -, -, -, -, -, -, -, e0, e1, e2, -⟩ := idx0_facts t
  show (cfg0.win 5).cut (grid0.coords t) ((dat0 V c).after 5 t) = _
  rw [after0_5]
  funext y
  rw [View.read_apply]
  have hy0 : (y 0).val < 1 := (y 0).isLt
  have q0 : ((((cfg0.win 5).blk t).view.emb y) 0 : ℕ) = t.val / 32 := by
    show win0_5.index t (0 : Fin 3) * 1 + 1 * (y 0).val = _
    rw [e0]; omega
  show k0_pay4 (stAt0 V c t.val t.isLt).2.1 _ = k0_pay4 (stAt0 V c (32 * ((((cfg0.win 5).blk t).view.emb y) 0 : ℕ) + 31) _).2.1 _
  refine congr (congrArg (fun s : St0 F => k0_pay4 s.2.1) (stAt0_congr V c _ _ ?_)) ?_
  · rw [q0]; omega
  · funext a
    apply Fin.ext
    match a with
    | ⟨0, _⟩ => show (y 0).val = 0; omega
    | ⟨1, _⟩ => show (y 1).val = win0_5.index t (1 : Fin 3) * 512 + 1 * (y 1).val; rw [e1]; omega
    | ⟨2, _⟩ => show (y 2).val = win0_5.index t (2 : Fin 3) * 1 + 1 * (y 2).val; rw [e2]; omega

/-- An index of the array is in point t's block iff each coordinate is in the block's range on its axis. -/
theorem mem_blk0_5 (t : Fin cfg0.N) (i : S2x512x1.Idx) :
    i ∈ ((cfg0.win 5).blk t).view.set ↔ ∀ a : Fin 3, win0_5.index t a * S1x512x1.size a ≤ (i a).val ∧ (i a).val < win0_5.index t a * S1x512x1.size a + S1x512x1.size a := by
  show i ∈ ((View.whole main_v5_1).slice (win0_5.rect t)).set ↔ _
  rw [View.set_slice_whole, Rect.mem_set_unit]
  exact Iff.rfl

/-- Every index of the array is in the block of the last point of its half. -/
theorem cover0_5 (i : S2x512x1.Idx) :
    ∃ t : Fin cfg0.N, (cfg0.win 5).flush t = true ∧ i ∈ ((cfg0.win 5).blk t).view.set := by
  have h0 : (i 0).val < 2 := (i 0).isLt
  have h1 : (i 1).val < 512 := (i 1).isLt
  have h2 : (i 2).val < 1 := (i 2).isLt
  obtain ⟨-, -, -, -, -, -, -, -, -, -, -, e0, e1, e2, -⟩ := idx0_facts ⟨32 * (i 0).val + 31, last_lt (i 0)⟩
  have e0' : win0_5.index ⟨32 * (i 0).val + 31, last_lt (i 0)⟩ (0 : Fin 3) = (32 * (i 0).val + 31) / 32 := e0
  refine ⟨⟨32 * (i 0).val + 31, last_lt (i 0)⟩, (flush0_5 _).mpr (by show (32 * (i 0).val + 31) % 32 = 31; omega), ?_⟩
  rw [mem_blk0_5]
  intro a
  match a with
  | ⟨0, _⟩ => show win0_5.index _ (0 : Fin 3) * 1 ≤ (i 0).val ∧ (i 0).val < win0_5.index _ (0 : Fin 3) * 1 + 1; rw [e0']; omega
  | ⟨1, _⟩ => show win0_5.index _ (1 : Fin 3) * 512 ≤ (i 1).val ∧ (i 1).val < win0_5.index _ (1 : Fin 3) * 512 + 512; rw [e1]; omega
  | ⟨2, _⟩ => show win0_5.index _ (2 : Fin 3) * 1 ≤ (i 2).val ∧ (i 2).val < win0_5.index _ (2 : Fin 3) * 1 + 1; rw [e2]; omega

/-- The running denominator's output array after the region. -/
theorem final0_5 (c : Dev nD) : (dat0 V c).arrAt 5 cfg0.N = arr0_5 V c :=
  (dat0 V c).arrAt_eq_of_cover 5 (arr0_5 V c) (flushed0_5_eq V c) cover0_5

/-- What a point that writes back writes is its block of `arr0_6`: the point is the last of its half. -/
theorem flushed0_6_eq (c : Dev nD) (t : Fin cfg0.N) (hf : (cfg0.win 6).flush t = true) :
    (dat0 V c).flushed 6 t = ((cfg0.win 6).blk t).view.read (Elt F) (arr0_6 V c) := by
  have h31 : t.val % 32 = 31 := (flush0_6 t).mp hf
  obtain ⟨-, -, -, -, -, -, -, -, -, -, -, -, -, -, e0, e1, e2⟩ := idx0_facts t
  show (cfg0.win 6).cut (grid0.coords t) ((dat0 V c).after 6 t) = _
  rw [after0_6]
  funext y
  rw [View.read_apply]
  have hy0 : (y 0).val < 1 := (y 0).isLt
  have q0 : ((((cfg0.win 6).blk t).view.emb y) 0 : ℕ) = t.val / 32 := by
    show win0_6.index t (0 : Fin 3) * 1 + 1 * (y 0).val = _
    rw [e0]; omega
  show k0_pay5 (stAt0 V c t.val t.isLt).2.2 _ = k0_pay5 (stAt0 V c (32 * ((((cfg0.win 6).blk t).view.emb y) 0 : ℕ) + 31) _).2.2 _
  refine congr (congrArg (fun s : St0 F => k0_pay5 s.2.2) (stAt0_congr V c _ _ ?_)) ?_
  · rw [q0]; omega
  · funext a
    apply Fin.ext
    match a with
    | ⟨0, _⟩ => show (y 0).val = 0; omega
    | ⟨1, _⟩ => show (y 1).val = win0_6.index t (1 : Fin 3) * 512 + 1 * (y 1).val; rw [e1]; omega
    | ⟨2, _⟩ => show (y 2).val = win0_6.index t (2 : Fin 3) * 512 + 1 * (y 2).val; rw [e2]; omega

/-- An index of the array is in point t's block iff each coordinate is in the block's range on its axis. -/
theorem mem_blk0_6 (t : Fin cfg0.N) (i : S2x512x512.Idx) :
    i ∈ ((cfg0.win 6).blk t).view.set ↔ ∀ a : Fin 3, win0_6.index t a * S1x512x512.size a ≤ (i a).val ∧ (i a).val < win0_6.index t a * S1x512x512.size a + S1x512x512.size a := by
  show i ∈ ((View.whole main_v5_2).slice (win0_6.rect t)).set ↔ _
  rw [View.set_slice_whole, Rect.mem_set_unit]
  exact Iff.rfl

/-- Every index of the array is in the block of the last point of its half. -/
theorem cover0_6 (i : S2x512x512.Idx) :
    ∃ t : Fin cfg0.N, (cfg0.win 6).flush t = true ∧ i ∈ ((cfg0.win 6).blk t).view.set := by
  have h0 : (i 0).val < 2 := (i 0).isLt
  have h1 : (i 1).val < 512 := (i 1).isLt
  have h2 : (i 2).val < 512 := (i 2).isLt
  obtain ⟨-, -, -, -, -, -, -, -, -, -, -, -, -, -, e0, e1, e2⟩ := idx0_facts ⟨32 * (i 0).val + 31, last_lt (i 0)⟩
  have e0' : win0_6.index ⟨32 * (i 0).val + 31, last_lt (i 0)⟩ (0 : Fin 3) = (32 * (i 0).val + 31) / 32 := e0
  refine ⟨⟨32 * (i 0).val + 31, last_lt (i 0)⟩, (flush0_6 _).mpr (by show (32 * (i 0).val + 31) % 32 = 31; omega), ?_⟩
  rw [mem_blk0_6]
  intro a
  match a with
  | ⟨0, _⟩ => show win0_6.index _ (0 : Fin 3) * 1 ≤ (i 0).val ∧ (i 0).val < win0_6.index _ (0 : Fin 3) * 1 + 1; rw [e0']; omega
  | ⟨1, _⟩ => show win0_6.index _ (1 : Fin 3) * 512 ≤ (i 1).val ∧ (i 1).val < win0_6.index _ (1 : Fin 3) * 512 + 512; rw [e1]; omega
  | ⟨2, _⟩ => show win0_6.index _ (2 : Fin 3) * 512 ≤ (i 2).val ∧ (i 2).val < win0_6.index _ (2 : Fin 3) * 512 + 512; rw [e2]; omega

/-- The running weighted sum's output array after the region. -/
theorem final0_6 (c : Dev nD) : (dat0 V c).arrAt 6 cfg0.N = arr0_6 V c :=
  (dat0 V c).arrAt_eq_of_cover 6 (arr0_6 V c) (flushed0_6_eq V c) cover0_6

end Cert.KernelIdeal.Hand

end
-- ==== Proof.KI.ValPoolStep.lean ====
/-
  One point of the pooling kernel at the extended reals, read entry by entry.

  For a row m of the split weight matrix and a block of 1024 rows of g and g_p the point's arithmetic is, entry by entry,
      s r     = ∑ d, W_hi m d · g r d + ∑ d, W_hi m d · (g r d − g r d) + ∑ d, W_lo m d · g r d
      m'      = max m (the fold of max from −∞ over the 1024 columns r of s r)
      α       = exp (m − m'),          p r = exp (s r − m')
      l'      = α · l + ∑ r, p r,      acc' d = α · acc d + ∑ r, p r · g_p r d.
  With W_hi = W and W_lo = 0 on real entries the score is s r = ∑ d, W m d · g r d (x − x = 0, y · 0 = 0 and 0 · y = 0
  for real x, y).  From the state (−∞, 0, 0) the laws max ⊥ x = x, ⊥ − x = ⊥, exp ⊥ = 0 and 0 · 0 = 0 make the first
  point the block's own maximum and sums; from a state of reals every entry is again the image of a real, by the
  passage of sums, maxima and exponentials between the reals and the extended reals.
-/
import proofs.«410946_j27565100106019_3_alg».proof.Proof.KI.Blk
import proofs.«410946_j27565100106019_3_alg».proof.Proof.Math.Lift
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.Val

open Cert.KernelIdeal Cert.KernelIdeal.Gen Cert.KernelIdeal.Hand

/-! ## Two column forms of the layout operations -/

section Layout
variable {α : Type}

/-- An `[a]` array cast to `[a, 1]` reads, at `(i, u)`, the operand at `i`: the two row-major positions are
    `i` and `i · 1 + u` with `u = 0`. -/
theorem pool_shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one column at row `i`. -/
theorem pool_broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## The two contractions read at an index -/

/-- The score product's left operand is read at the output row … -/
theorem lhs_sc_0 (i : S512x1024.Idx) (q : dot_S512x512_S1024x512_S512x1024_1_1_0_0_n_n.contr.Idx) :
    (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide),
    dif_pos (show (0 : Fin S512x512.rank) ∈ dot_S512x512_S1024x512_S512x1024_1_1_0_0_n_n.lhsNonContracting by decide)]
  rfl
/-- … and the contraction coordinate; -/
theorem lhs_sc_1 (i : S512x1024.Idx) (q : dot_S512x512_S1024x512_S512x1024_1_1_0_0_n_n.contr.Idx) :
    (dot_S512x512_S1024x512_S512x1024_1_1_0_0_n_n.lhsIdx i q 1).val = (q ⟨0, by decide⟩).val :=
  dot_S512x512_S1024x512_S512x1024_1_1_0_0_n_n.lhsIdx_val_of_single rfl i q
/-- its right operand at the output column … -/
theorem rhs_sc_0 (i : S512x1024.Idx) (q : dot_S512x512_S1024x512_S512x1024_1_1_0_0_n_n.contr.Idx) :
    (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide),
    dif_pos (show (0 : Fin S1024x512.rank) ∈ dot_S512x512_S1024x512_S512x1024_1_1_0_0_n_n.rhsNonContracting by decide)]
  rfl
/-- … and the contraction coordinate. -/
theorem rhs_sc_1 (i : S512x1024.Idx) (q : dot_S512x512_S1024x512_S512x1024_1_1_0_0_n_n.contr.Idx) :
    (dot_S512x512_S1024x512_S512x1024_1_1_0_0_n_n.rhsIdx i q 1).val = (q ⟨0, by decide⟩).val :=
  dot_S512x512_S1024x512_S512x1024_1_1_0_0_n_n.rhsIdx_val_of_single rfl i q

/-- A [512,512] matrix times the transpose of a [1024,512] one, into the zero accumulator, at (m, r): the sum over the
    512 shared columns. -/
theorem matmul_sc_apply {φ₁ φ₂ : FTy} (a : FVec Ideal S512x512 φ₁) (b : FVec Ideal S1024x512 φ₂) (m : Fin 512)
    (r : Fin 1024) :
    matmul dot_S512x512_S1024x512_S512x1024_1_1_0_0_n_n none a b (constant (F := Ideal) S512x1024 .f32 0x00000000#32)
        (ix2 m r)
      = ∑ d : Fin 512, a (ix2 m d) * b (ix2 r d) := by
  simp only [matmul]
  rw [Ideal.matmul_constant_zero_apply,
    ← Equiv.sum_comp (contrEquiv1 dot_S512x512_S1024x512_S512x1024_1_1_0_0_n_n 512 rfl rfl).symm]
  refine Finset.sum_congr rfl fun k _ => ?_
  have hk := contrEquiv1_symm_val dot_S512x512_S1024x512_S512x1024_1_1_0_0_n_n 512 rfl rfl k
  have el : dot_S512x512_S1024x512_S512x1024_1_1_0_0_n_n.lhsIdx (ix2 m r)
      ((contrEquiv1 dot_S512x512_S1024x512_S512x1024_1_1_0_0_n_n 512 rfl rfl).symm k) = ix2 m k :=
    funext fun ax => Fin.ext (by
      match ax with
      | ⟨0, _⟩ => exact lhs_sc_0 _ _
      | ⟨1, _⟩ => exact (lhs_sc_1 _ _).trans hk)
  have er : dot_S512x512_S1024x512_S512x1024_1_1_0_0_n_n.rhsIdx (ix2 m r)
      ((contrEquiv1 dot_S512x512_S1024x512_S512x1024_1_1_0_0_n_n 512 rfl rfl).symm k) = ix2 r k :=
    funext fun ax => Fin.ext (by
      match ax with
      | ⟨0, _⟩ => exact rhs_sc_0 _ _
      | ⟨1, _⟩ => exact (rhs_sc_1 _ _).trans hk)
  rw [el, er]

/-- The weighted sum's left operand is read at the output row … -/
theorem lhs_ws_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl
/-- … and the contraction coordinate; -/
theorem lhs_ws_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
/-- its right operand at the contraction coordinate … -/
theorem rhs_ws_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
/-- … and the output column. -/
theorem rhs_ws_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- A [512,1024] matrix times a [1024,512] one, into the zero accumulator, at (m, d): the sum over the 1024 rows. -/
theorem matmul_ws_apply {φ₁ φ₂ : FTy} (a : FVec Ideal S512x1024 φ₁) (b : FVec Ideal S1024x512 φ₂) (m d : Fin 512) :
    matmul dot_S512x1024_S1024x512_S512x512_1_0_0_1_n_n none a b (constant (F := Ideal) S512x512 .f32 0x00000000#32)
        (ix2 m d)
      = ∑ r : Fin 1024, a (ix2 m r) * b (ix2 r d) := by
  simp only [matmul]
  rw [Ideal.matmul_constant_zero_apply,
    ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 m d)
      ((contrEquiv1 dot_S512x1024_S1024x512_S512x512_1_0_0_1_n_n 1024 rfl rfl).symm k) = ix2 m k :=
    funext fun ax => Fin.ext (by
      match ax with
      | ⟨0, _⟩ => exact lhs_ws_0 _ _
      | ⟨1, _⟩ => exact (lhs_ws_1 _ _).trans hk)
  have er : dot_S512x1024_S1024x512_S512x512_1_0_0_1_n_n.rhsIdx (ix2 m d)
      ((contrEquiv1 dot_S512x1024_S1024x512_S512x512_1_0_0_1_n_n 1024 rfl rfl).symm k) = ix2 k d :=
    funext fun ax => Fin.ext (by
      match ax with
      | ⟨0, _⟩ => exact (rhs_ws_0 _ _).trans hk
      | ⟨1, _⟩ => exact rhs_ws_1 _ _)
  rw [el, er]

/-! ## The payloads at an index -/

/-- An exponential at an index is the exponential of the element. -/
theorem pool_exp_apply {s : Shape} {φ : FTy} (a : FVec Ideal s φ) (i : s.Idx) : exp a i = Ideal.exp (a i) := rfl

/-- Over row m of a [512,1024] block, the index with column r inserted is (m, r). -/
theorem pool_lift_row (m : Fin 512) (r : Fin 1024) : reduces_S512x1024_S512.lift (ix1 m) r = ix2 m r :=
  funext fun ax => Fin.ext (by
    match ax with
    | ⟨0, _⟩ => rfl
    | ⟨1, _⟩ => rfl)

section Payloads

variable (g gp : Vec Ideal S1024x512 .f32) (wh wl : Vec Ideal S512x512 .bf16)

/-- The score block at (m, r): the sum of the three products' contractions over the 512 columns. -/
theorem pay9_apply (m : Fin 512) (r : Fin 1024) :
    k0_pay9 g wh wl (ix2 m r)
      = (∑ d : Fin 512, wh (ix2 m d) * g (ix2 r d)) + (∑ d : Fin 512, wh (ix2 m d) * (g (ix2 r d) - g (ix2 r d)))
        + ∑ d : Fin 512, wl (ix2 m d) * g (ix2 r d) := by
  unfold k0_pay9
  simp only [shapeCast_self]
  rw [addf_apply, addf_apply, matmul_sc_apply, matmul_sc_apply, matmul_sc_apply]
  rfl

/-- The new running maximum at row m: the old one against the fold of max from −∞ over the row's 1024 scores. -/
theorem pay10_apply (mv : Vec Ideal S512x1 .f32) (m : Fin 512) (u : Fin 1) :
    k0_pay10 g wh wl mv (ix2 m u)
      = max (mv (ix2 m u)) ((Finset.univ : Finset (Fin 1024)).fold max ⊥ fun r => k0_pay9 g wh wl (ix2 m r)) := by
  unfold k0_pay10
  rw [maximumf_apply, pool_shapeCast_a_a1_apply]
  refine congrArg (max _) ?_
  refine (Ideal.multiReduction_maximumf_single (k0_pay9 g wh wl) 0xFF800000#32 reduces_S512x1024_S512 (.inl rfl) rfl
    (ix1 m)).trans ?_
  show (Finset.univ : Finset (Fin 1024)).fold max (Ideal.ofBits .f32 0xFF800000#32)
      (fun r => k0_pay9 g wh wl (reduces_S512x1024_S512.lift (ix1 m) r)) = _
  rw [Cert.Lift.ofBits_neg_inf]
  exact congrArg (fun f : Fin 1024 → EReal => (Finset.univ : Finset (Fin 1024)).fold max ⊥ f)
    (funext fun r => congrArg (k0_pay9 g wh wl) (pool_lift_row m r))

/-- The rescaling factor at row m: the exponential of the old maximum minus the new one. -/
theorem pay11_apply (mv mv' : Vec Ideal S512x1 .f32) (m : Fin 512) (u : Fin 1) :
    k0_pay11 g wh wl mv mv' (ix2 m u) = Ideal.exp (mv' (ix2 m u) - k0_pay10 g wh wl mv (ix2 m u)) := rfl

/-- The block's weights at (m, r): the exponential of the score minus the new maximum of row m. -/
theorem pay12_apply (mv : Vec Ideal S512x1 .f32) (m : Fin 512) (r : Fin 1024) :
    k0_pay12 g wh wl mv (ix2 m r)
      = Ideal.exp (k0_pay9 g wh wl (ix2 m r) - k0_pay10 g wh wl mv (ix2 m (0 : Fin 1))) := by
  unfold k0_pay12
  rw [pool_exp_apply, subf_apply, pool_broadcastTo_a1_ab_apply]

/-- The new running denominator at row m: the old one rescaled plus the row sum of the block's weights. -/
theorem pay13_apply (mv mv' l : Vec Ideal S512x1 .f32) (m : Fin 512) (u : Fin 1) :
    k0_pay13 g wh wl mv mv' l (ix2 m u)
      = k0_pay11 g wh wl mv mv' (ix2 m u) * l (ix2 m u) + ∑ r : Fin 1024, k0_pay12 g wh wl mv (ix2 m r) := by
  unfold k0_pay13
  simp only [shapeCast_self]
  rw [addf_apply, mulf_apply, pool_shapeCast_a_a1_apply]
  refine congrArg (fun x : EReal => k0_pay11 g wh wl mv mv' (ix2 m u) * l (ix2 m u) + x) ?_
  refine (Ideal.multiReduction_add_single (k0_pay12 g wh wl mv) 0x00000000#32 reduces_S512x1024_S512 (.inl rfl) rfl
    (ix1 m)).trans ?_
  exact Finset.sum_congr rfl fun r _ => congrArg (k0_pay12 g wh wl mv) (pool_lift_row m r)

/-- The new running weighted sum at (m, d): the old one rescaled by row m's factor plus the weights' product with
    the block of g_p, contracted over the 1024 rows. -/
theorem pool_pay1_apply (al : FVec Ideal S512x1 .f32) (p : FVec Ideal S512x1024 .f32) (acc : Vec Ideal S512x512 .f32)
    (m d : Fin 512) :
    k0_pay1 al p gp acc (ix2 m d)
      = al (ix2 m (0 : Fin 1)) * acc (ix2 m d) + ∑ r : Fin 1024, p (ix2 m r) * gp (ix2 r d) := by
  unfold k0_pay1
  simp only [shapeCast_self]
  rw [addf_apply, mulf_apply, pool_broadcastTo_a1_ab_apply, matmul_ws_apply]
  rfl

end Payloads

/-- A shape cast to the same shape stores the maximum as it is. -/
theorem pool_pay2_eq {F : FTy → Type} [FloatOps F] (x : FVec F S512x1 .f32) : k0_pay2 x = x := by
  unfold k0_pay2
  exact shapeCast_self _ _

/-- The state a half starts from: −∞ for the maximum … -/
theorem pay6_apply (i : S512x1.Idx) : (k0_pay6 (F := Ideal)) i = ⊥ := by
  unfold k0_pay6
  simp only [shapeCast_self]
  exact Cert.Lift.ofBits_neg_inf
/-- … zero for the denominator … -/
theorem pay7_apply (i : S512x1.Idx) : (k0_pay7 (F := Ideal)) i = 0 := by
  unfold k0_pay7
  simp only [shapeCast_self]
  exact Cert.Lift.ofBits_zero
/-- … and zero for the weighted sum. -/
theorem pay8_apply (i : S512x512.Idx) : (k0_pay8 (F := Ideal)) i = 0 := by
  unfold k0_pay8
  simp only [shapeCast_self]
  exact Cert.Lift.ofBits_zero

/-! ## One point on the state, read at row m -/

section Step

variable (g gp : Vec Ideal S1024x512 .f32) (wh wl : Vec Ideal S512x512 .bf16)

/-- One point on the state at row m, over the extended reals: the new maximum, the denominator and the weighted
    sum rescaled by the exponential of the old maximum minus the new one, plus the block's terms. -/
theorem step0_apply (s : St0 Ideal) (m : Fin 512) :
    (step0 wh wl g gp s).1 (ix2 m (0 : Fin 1))
        = max (s.1 (ix2 m (0 : Fin 1)))
            ((Finset.univ : Finset (Fin 1024)).fold max ⊥ fun r => k0_pay9 g wh wl (ix2 m r))
    ∧ (step0 wh wl g gp s).2.1 (ix2 m (0 : Fin 1))
        = Ideal.exp (s.1 (ix2 m (0 : Fin 1)) - (step0 wh wl g gp s).1 (ix2 m (0 : Fin 1))) * s.2.1 (ix2 m (0 : Fin 1))
          + ∑ r : Fin 1024, Ideal.exp (k0_pay9 g wh wl (ix2 m r) - (step0 wh wl g gp s).1 (ix2 m (0 : Fin 1)))
    ∧ ∀ d : Fin 512, (step0 wh wl g gp s).2.2 (ix2 m d)
        = Ideal.exp (s.1 (ix2 m (0 : Fin 1)) - (step0 wh wl g gp s).1 (ix2 m (0 : Fin 1))) * s.2.2 (ix2 m d)
          + ∑ r : Fin 1024,
              Ideal.exp (k0_pay9 g wh wl (ix2 m r) - (step0 wh wl g gp s).1 (ix2 m (0 : Fin 1))) * gp (ix2 r d) := by
  have h1 : (step0 wh wl g gp s).1 = k0_pay10 g wh wl s.1 := by
    show k0_pay2 (k0_pay10 g wh wl s.1) = _
    exact pool_pay2_eq _
  refine ⟨?_, ?_, fun d => ?_⟩
  · rw [h1, pay10_apply]
  · rw [h1]
    show k0_pay13 g wh wl s.1 s.1 s.2.1 (ix2 m (0 : Fin 1)) = _
    have hs : ∑ r : Fin 1024, k0_pay12 g wh wl s.1 (ix2 m r)
        = ∑ r : Fin 1024, Ideal.exp (k0_pay9 g wh wl (ix2 m r) - k0_pay10 g wh wl s.1 (ix2 m (0 : Fin 1))) :=
      Finset.sum_congr rfl fun r _ => pay12_apply g wh wl s.1 m r
    rw [pay13_apply, pay11_apply, hs]
  · rw [h1]
    show k0_pay1 (k0_pay11 g wh wl s.1 s.1) (k0_pay12 g wh wl s.1) gp s.2.2 (ix2 m d) = _
    have hs : ∑ r : Fin 1024, k0_pay12 g wh wl s.1 (ix2 m r) * gp (ix2 r d)
        = ∑ r : Fin 1024,
            Ideal.exp (k0_pay9 g wh wl (ix2 m r) - k0_pay10 g wh wl s.1 (ix2 m (0 : Fin 1))) * gp (ix2 r d) :=
      Finset.sum_congr rfl fun r _ => by rw [pay12_apply]
    rw [pool_pay1_apply, pay11_apply, hs]

variable (W : Fin 512 → Fin 512 → ℝ) (gr gpr : Fin 1024 → Fin 512 → ℝ)

/-- The scores of one row of W against the 1024 rows of a block. -/
def scB (W : Fin 512 → Fin 512 → ℝ) (gr : Fin 1024 → Fin 512 → ℝ) (m : Fin 512) (r : Fin 1024) : ℝ :=
  ∑ d : Fin 512, W m d * gr r d

/-- The maximum of a block's 1024 scores. -/
def bmx (s : Fin 1024 → ℝ) : ℝ := Finset.univ.sup' ⟨(0 : Fin 1024), Finset.mem_univ _⟩ s

/-- With W_hi = W, W_lo = 0 and a block of reals the score is the image of the real score: the middle product
    vanishes by x − x = 0 and y · 0 = 0, the last one by 0 · y = 0. -/
theorem pay9_real (hwh : ∀ m d, wh (ix2 m d) = ((W m d : ℝ) : EReal)) (hwl : ∀ m d, wl (ix2 m d) = 0)
    (hg : ∀ r d, g (ix2 r d) = ((gr r d : ℝ) : EReal)) (m : Fin 512) (r : Fin 1024) :
    k0_pay9 g wh wl (ix2 m r) = ((scB W gr m r : ℝ) : EReal) := by
  rw [pay9_apply]
  simp only [hwh, hwl, hg, ← EReal.coe_sub, sub_self, EReal.coe_zero, mul_zero, zero_mul, Finset.sum_const_zero,
    add_zero, ← EReal.coe_mul]
  exact Cert.Lift.sum_coe _

/-- The fold of max from −∞ over a row's scores is the image of the block maximum. -/
theorem fold_scores (hwh : ∀ m d, wh (ix2 m d) = ((W m d : ℝ) : EReal)) (hwl : ∀ m d, wl (ix2 m d) = 0)
    (hg : ∀ r d, g (ix2 r d) = ((gr r d : ℝ) : EReal)) (m : Fin 512) :
    ((Finset.univ : Finset (Fin 1024)).fold max ⊥ fun r => k0_pay9 g wh wl (ix2 m r))
      = ((bmx (scB W gr m) : ℝ) : EReal) := by
  simp only [pay9_real g wh wl W gr hwh hwl hg]
  exact Cert.Lift.fold_max_coe (n := 1023) (scB W gr m)

/-- From a state whose entries at row m are reals, one point gives the images of the streamed step on the reals. -/
theorem step0_real (hwh : ∀ m d, wh (ix2 m d) = ((W m d : ℝ) : EReal)) (hwl : ∀ m d, wl (ix2 m d) = 0)
    (hg : ∀ r d, g (ix2 r d) = ((gr r d : ℝ) : EReal)) (hgp : ∀ r d, gp (ix2 r d) = ((gpr r d : ℝ) : EReal))
    (s : St0 Ideal) (m : Fin 512) (M L : ℝ) (A : Fin 512 → ℝ)
    (hM : s.1 (ix2 m (0 : Fin 1)) = ((M : ℝ) : EReal)) (hL : s.2.1 (ix2 m (0 : Fin 1)) = ((L : ℝ) : EReal))
    (hA : ∀ d, s.2.2 (ix2 m d) = ((A d : ℝ) : EReal)) :
    (step0 wh wl g gp s).1 (ix2 m (0 : Fin 1)) = ((max M (bmx (scB W gr m)) : ℝ) : EReal)
    ∧ (step0 wh wl g gp s).2.1 (ix2 m (0 : Fin 1))
        = ((Real.exp (M - max M (bmx (scB W gr m))) * L
            + ∑ r, Real.exp (scB W gr m r - max M (bmx (scB W gr m))) : ℝ) : EReal)
    ∧ ∀ d : Fin 512, (step0 wh wl g gp s).2.2 (ix2 m d)
        = ((Real.exp (M - max M (bmx (scB W gr m))) * A d
            + ∑ r, Real.exp (scB W gr m r - max M (bmx (scB W gr m))) * gpr r d : ℝ) : EReal) := by
  obtain ⟨h1, h2, h3⟩ := step0_apply g gp wh wl s m
  have e1 : (step0 wh wl g gp s).1 (ix2 m (0 : Fin 1)) = ((max M (bmx (scB W gr m)) : ℝ) : EReal) := by
    rw [h1, hM, fold_scores g wh wl W gr hwh hwl hg, Cert.Lift.max_coe]
  refine ⟨e1, ?_, fun d => ?_⟩
  · rw [h2, e1, hM, hL]
    simp only [pay9_real g wh wl W gr hwh hwl hg, ← EReal.coe_sub, Cert.Lift.exp_coe, ← EReal.coe_mul,
      Cert.Lift.sum_coe, ← EReal.coe_add]
  · rw [h3 d, e1, hM, hA d]
    simp only [pay9_real g wh wl W gr hwh hwl hg, hgp, ← EReal.coe_sub, Cert.Lift.exp_coe, ← EReal.coe_mul,
      Cert.Lift.sum_coe, ← EReal.coe_add]

/-- From the state (−∞, 0, 0) one point gives the block's own maximum and sums: max ⊥ x = x, ⊥ − x = ⊥,
    exp ⊥ = 0, 0 · 0 = 0. -/
theorem step0_init (hwh : ∀ m d, wh (ix2 m d) = ((W m d : ℝ) : EReal)) (hwl : ∀ m d, wl (ix2 m d) = 0)
    (hg : ∀ r d, g (ix2 r d) = ((gr r d : ℝ) : EReal)) (hgp : ∀ r d, gp (ix2 r d) = ((gpr r d : ℝ) : EReal))
    (m : Fin 512) :
    (step0 wh wl g gp init0).1 (ix2 m (0 : Fin 1)) = ((bmx (scB W gr m) : ℝ) : EReal)
    ∧ (step0 wh wl g gp init0).2.1 (ix2 m (0 : Fin 1))
        = ((∑ r, Real.exp (scB W gr m r - bmx (scB W gr m)) : ℝ) : EReal)
    ∧ ∀ d : Fin 512, (step0 wh wl g gp init0).2.2 (ix2 m d)
        = ((∑ r, Real.exp (scB W gr m r - bmx (scB W gr m)) * gpr r d : ℝ) : EReal) := by
  obtain ⟨h1, h2, h3⟩ := step0_apply g gp wh wl (init0 (F := Ideal)) m
  have i1 : (init0 (F := Ideal)).1 (ix2 m (0 : Fin 1)) = ⊥ := pay6_apply (ix2 m (0 : Fin 1))
  have i2 : (init0 (F := Ideal)).2.1 (ix2 m (0 : Fin 1)) = 0 := pay7_apply (ix2 m (0 : Fin 1))
  have i3 : ∀ d : Fin 512, (init0 (F := Ideal)).2.2 (ix2 m d) = 0 := fun d => pay8_apply (ix2 m d)
  have e1 : (step0 wh wl g gp init0).1 (ix2 m (0 : Fin 1)) = ((bmx (scB W gr m) : ℝ) : EReal) := by
    rw [h1, i1, fold_scores g wh wl W gr hwh hwl hg, Cert.Lift.max_bot_left]
  refine ⟨e1, ?_, fun d => ?_⟩
  · rw [h2, e1, i1, i2, EReal.bot_sub, Cert.Lift.exp_bot, mul_zero, zero_add]
    simp only [pay9_real g wh wl W gr hwh hwl hg, ← EReal.coe_sub, Cert.Lift.exp_coe, Cert.Lift.sum_coe]
  · rw [h3 d, e1, i1, i3 d, EReal.bot_sub, Cert.Lift.exp_bot, mul_zero, zero_add]
    simp only [pay9_real g wh wl W gr hwh hwl hg, hgp, ← EReal.coe_sub, Cert.Lift.exp_coe, ← EReal.coe_mul,
      Cert.Lift.sum_coe]

end Step

end Cert.KernelIdeal.Val

end
-- ==== Proof.Math.Flash.lean ====
/-
  The streamed softmax accumulation equals the softmax-weighted sum, over the reals.

  The 65536 rows are cut into 2 halves × 32 blocks × 1024 rows: row n = (32·c + j)·1024 + r.  A streamed state is a
  triple (m, l, a): a running maximum, a running denominator and a running weighted sum.  The first block of a half
  starts the state from the block's own maximum; every further block maps (m, l, a) to (m', l', a') with
      m' = max m (block maximum),   l' = exp (m − m') · l + ∑ r, exp (s r − m'),
      a' d = exp (m − m') · a d + ∑ r, exp (s r − m') · v r d.
  The invariant: after a set A of rows the state is
      m = max over A of S,   l = ∑ n ∈ A, exp (S n − m),   a d = ∑ n ∈ A, exp (S n − m) · G n d,
  kept by the law exp (m − m') · exp (S n − m) = exp (S n − m') and by "the maximum of a union is the max of the
  maxima".  The two halves are joined the same way, and ∑ n, (e n / L) · G n d = (∑ n, e n · G n d) / L.
-/
import proofs.«410946_j27565100106019_3_alg».proof.Proof.Math.Spec
import Mathlib.Analysis.SpecialFunctions.Exp
import Mathlib.Algebra.BigOperators.Field
import Mathlib.Algebra.BigOperators.Ring.Finset
import Mathlib.Algebra.Order.BigOperators.Group.Finset
import Mathlib.Data.Finset.Lattice.Fold
import Mathlib.Order.Fin.Basic

noncomputable section

open scoped BigOperators

namespace Cert.Flash

/-- A streamed state: running maximum, running denominator, running weighted sum. -/
abbrev St : Type := ℝ × ℝ × (Fin 512 → ℝ)

/-- The maximum of one block of 1024 scores. -/
def bmax (s : Fin 1024 → ℝ) : ℝ := Finset.univ.sup' ⟨(0 : Fin 1024), Finset.mem_univ _⟩ s

/-- The state after the first block of a half. -/
def first (s : Fin 1024 → ℝ) (v : Fin 1024 → Fin 512 → ℝ) : St :=
  (bmax s, ∑ r, Real.exp (s r - bmax s), fun d => ∑ r, Real.exp (s r - bmax s) * v r d)

/-- One further block: the maximum is raised, the old sums are rescaled, the block's terms are added. -/
def step (s : Fin 1024 → ℝ) (v : Fin 1024 → Fin 512 → ℝ) (st : St) : St :=
  (max st.1 (bmax s),
   Real.exp (st.1 - max st.1 (bmax s)) * st.2.1 + ∑ r, Real.exp (s r - max st.1 (bmax s)),
   fun d => Real.exp (st.1 - max st.1 (bmax s)) * st.2.2 d + ∑ r, Real.exp (s r - max st.1 (bmax s)) * v r d)

/-- Row r of block j of half c: n = (32·c + j)·1024 + r. -/
def row (c : Fin 2) (j : Fin 32) (r : Fin 1024) : Fin 65536 :=
  ⟨(32 * c.val + j.val) * 1024 + r.val, by omega⟩

@[simp] theorem row_val (c : Fin 2) (j : Fin 32) (r : Fin 1024) :
    (row c j r).val = (32 * c.val + j.val) * 1024 + r.val := rfl

/-- The scores of block j of half c. -/
def blkS (S : Fin 65536 → ℝ) (c : Fin 2) (j : Fin 32) : Fin 1024 → ℝ := fun r => S (row c j r)

/-- The values of block j of half c. -/
def blkG (G : Fin 65536 → Fin 512 → ℝ) (c : Fin 2) (j : Fin 32) : Fin 1024 → Fin 512 → ℝ :=
  fun r => G (row c j r)

/-- The state after blocks 0..j of half c. -/
def run (S : Fin 65536 → ℝ) (G : Fin 65536 → Fin 512 → ℝ) (c : Fin 2) : (j : ℕ) → j < 32 → St
  | 0, _ => first (blkS S c 0) (blkG G c 0)
  | j + 1, h => step (blkS S c ⟨j + 1, h⟩) (blkG G c ⟨j + 1, h⟩) (run S G c j (Nat.lt_of_succ_lt h))

theorem run_zero (S : Fin 65536 → ℝ) (G : Fin 65536 → Fin 512 → ℝ) (c : Fin 2) (h : 0 < 32) :
    run S G c 0 h = first (blkS S c 0) (blkG G c 0) := rfl

theorem run_succ (S : Fin 65536 → ℝ) (G : Fin 65536 → Fin 512 → ℝ) (c : Fin 2) (j : ℕ) (h : j + 1 < 32) :
    run S G c (j + 1) h
      = step (blkS S c ⟨j + 1, h⟩) (blkG G c ⟨j + 1, h⟩) (run S G c j (Nat.lt_of_succ_lt h)) := rfl

/-! ## The invariant, for any family of rows -/

section Rep

variable {ι : Type*} [DecidableEq ι] (S : ι → ℝ) (G : ι → Fin 512 → ℝ)

/-- The state summarises the rows of A: m is the maximum of S over A, l the sum of exp (S n − m) over A and a the
sum of exp (S n − m) · G n over A. -/
structure Rep (A : Finset ι) (st : St) : Prop where
  ne : A.Nonempty
  m_eq : st.1 = A.sup' ne S
  l_eq : st.2.1 = ∑ n ∈ A, Real.exp (S n - st.1)
  a_eq : ∀ d, st.2.2 d = ∑ n ∈ A, Real.exp (S n - st.1) * G n d

/-- Rescaling: exp (m − m') · ∑ exp (S n − m) · w n = ∑ exp (S n − m') · w n. -/
theorem rescale (A : Finset ι) (m m' : ℝ) (w : ι → ℝ) :
    Real.exp (m - m') * ∑ n ∈ A, Real.exp (S n - m) * w n = ∑ n ∈ A, Real.exp (S n - m') * w n := by
  rw [Finset.mul_sum]
  refine Finset.sum_congr rfl fun n _ => ?_
  have e : m - m' + (S n - m) = S n - m' := by ring
  rw [← mul_assoc, ← Real.exp_add, e]

variable {S G}

/-- The denominator of a summarised set, moved to another reference point. -/
theorem Rep.l_scale {A : Finset ι} {st : St} (h : Rep S G A st) (m' : ℝ) :
    Real.exp (st.1 - m') * st.2.1 = ∑ n ∈ A, Real.exp (S n - m') := by
  have := rescale S A st.1 m' (fun _ => 1)
  simp only [mul_one] at this
  rw [h.l_eq, this]

/-- The weighted sum of a summarised set, moved to another reference point. -/
theorem Rep.a_scale {A : Finset ι} {st : St} (h : Rep S G A st) (m' : ℝ) (d : Fin 512) :
    Real.exp (st.1 - m') * st.2.2 d = ∑ n ∈ A, Real.exp (S n - m') * G n d := by
  rw [h.a_eq d, rescale S A st.1 m' (fun n => G n d)]

/-- The denominator of a summarised set is positive: a nonempty sum of exponentials. -/
theorem Rep.l_pos {A : Finset ι} {st : St} (h : Rep S G A st) : 0 < st.2.1 := by
  rw [h.l_eq]
  exact Finset.sum_pos (fun n _ => Real.exp_pos _) h.ne

/-- Two summarised disjoint sets joined at the max of their maxima: the denominators. -/
theorem Rep.join_l {A B : Finset ι} {sa sb : St} (ha : Rep S G A sa) (hb : Rep S G B sb) (hd : Disjoint A B) :
    Real.exp (sa.1 - max sa.1 sb.1) * sa.2.1 + Real.exp (sb.1 - max sa.1 sb.1) * sb.2.1
      = ∑ n ∈ A ∪ B, Real.exp (S n - max sa.1 sb.1) := by
  rw [ha.l_scale, hb.l_scale, Finset.sum_union hd]

/-- Two summarised disjoint sets joined at the max of their maxima: the weighted sums. -/
theorem Rep.join_a {A B : Finset ι} {sa sb : St} (ha : Rep S G A sa) (hb : Rep S G B sb) (hd : Disjoint A B)
    (d : Fin 512) :
    Real.exp (sa.1 - max sa.1 sb.1) * sa.2.2 d + Real.exp (sb.1 - max sa.1 sb.1) * sb.2.2 d
      = ∑ n ∈ A ∪ B, Real.exp (S n - max sa.1 sb.1) * G n d := by
  rw [ha.a_scale, hb.a_scale, Finset.sum_union hd]

/-- The maximum over a set does not depend on how the set is presented. -/
theorem sup'_eq_of_eq (S : ι → ℝ) {A B : Finset ι} (hA : A.Nonempty) (hB : B.Nonempty) (h : A = B) :
    A.sup' hA S = B.sup' hB S := by
  subst h
  rfl

/-- The maximum over a union of two summarised sets is the max of the two maxima. -/
theorem Rep.max_union {A B : Finset ι} {sa sb : St} (ha : Rep S G A sa) (hb : Rep S G B sb) :
    max sa.1 sb.1 = (A ∪ B).sup' (ha.ne.mono Finset.subset_union_left) S := by
  rw [Finset.sup'_union ha.ne hb.ne, ← ha.m_eq, ← hb.m_eq]

end Rep

/-! ## The blocks and the prefixes of a half as sets of rows -/

/-- The rows of a block, as an embedding of the block's row index. -/
def rowEmb (c : Fin 2) (j : Fin 32) : Fin 1024 ↪ Fin 65536 :=
  ⟨row c j, fun r r' h => by
    have := congrArg Fin.val h
    simp only [row_val] at this
    exact Fin.ext (by omega)⟩

/-- The set of rows of block j of half c. -/
def blk (c : Fin 2) (j : Fin 32) : Finset (Fin 65536) := Finset.univ.map (rowEmb c j)

theorem blk_nonempty (c : Fin 2) (j : Fin 32) : (blk c j).Nonempty :=
  Finset.univ_nonempty.map

theorem mem_blk {c : Fin 2} {j : Fin 32} {n : Fin 65536} :
    n ∈ blk c j ↔ (32 * c.val + j.val) * 1024 ≤ n.val ∧ n.val < (32 * c.val + j.val) * 1024 + 1024 := by
  constructor
  · intro h
    obtain ⟨r, -, rfl⟩ := Finset.mem_map.1 h
    show _ ≤ (row c j r).val ∧ (row c j r).val < _
    simp only [row_val]
    omega
  · rintro ⟨h1, h2⟩
    refine Finset.mem_map.2 ⟨⟨n.val - (32 * c.val + j.val) * 1024, by omega⟩, Finset.mem_univ _, Fin.ext ?_⟩
    show (32 * c.val + j.val) * 1024 + (n.val - (32 * c.val + j.val) * 1024) = n.val
    omega

/-- A sum over the rows of a block is the sum over the block's row index. -/
theorem sum_blk (c : Fin 2) (j : Fin 32) (F : Fin 65536 → ℝ) :
    ∑ n ∈ blk c j, F n = ∑ r, F (row c j r) := by
  unfold blk
  rw [Finset.sum_map]
  rfl

/-- The maximum over the rows of a block is the block maximum. -/
theorem sup_blk (S : Fin 65536 → ℝ) (c : Fin 2) (j : Fin 32) :
    (blk c j).sup' (blk_nonempty c j) S = bmax (blkS S c j) :=
  Finset.sup'_map S (blk_nonempty c j)

/-- The rows of blocks 0..j of half c. -/
def pre (c : Fin 2) (j : ℕ) : Finset (Fin 65536) :=
  Finset.univ.filter fun n => 32 * c.val * 1024 ≤ n.val ∧ n.val < (32 * c.val + j + 1) * 1024

theorem mem_pre {c : Fin 2} {j : ℕ} {n : Fin 65536} :
    n ∈ pre c j ↔ 32 * c.val * 1024 ≤ n.val ∧ n.val < (32 * c.val + j + 1) * 1024 := by
  simp only [pre, Finset.mem_filter, Finset.mem_univ, true_and]

theorem pre_zero (c : Fin 2) : pre c 0 = blk c 0 := by
  ext n
  rw [mem_pre, mem_blk]
  have : ((0 : Fin 32) : ℕ) = 0 := rfl
  rw [this]
  omega

theorem pre_succ (c : Fin 2) (j : ℕ) (h : j + 1 < 32) : pre c (j + 1) = pre c j ∪ blk c ⟨j + 1, h⟩ := by
  ext n
  rw [Finset.mem_union, mem_pre, mem_pre, mem_blk]
  show _ ↔ _ ∨ ((32 * c.val + (j + 1)) * 1024 ≤ n.val ∧ n.val < (32 * c.val + (j + 1)) * 1024 + 1024)
  omega

theorem pre_disjoint_blk (c : Fin 2) (j : ℕ) (h : j + 1 < 32) : Disjoint (pre c j) (blk c ⟨j + 1, h⟩) := by
  refine Finset.disjoint_left.2 fun n hn hn' => ?_
  rw [mem_pre] at hn
  rw [mem_blk] at hn'
  have hn'' : (32 * c.val + (j + 1)) * 1024 ≤ n.val := hn'.1
  omega

theorem halves_union : pre 0 31 ∪ pre 1 31 = (Finset.univ : Finset (Fin 65536)) := by
  ext n
  rw [Finset.mem_union, mem_pre, mem_pre]
  have h0 : ((0 : Fin 2) : ℕ) = 0 := rfl
  have h1 : ((1 : Fin 2) : ℕ) = 1 := rfl
  rw [h0, h1]
  have := n.isLt
  simp only [Finset.mem_univ, iff_true]
  omega

theorem halves_disjoint : Disjoint (pre 0 31) (pre 1 31) := by
  refine Finset.disjoint_left.2 fun n hn hn' => ?_
  rw [mem_pre] at hn hn'
  have h0 : ((0 : Fin 2) : ℕ) = 0 := rfl
  have h1 : ((1 : Fin 2) : ℕ) = 1 := rfl
  rw [h0] at hn
  rw [h1] at hn'
  omega

/-! ## The invariant along a half -/

variable (S : Fin 65536 → ℝ) (G : Fin 65536 → Fin 512 → ℝ)

/-- The first block's state summarises the first block's rows. -/
theorem rep_first (c : Fin 2) (j : Fin 32) : Rep S G (blk c j) (first (blkS S c j) (blkG G c j)) where
  ne := blk_nonempty c j
  m_eq := (sup_blk S c j).symm
  l_eq := (sum_blk c j fun n => Real.exp (S n - bmax (blkS S c j))).symm
  a_eq := fun d => (sum_blk c j fun n => Real.exp (S n - bmax (blkS S c j)) * G n d).symm

/-- A further block, disjoint from the rows already summarised, extends the summary to the union. -/
theorem rep_step {A : Finset (Fin 65536)} {st : St} (h : Rep S G A st) (c : Fin 2) (j : Fin 32)
    (hd : Disjoint A (blk c j)) : Rep S G (A ∪ blk c j) (step (blkS S c j) (blkG G c j) st) where
  ne := h.ne.mono Finset.subset_union_left
  m_eq := by
    show max st.1 (bmax (blkS S c j)) = _
    rw [Finset.sup'_union h.ne (blk_nonempty c j), ← h.m_eq, sup_blk]
  l_eq := by
    show Real.exp (st.1 - max st.1 (bmax (blkS S c j))) * st.2.1
        + ∑ r, Real.exp (blkS S c j r - max st.1 (bmax (blkS S c j)))
      = ∑ n ∈ A ∪ blk c j, Real.exp (S n - max st.1 (bmax (blkS S c j)))
    rw [Finset.sum_union hd, sum_blk, h.l_scale]
    rfl
  a_eq := fun d => by
    show Real.exp (st.1 - max st.1 (bmax (blkS S c j))) * st.2.2 d
        + ∑ r, Real.exp (blkS S c j r - max st.1 (bmax (blkS S c j))) * blkG G c j r d
      = ∑ n ∈ A ∪ blk c j, Real.exp (S n - max st.1 (bmax (blkS S c j))) * G n d
    rw [Finset.sum_union hd, sum_blk, h.a_scale]
    rfl

/-- After blocks 0..j of half c the state summarises the rows of those blocks. -/
theorem run_rep (c : Fin 2) : ∀ (j : ℕ) (h : j < 32), Rep S G (pre c j) (run S G c j h)
  | 0, _ => by
    rw [pre_zero]
    exact rep_first S G c 0
  | j + 1, h => by
    rw [pre_succ c j h]
    exact rep_step S G (run_rep c j (Nat.lt_of_succ_lt h)) c ⟨j + 1, h⟩ (pre_disjoint_blk c j h)

/-- The running denominator is positive. -/
theorem run_l_pos (c : Fin 2) (j : ℕ) (h : j < 32) : 0 < (run S G c j h).2.1 :=
  (run_rep S G c j h).l_pos

/-! ## The two halves joined -/

/-- The max of the two halves' maxima is the maximum over all rows. -/
theorem max_halves :
    max (run S G 0 31 (by omega)).1 (run S G 1 31 (by omega)).1 = Cert.Spec.mx S := by
  rw [(run_rep S G 0 31 (by omega)).max_union (run_rep S G 1 31 (by omega))]
  exact sup'_eq_of_eq S _ Finset.univ_nonempty halves_union

/-- The joined denominator is the sum of exp (S n − max S) over all rows. -/
theorem pool_den :
    Real.exp ((run S G 0 31 (by omega)).1 - max (run S G 0 31 (by omega)).1 (run S G 1 31 (by omega)).1)
        * (run S G 0 31 (by omega)).2.1
      + Real.exp ((run S G 1 31 (by omega)).1 - max (run S G 0 31 (by omega)).1 (run S G 1 31 (by omega)).1)
        * (run S G 1 31 (by omega)).2.1
      = ∑ n : Fin 65536, Real.exp (S n - Cert.Spec.mx S) := by
  rw [(run_rep S G 0 31 (by omega)).join_l (run_rep S G 1 31 (by omega)) halves_disjoint, max_halves,
    halves_union]

/-- The joined weighted sum is the sum of exp (S n − max S) · G n d over all rows. -/
theorem pool_num (d : Fin 512) :
    Real.exp ((run S G 0 31 (by omega)).1 - max (run S G 0 31 (by omega)).1 (run S G 1 31 (by omega)).1)
        * (run S G 0 31 (by omega)).2.2 d
      + Real.exp ((run S G 1 31 (by omega)).1 - max (run S G 0 31 (by omega)).1 (run S G 1 31 (by omega)).1)
        * (run S G 1 31 (by omega)).2.2 d
      = ∑ n : Fin 65536, Real.exp (S n - Cert.Spec.mx S) * G n d := by
  rw [(run_rep S G 0 31 (by omega)).join_a (run_rep S G 1 31 (by omega)) halves_disjoint, max_halves,
    halves_union]

/-- The joined denominator is positive. -/
theorem pool_den_pos :
    0 < Real.exp ((run S G 0 31 (by omega)).1 - max (run S G 0 31 (by omega)).1 (run S G 1 31 (by omega)).1)
        * (run S G 0 31 (by omega)).2.1
      + Real.exp ((run S G 1 31 (by omega)).1 - max (run S G 0 31 (by omega)).1 (run S G 1 31 (by omega)).1)
        * (run S G 1 31 (by omega)).2.1 :=
  add_pos (mul_pos (Real.exp_pos _) (run_l_pos S G 0 31 _)) (mul_pos (Real.exp_pos _) (run_l_pos S G 1 31 _))

/-- The softmax denominator over all rows is positive. -/
theorem softmax_den_pos : 0 < ∑ n : Fin 65536, Real.exp (S n - Cert.Spec.mx S) :=
  Finset.sum_pos (fun n _ => Real.exp_pos _) Finset.univ_nonempty

/-- The streamed accumulation over the two halves, joined and divided, is the softmax-weighted sum. -/
theorem pool_closed (d : Fin 512) :
    (Real.exp ((run S G 0 31 (by omega)).1 - max (run S G 0 31 (by omega)).1 (run S G 1 31 (by omega)).1)
          * (run S G 0 31 (by omega)).2.2 d
        + Real.exp ((run S G 1 31 (by omega)).1 - max (run S G 0 31 (by omega)).1 (run S G 1 31 (by omega)).1)
          * (run S G 1 31 (by omega)).2.2 d)
      / (Real.exp ((run S G 0 31 (by omega)).1 - max (run S G 0 31 (by omega)).1 (run S G 1 31 (by omega)).1)
          * (run S G 0 31 (by omega)).2.1
        + Real.exp ((run S G 1 31 (by omega)).1 - max (run S G 0 31 (by omega)).1 (run S G 1 31 (by omega)).1)
          * (run S G 1 31 (by omega)).2.1)
      = ∑ n : Fin 65536,
          (Real.exp (S n - Cert.Spec.mx S) / ∑ n' : Fin 65536, Real.exp (S n' - Cert.Spec.mx S)) * G n d := by
  rw [pool_num S G d, pool_den S G, Finset.sum_div]
  refine Finset.sum_congr rfl fun n _ => ?_
  rw [div_mul_eq_mul_div]

/-- The same statement with the two halves' final states and the joined maximum named. -/
theorem pool_closed_let (d : Fin 512) :
    let s0 := run S G 0 31 (by omega)
    let s1 := run S G 1 31 (by omega)
    let mm := max s0.1 s1.1
    (Real.exp (s0.1 - mm) * s0.2.2 d + Real.exp (s1.1 - mm) * s1.2.2 d)
        / (Real.exp (s0.1 - mm) * s0.2.1 + Real.exp (s1.1 - mm) * s1.2.1)
      = ∑ n : Fin 65536,
          (Real.exp (S n - Cert.Spec.mx S) / ∑ n' : Fin 65536, Real.exp (S n' - Cert.Spec.mx S)) * G n d :=
  pool_closed S G d

end Cert.Flash

end
-- ==== Proof.KI.ValPool.lean ====
/-
  The pooling kernel's streamed softmax state is the image of the streamed recursion on the reals, and the host's
  combination of the two halves is softmax pooling.

  Along a half c of the grid the kernel's state after points 0..j is the fold of the point function from
  (−∞, 0, 0) over the half's row blocks.  At each row m of W its three entries are the images of the real recursion's
  (maximum, denominator, weighted sum) for the scores s n = ∑ d, W m d · g n d: the first point by the laws of −∞ and
  0, every further point because a point maps real entries to real entries.  The host then rescales the two halves'
  final states to the common maximum, adds them and divides: on reals this is the closed form of the streamed softmax,
  ∑ n, (exp (s n − max s) / ∑ n', exp (s n' − max s)) · g_p n d, the denominator being a positive sum of exponentials.
-/
import proofs.«410946_j27565100106019_3_alg».proof.Proof.KI.ValPoolStep
import proofs.«410946_j27565100106019_3_alg».proof.Proof.Math.Flash

noncomputable section

open Idealize.ShloMosaic Idealize.ShloMosaic.ValueIdx
open scoped BigOperators

namespace Cert.KernelIdeal.Val

open Cert.KernelIdeal Cert.KernelIdeal.Gen Cert.KernelIdeal.Hand

/-! ## The output blocks' shape casts, for every float instance -/

section Casts
variable {F : FTy → Type} [FloatOps F]

/-- The stored maximum block [1,512,1] reads the state's [512,1] column. -/
theorem pay3_apply (x : Vec F S512x1 .f32) (m : Fin 512) :
    k0_pay3 x (ix3 (0 : Fin 1) m (0 : Fin 1)) = x (ix2 m (0 : Fin 1)) := by
  unfold k0_pay3
  exact shapeCast_ab_1ab_apply x _ 0 m 0

/-- The stored denominator block likewise. -/
theorem pay4_apply (x : Vec F S512x1 .f32) (m : Fin 512) :
    k0_pay4 x (ix3 (0 : Fin 1) m (0 : Fin 1)) = x (ix2 m (0 : Fin 1)) := by
  unfold k0_pay4
  exact shapeCast_ab_1ab_apply x _ 0 m 0

/-- The stored weighted-sum block [1,512,512] reads the state's [512,512] matrix. -/
theorem pay5_apply (x : Vec F S512x512 .f32) (m d : Fin 512) :
    k0_pay5 x (ix3 (0 : Fin 1) m d) = x (ix2 m d) := by
  unfold k0_pay5
  exact shapeCast_ab_1ab_apply x _ 0 m d

end Casts

/-! ## The recursion along a half -/

section Run

variable (W : Fin 512 → Fin 512 → ℝ) (g gp : Fin 65536 → Fin 512 → ℝ)
  (wh wl : Vec Ideal S512x512 .bf16) (gb gpb : Fin 2 → Fin 32 → Vec Ideal S1024x512 .f32)

/-- The kernel's state after points 0..j of half c: the point function folded from (−∞, 0, 0) over the half's
    row blocks of g and g_p. -/
def stK (c : Fin 2) : (j : ℕ) → j < 32 → St0 Ideal
  | 0, _ => step0 wh wl (gb c 0) (gpb c 0) init0
  | j + 1, h => step0 wh wl (gb c ⟨j + 1, h⟩) (gpb c ⟨j + 1, h⟩) (stK c j (Nat.lt_of_succ_lt h))

theorem stK_zero (c : Fin 2) (h : 0 < 32) :
    stK wh wl gb gpb c 0 h = step0 wh wl (gb c 0) (gpb c 0) init0 := rfl

theorem stK_succ (c : Fin 2) (j : ℕ) (h : j + 1 < 32) :
    stK wh wl gb gpb c (j + 1) h
      = step0 wh wl (gb c ⟨j + 1, h⟩) (gpb c ⟨j + 1, h⟩) (stK wh wl gb gpb c j (Nat.lt_of_succ_lt h)) := rfl

/-- A block's real scores are the block of the real scores over all rows. -/
theorem scB_blk (c : Fin 2) (j : Fin 32) (m : Fin 512) :
    scB W (fun r d => g (Cert.Flash.row c j r) d) m = Cert.Flash.blkS (Cert.Spec.sc W g m) c j := rfl

/-- The block maximum, in both spellings. -/
theorem bmx_eq (s : Fin 1024 → ℝ) : bmx s = Cert.Flash.bmax s := rfl

/-- At every row m of W the kernel's state along a half is the image of the real recursion for the scores of row m:
    by induction along the half, the first point from (−∞, 0, 0), every further point from real entries. -/
theorem stK_real (hwh : ∀ m d, wh (ix2 m d) = ((W m d : ℝ) : EReal)) (hwl : ∀ m d, wl (ix2 m d) = 0)
    (hgb : ∀ (c : Fin 2) (j : Fin 32) (r : Fin 1024) (d : Fin 512),
      gb c j (ix2 r d) = ((g (Cert.Flash.row c j r) d : ℝ) : EReal))
    (hgpb : ∀ (c : Fin 2) (j : Fin 32) (r : Fin 1024) (d : Fin 512),
      gpb c j (ix2 r d) = ((gp (Cert.Flash.row c j r) d : ℝ) : EReal))
    (c : Fin 2) : ∀ (j : ℕ) (h : j < 32) (m : Fin 512),
      (stK wh wl gb gpb c j h).1 (ix2 m (0 : Fin 1))
          = (((Cert.Flash.run (Cert.Spec.sc W g m) gp c j h).1 : ℝ) : EReal)
      ∧ (stK wh wl gb gpb c j h).2.1 (ix2 m (0 : Fin 1))
          = (((Cert.Flash.run (Cert.Spec.sc W g m) gp c j h).2.1 : ℝ) : EReal)
      ∧ ∀ d : Fin 512, (stK wh wl gb gpb c j h).2.2 (ix2 m d)
          = (((Cert.Flash.run (Cert.Spec.sc W g m) gp c j h).2.2 d : ℝ) : EReal)
  | 0, h, m => by
    rw [stK_zero, Cert.Flash.run_zero]
    exact step0_init (gb c 0) (gpb c 0) wh wl W (fun r d => g (Cert.Flash.row c 0 r) d)
      (fun r d => gp (Cert.Flash.row c 0 r) d) hwh hwl (hgb c 0) (hgpb c 0) m
  | j + 1, h, m => by
    obtain ⟨hM, hL, hA⟩ := stK_real hwh hwl hgb hgpb c j (Nat.lt_of_succ_lt h) m
    rw [stK_succ, Cert.Flash.run_succ]
    exact step0_real (gb c ⟨j + 1, h⟩) (gpb c ⟨j + 1, h⟩) wh wl W (fun r d => g (Cert.Flash.row c ⟨j + 1, h⟩ r) d)
      (fun r d => gp (Cert.Flash.row c ⟨j + 1, h⟩ r) d) hwh hwl (hgb c ⟨j + 1, h⟩) (hgpb c ⟨j + 1, h⟩)
      (stK wh wl gb gpb c j (Nat.lt_of_succ_lt h)) m _ _ _ hM hL hA

/-! ## The two halves combined -/

/-- Half c's final maximum at row m. -/
abbrev finM (c : Fin 2) (m : Fin 512) : EReal := (stK wh wl gb gpb c 31 (by omega)).1 (ix2 m (0 : Fin 1))
/-- Half c's final denominator at row m. -/
abbrev finL (c : Fin 2) (m : Fin 512) : EReal := (stK wh wl gb gpb c 31 (by omega)).2.1 (ix2 m (0 : Fin 1))
/-- Half c's final weighted sum at (m, d). -/
abbrev finA (c : Fin 2) (m d : Fin 512) : EReal := (stK wh wl gb gpb c 31 (by omega)).2.2 (ix2 m d)

/-- The two halves' final states, rescaled to the common maximum, added and divided, are softmax pooling: every
    entry is the image of a real, the real quotient is the streamed softmax's closed form, and the denominator is a
    positive sum of exponentials. -/
theorem pooled_real (hwh : ∀ m d, wh (ix2 m d) = ((W m d : ℝ) : EReal)) (hwl : ∀ m d, wl (ix2 m d) = 0)
    (hgb : ∀ (c : Fin 2) (j : Fin 32) (r : Fin 1024) (d : Fin 512),
      gb c j (ix2 r d) = ((g (Cert.Flash.row c j r) d : ℝ) : EReal))
    (hgpb : ∀ (c : Fin 2) (j : Fin 32) (r : Fin 1024) (d : Fin 512),
      gpb c j (ix2 r d) = ((gp (Cert.Flash.row c j r) d : ℝ) : EReal))
    (m d : Fin 512) :
    Ideal.div
        (Ideal.exp (finM wh wl gb gpb 0 m - max (finM wh wl gb gpb 0 m) (finM wh wl gb gpb 1 m)) * finA wh wl gb gpb 0 m d
          + Ideal.exp (finM wh wl gb gpb 1 m - max (finM wh wl gb gpb 0 m) (finM wh wl gb gpb 1 m))
            * finA wh wl gb gpb 1 m d)
        (Ideal.exp (finM wh wl gb gpb 0 m - max (finM wh wl gb gpb 0 m) (finM wh wl gb gpb 1 m)) * finL wh wl gb gpb 0 m
          + Ideal.exp (finM wh wl gb gpb 1 m - max (finM wh wl gb gpb 0 m) (finM wh wl gb gpb 1 m))
            * finL wh wl gb gpb 1 m)
      = ((Cert.Spec.poolR W g gp m d : ℝ) : EReal) := by
  obtain ⟨hM0, hL0, hA0⟩ := stK_real W g gp wh wl gb gpb hwh hwl hgb hgpb 0 31 (by omega) m
  obtain ⟨hM1, hL1, hA1⟩ := stK_real W g gp wh wl gb gpb hwh hwl hgb hgpb 1 31 (by omega) m
  show Ideal.div
      (Ideal.exp ((stK wh wl gb gpb 0 31 _).1 (ix2 m (0 : Fin 1))
            - max ((stK wh wl gb gpb 0 31 _).1 (ix2 m (0 : Fin 1))) ((stK wh wl gb gpb 1 31 _).1 (ix2 m (0 : Fin 1))))
          * (stK wh wl gb gpb 0 31 _).2.2 (ix2 m d)
        + Ideal.exp ((stK wh wl gb gpb 1 31 _).1 (ix2 m (0 : Fin 1))
            - max ((stK wh wl gb gpb 0 31 _).1 (ix2 m (0 : Fin 1))) ((stK wh wl gb gpb 1 31 _).1 (ix2 m (0 : Fin 1))))
          * (stK wh wl gb gpb 1 31 _).2.2 (ix2 m d))
      (Ideal.exp ((stK wh wl gb gpb 0 31 _).1 (ix2 m (0 : Fin 1))
            - max ((stK wh wl gb gpb 0 31 _).1 (ix2 m (0 : Fin 1))) ((stK wh wl gb gpb 1 31 _).1 (ix2 m (0 : Fin 1))))
          * (stK wh wl gb gpb 0 31 _).2.1 (ix2 m (0 : Fin 1))
        + Ideal.exp ((stK wh wl gb gpb 1 31 _).1 (ix2 m (0 : Fin 1))
            - max ((stK wh wl gb gpb 0 31 _).1 (ix2 m (0 : Fin 1))) ((stK wh wl gb gpb 1 31 _).1 (ix2 m (0 : Fin 1))))
          * (stK wh wl gb gpb 1 31 _).2.1 (ix2 m (0 : Fin 1))) = _
  rw [hM0, hM1, hL0, hL1, hA0 d, hA1 d]
  simp only [Cert.Lift.max_coe, ← EReal.coe_sub, Cert.Lift.exp_coe, ← EReal.coe_mul, ← EReal.coe_add]
  rw [Cert.Lift.div_coe_coe _ _ (Cert.Flash.pool_den_pos (Cert.Spec.sc W g m) gp).ne']
  exact congrArg (fun x : ℝ => (x : EReal)) (Cert.Flash.pool_closed (Cert.Spec.sc W g m) gp d)

end Run

end Cert.KernelIdeal.Val

end
-- ==== Proof.KI.GluePool.lean ====
/-
  The pooling kernel's run joined to its arithmetic over the reals.

  With the split weight matrix (W, 0) and the rows of g and g_p real, the state region 0 leaves after point 32·c + j
  is the streamed-softmax state after blocks 0 … j of half c: point 32·c resets the state, every further point of the
  half carries it, and the point's row blocks are rows (32·c + j)·1024 … of g and g_p.  The three output arrays hold
  each half's final state, reshaped; joined as the host joins them, the two halves give the softmax pooling.
-/
import proofs.«410946_j27565100106019_3_alg».proof.Proof.KI.Body0
import proofs.«410946_j27565100106019_3_alg».proof.Proof.KI.Val0
import proofs.«410946_j27565100106019_3_alg».proof.Proof.KI.ValPool
import proofs.«410946_j27565100106019_3_alg».proof.Proof.Math.Spec
import proofs.«410946_j27565100106019_3_alg».proof.Proof.Math.Lift
import Idealize.ShloMosaic.Lib.ValueIdx

set_option maxRecDepth 16384

noncomputable section

open Idealize.ShloMosaic Idealize.ShloMosaic.ValueIdx Idealize.ShloMosaic.TcCoe
open Idealize.SL Idealize.SL.Sem
open Idealize.ShloMosaic.Pipeline (Dat Cfg Window)
open scoped BigOperators

namespace Cert.KernelIdeal.Val

open Cert.KernelIdeal Cert.KernelIdeal.Gen Cert.KernelIdeal.GenP Cert.KernelIdeal.Hand

/-! ## The arrays region 0 reads, and its points -/

section Glue

variable (V : (c : Dev nD) → (b : Ref sig .tc) → Buf (Elt Ideal) ((c : Thread nD τ).loc b)) (c : Dev nD)

/-- The two halves of the split weight matrix, as the region finds them. -/
abbrev whV : Vec Ideal S512x512 .bf16 := V c main_v1
abbrev wlV : Vec Ideal S512x512 .bf16 := V c main_v4

/-- The three output arrays after the region: the halves' final maxima, denominators and weighted sums. -/
abbrev mOut : Vec Ideal S2x512x1 .f32 := (dat0 V c).arrAt 4 cfg0.N
abbrev lOut : Vec Ideal S2x512x1 .f32 := (dat0 V c).arrAt 5 cfg0.N
abbrev aOut : Vec Ideal S2x512x512 .f32 := (dat0 V c).arrAt 6 cfg0.N

theorem pt0_lt (cc : Fin 2) (j : ℕ) (h : j < 32) : 32 * cc.val + j < cfg0.N := by
  have hc : cc.val < 2 := cc.isLt
  show _ < grid0.N
  rw [N_0]; omega

/-- Point (c, j) of the 2 × 32 grid in row-major order: 32·c + j. -/
def pt0 (cc : Fin 2) (j : Fin 32) : Fin cfg0.N := ⟨32 * cc.val + j.val, pt0_lt cc j.val j.isLt⟩

/-- The row blocks of g and g_p at point (c, j). -/
def gbV (cc : Fin 2) (j : Fin 32) : Vec Ideal S1024x512 .f32 := iblk0 V c 2 (pt0 cc j)
def gpbV (cc : Fin 2) (j : Fin 32) : Vec Ideal S1024x512 .f32 := iblk0 V c 3 (pt0 cc j)

/-- After point 32·c + j the scratch state is the streamed state after blocks 0 … j of half c. -/
theorem stAt0_eq_stK (cc : Fin 2) : ∀ (j : ℕ) (h : j < 32),
    stAt0 V c (32 * cc.val + j) (pt0_lt cc j h) = stK (whV V c) (wlV V c) (gbV V c) (gpbV V c) cc j h
  | 0, h => by
    have e := stAt0_reset V c (pt0 cc ⟨0, h⟩) (by show (32 * cc.val + 0) % 32 = 0; omega)
    rw [iblk0_0_eq, iblk0_1_eq] at e
    exact e
  | j + 1, h => by
    have e := stAt0_carry V c (pt0 cc ⟨j + 1, h⟩) (by show (32 * cc.val + (j + 1)) % 32 ≠ 0; omega)
    rw [iblk0_0_eq, iblk0_1_eq,
      stAt0_congr V c _ (pt0_lt cc j (Nat.lt_of_succ_lt h))
        (show (pt0 cc ⟨j + 1, h⟩).val - 1 = 32 * cc.val + j by show 32 * cc.val + (j + 1) - 1 = _; omega),
      stAt0_eq_stK cc j (Nat.lt_of_succ_lt h)] at e
    exact e

variable (W : Fin 512 → Fin 512 → ℝ) (g gp : Fin 65536 → Fin 512 → ℝ)
  (hV1 : ∀ m d : Fin 512, V c main_v1 (ix2 m d) = ((W m d : ℝ) : EReal))
  (hV4 : ∀ m d : Fin 512, V c main_v4 (ix2 m d) = (0 : EReal))
  (hg : ∀ (n : Fin 65536) (d : Fin 512), V c main_arg0 (ix2 n d) = ((g n d : ℝ) : EReal))
  (hgp : ∀ (n : Fin 65536) (d : Fin 512), V c main_arg1 (ix2 n d) = ((gp n d : ℝ) : EReal))

include hg in
/-- Row r of the block of g at point (c, j) is row (32·c + j)·1024 + r of g. -/
theorem gbV_real (cc : Fin 2) (j : Fin 32) (r : Fin 1024) (d : Fin 512) :
    gbV V c cc j (ix2 r d) = ((g (Cert.Flash.row cc j r) d : ℝ) : EReal) := by
  unfold gbV
  rw [iblk0_2_apply V c (pt0 cc j) (ix2 r d) (ix2 (Cert.Flash.row cc j r) d)
    (by show (32 * cc.val + j.val) * 1024 + r.val = 1024 * (32 * cc.val + j.val) + r.val; omega) rfl]
  exact hg _ _

include hgp in
theorem gpbV_real (cc : Fin 2) (j : Fin 32) (r : Fin 1024) (d : Fin 512) :
    gpbV V c cc j (ix2 r d) = ((gp (Cert.Flash.row cc j r) d : ℝ) : EReal) := by
  unfold gpbV
  rw [iblk0_3_apply V c (pt0 cc j) (ix2 r d) (ix2 (Cert.Flash.row cc j r) d)
    (by show (32 * cc.val + j.val) * 1024 + r.val = 1024 * (32 * cc.val + j.val) + r.val; omega) rfl]
  exact hgp _ _

/-- The three output arrays after the region, at half c: the half's final state. -/
theorem out4_at (cc : Fin 2) (m : Fin 512) :
    mOut V c (ix3 cc m (0 : Fin 1))
      = (stK (whV V c) (wlV V c) (gbV V c) (gpbV V c) cc 31 (by omega)).1 (ix2 m (0 : Fin 1)) := by
  show (dat0 V c).arrAt 4 cfg0.N (ix3 cc m (0 : Fin 1)) = _
  rw [final0_4]
  show k0_pay3 (stAt0 V c (32 * cc.val + 31) _).1 (ix3 (0 : Fin 1) m (0 : Fin 1)) = _
  rw [pay3_apply, stAt0_eq_stK V c cc 31 (by omega)]

theorem out5_at (cc : Fin 2) (m : Fin 512) :
    lOut V c (ix3 cc m (0 : Fin 1))
      = (stK (whV V c) (wlV V c) (gbV V c) (gpbV V c) cc 31 (by omega)).2.1 (ix2 m (0 : Fin 1)) := by
  show (dat0 V c).arrAt 5 cfg0.N (ix3 cc m (0 : Fin 1)) = _
  rw [final0_5]
  show k0_pay4 (stAt0 V c (32 * cc.val + 31) _).2.1 (ix3 (0 : Fin 1) m (0 : Fin 1)) = _
  rw [pay4_apply, stAt0_eq_stK V c cc 31 (by omega)]

theorem out6_at (cc : Fin 2) (m d : Fin 512) :
    aOut V c (ix3 cc m d)
      = (stK (whV V c) (wlV V c) (gbV V c) (gpbV V c) cc 31 (by omega)).2.2 (ix2 m d) := by
  show (dat0 V c).arrAt 6 cfg0.N (ix3 cc m d) = _
  rw [final0_6]
  show k0_pay5 (stAt0 V c (32 * cc.val + 31) _).2.2 (ix3 (0 : Fin 1) m d) = _
  rw [pay5_apply, stAt0_eq_stK V c cc 31 (by omega)]

include hV1 hV4 hg hgp in
/-- The two halves' outputs, joined as the host joins them, are the softmax pooling. -/
theorem pooled_glue (m d : Fin 512) :
    Ideal.div
        (Ideal.exp (mOut V c (ix3 (0 : Fin 2) m (0 : Fin 1))
            - max (mOut V c (ix3 (0 : Fin 2) m (0 : Fin 1))) (mOut V c (ix3 (1 : Fin 2) m (0 : Fin 1))))
          * aOut V c (ix3 (0 : Fin 2) m d)
        + Ideal.exp (mOut V c (ix3 (1 : Fin 2) m (0 : Fin 1))
            - max (mOut V c (ix3 (0 : Fin 2) m (0 : Fin 1))) (mOut V c (ix3 (1 : Fin 2) m (0 : Fin 1))))
          * aOut V c (ix3 (1 : Fin 2) m d))
        (Ideal.exp (mOut V c (ix3 (0 : Fin 2) m (0 : Fin 1))
            - max (mOut V c (ix3 (0 : Fin 2) m (0 : Fin 1))) (mOut V c (ix3 (1 : Fin 2) m (0 : Fin 1))))
          * lOut V c (ix3 (0 : Fin 2) m (0 : Fin 1))
        + Ideal.exp (mOut V c (ix3 (1 : Fin 2) m (0 : Fin 1))
            - max (mOut V c (ix3 (0 : Fin 2) m (0 : Fin 1))) (mOut V c (ix3 (1 : Fin 2) m (0 : Fin 1))))
          * lOut V c (ix3 (1 : Fin 2) m (0 : Fin 1)))
      = ((Cert.Spec.poolR W g gp m d : ℝ) : EReal) := by
  rw [out4_at V c 0 m, out4_at V c 1 m, out5_at V c 0 m, out5_at V c 1 m, out6_at V c 0 m d, out6_at V c 1 m d]
  exact pooled_real W g gp (whV V c) (wlV V c) (gbV V c) (gpbV V c) hV1 hV4
    (gbV_real V c g hg) (gpbV_real V c gp hgp) m d

end Glue

end Cert.KernelIdeal.Val

end
-- ==== Proof.Ref.Pool.lean ====
/-
  The reference's softmax pooling, read at an index over the reals.

  With every entry of W, g and gp a real number, each stage of the reference's pooling is real at every index:
  the reshaped W is W; the scores are s m n = ∑ d, W m d · g n d; the row maximum (a fold of max from −∞ over the
  65536 columns, then max with −∞ once more) is max s m; the shifted scores, their exponentials, the row sums
  Z m = ∑ n, exp (s m n − max s m) — positive, being sums of exponentials —, the quotients exp (…) / Z m, and
  the product with gp.  The last is `Cert.Spec.poolR W g gp m d`.
-/
import proofs.«410946_j27565100106019_3_alg».proof.Proof.RefRead
import proofs.«410946_j27565100106019_3_alg».proof.Proof.Math.Spec
import proofs.«410946_j27565100106019_3_alg».proof.Proof.Math.Lift

noncomputable section

open Idealize.ShloMosaic Idealize.ShloMosaic.ValueIdx
open Cert.ReferenceIdeal Cert.ReferenceIdeal.Gen Cert.ReferenceIdeal.ReadP
open scoped BigOperators

namespace Cert.Ref

/-- The row sums of the exponentials of the shifted scores. -/
def Z (W : Fin 512 → Fin 512 → ℝ) (g : Fin 65536 → Fin 512 → ℝ) (m : Fin 512) : ℝ :=
  ∑ n : Fin 65536, Real.exp (Cert.Spec.sc W g m n - Cert.Spec.mx (Cert.Spec.sc W g m))

/-- A sum of exponentials over a nonempty family is positive. -/
theorem Z_pos (W : Fin 512 → Fin 512 → ℝ) (g : Fin 65536 → Fin 512 → ℝ) (m : Fin 512) : 0 < Z W g m :=
  Finset.sum_pos (fun n _ => Real.exp_pos _) ⟨(0 : Fin 65536), Finset.mem_univ _⟩

/-- The maximum of a row of a [512, 65536] array of reals: the reduce with a maximum body over the columns, from −∞. -/
theorem reduce_max_row (y : (⟨S512x65536, .f32⟩ : BufTy).Contents (Elt Ideal)) (s : Fin 65536 → ℝ) (m : Fin 512)
    (hy : ∀ n : Fin 65536, y (ix2 m n) = ((s n : ℝ) : EReal)) :
    Host.reduce (FloatOps.maximumf (F := Ideal) (φ := .f32)) y (val_main_cst (F := Ideal)) reducesTo_S512x65536_S512_d1 h_S_ (ix1 m)
      = ((Cert.Spec.mx s : ℝ) : EReal) := by
  have h : S512x65536.Reduces [1] S512 := by decide
  rw [Host.reduce_eq_fold_single (FloatOps.maximumf (F := Ideal) (φ := .f32)) y _ reducesTo_S512x65536_S512_d1 h h_S_]
  have hf : (y ∘ h.lift (ix1 m)) = fun n : Fin 65536 => ((s n : ℝ) : EReal) := funext fun n : Fin 65536 => by
    have e : h.lift (ix1 m) n = ix2 m n := funext fun c => Fin.ext (by
      match c with
      | ⟨0, _⟩ => rfl
      | ⟨1, _⟩ => rfl)
    show y (h.lift (ix1 m) n) = _
    rw [e, hy]
  have hi : (val_main_cst (F := Ideal)) (Shape.Idx.first h_S_) = (⊥ : EReal) := by
    rw [val_main_cst_apply]
    exact Cert.Lift.ofBits_neg_inf
  rw [hi]
  refine Eq.trans ?_ (Cert.Lift.fold_max_mx s)
  exact congrArg (fun f => Finset.fold max (⊥ : EReal) f (Finset.univ : Finset (Fin 65536))) hf

section Stages

variable (x0 x1 : (⟨S65536x512, .f32⟩ : BufTy).Contents (Elt Ideal)) (x2 : (⟨S1x512x512, .f32⟩ : BufTy).Contents (Elt Ideal))
  (W : Fin 512 → Fin 512 → ℝ) (g gp : Fin 65536 → Fin 512 → ℝ)
  (hW : ∀ m d : Fin 512, x2 (ix3 (0 : Fin 1) m d) = ((W m d : ℝ) : EReal))
  (hg : ∀ (n : Fin 65536) (d : Fin 512), x0 (ix2 n d) = ((g n d : ℝ) : EReal))
  (hgp : ∀ (n : Fin 65536) (d : Fin 512), x1 (ix2 n d) = ((gp n d : ℝ) : EReal))

include hW in
/-- The reshaped W at (m, d) is W m d: the row-major position m·512 + d of the [1, 512, 512] array is (0, m, d). -/
theorem v0_at (m d : Fin 512) : val_main_v0 (F := Ideal) x2 (ix2 m d) = ((W m d : ℝ) : EReal) := by
  rw [val_main_v0_apply]
  have e : idx_main_v0 (ix2 m d) = ix3 (0 : Fin 1) m d := funext fun a => Fin.ext (by
    have hm := m.isLt
    have hd := d.isLt
    match a with
    | ⟨0, _⟩ => rfl
    | ⟨1, _⟩ => show (m.val * 512 + d.val) / 512 % 512 = m.val; omega
    | ⟨2, _⟩ => show (m.val * 512 + d.val) % 512 = d.val; omega)
  rw [e, hW]

include hW hg in
/-- The scores: W·gᵀ at (m, n) is ∑ d, W m d · g n d. -/
theorem v1_at (m : Fin 512) (n : Fin 65536) :
    val_main_v1 (F := Ideal) x0 x2 (ix2 m n) = ((Cert.Spec.sc W g m n : ℝ) : EReal) := by
  rw [val_main_v1_apply]
  unfold Cert.Spec.sc
  rw [← Cert.Lift.sum_coe]
  refine Finset.sum_congr rfl fun k _ => ?_
  have el : lidx_main_v1 (ix2 m n) k = ix2 m k := funext fun a => Fin.ext (by
    match a with
    | ⟨0, _⟩ => rfl
    | ⟨1, _⟩ => rfl)
  have er : ridx_main_v1 (ix2 m n) k = ix2 n k := funext fun a => Fin.ext (by
    match a with
    | ⟨0, _⟩ => rfl
    | ⟨1, _⟩ => rfl)
  rw [el, er, v0_at x2 W hW, hg, EReal.coe_mul]

include hW hg in
/-- The row maximum: the fold of max from −∞ over the 65536 scores of row m. -/
theorem v2_at (m : Fin 512) :
    val_main_v2 (F := Ideal) x0 x2 (ix1 m) = ((Cert.Spec.mx (Cert.Spec.sc W g m) : ℝ) : EReal) := by
  unfold val_main_v2
  exact reduce_max_row _ (Cert.Spec.sc W g m) m (fun n => v1_at x0 x2 W g hW hg m n)

/-- The splat of −∞. -/
theorem v3_at (m : Fin 512) : val_main_v3 (F := Ideal) (ix1 m) = (⊥ : EReal) := by
  rw [val_main_v3_apply, val_main_cst_0_apply]
  exact Cert.Lift.ofBits_neg_inf

include hW hg in
/-- max (−∞, row maximum) is the row maximum. -/
theorem v4_at (m : Fin 512) :
    val_main_v4 (F := Ideal) x0 x2 (ix1 m) = ((Cert.Spec.mx (Cert.Spec.sc W g m) : ℝ) : EReal) := by
  rw [val_main_v4_apply, Ideal.maximumf_def, v3_at, v2_at x0 x2 W g hW hg, Cert.Lift.max_bot_left]

include hW hg in
/-- The row maximum broadcast along the columns. -/
theorem v6_at (m : Fin 512) (n : Fin 65536) :
    val_main_v6 (F := Ideal) x0 x2 (ix2 m n) = ((Cert.Spec.mx (Cert.Spec.sc W g m) : ℝ) : EReal) := by
  rw [val_main_v6_apply, val_main_v5_apply]
  have e : idx_main_v5 (idx_main_v6 (ix2 m n)) = ix1 m := funext fun a => Fin.ext (by
    match a with
    | ⟨0, _⟩ => rfl)
  rw [e, v4_at x0 x2 W g hW hg]

include hW hg in
/-- The shifted scores. -/
theorem v7_at (m : Fin 512) (n : Fin 65536) :
    val_main_v7 (F := Ideal) x0 x2 (ix2 m n)
      = ((Cert.Spec.sc W g m n - Cert.Spec.mx (Cert.Spec.sc W g m) : ℝ) : EReal) := by
  rw [val_main_v7_apply, Ideal.subf_def, v1_at x0 x2 W g hW hg, v6_at x0 x2 W g hW hg, EReal.coe_sub]

include hW hg in
/-- Their exponentials. -/
theorem v8_at (m : Fin 512) (n : Fin 65536) :
    val_main_v8 (F := Ideal) x0 x2 (ix2 m n)
      = ((Real.exp (Cert.Spec.sc W g m n - Cert.Spec.mx (Cert.Spec.sc W g m)) : ℝ) : EReal) := by
  rw [val_main_v8_apply, Ideal.hostUnary_exp_def, v7_at x0 x2 W g hW hg, Cert.Lift.exp_coe]

include hW hg in
/-- The row sums of the exponentials: 0 + ∑ n, exp (s m n − max s m). -/
theorem v9_at (m : Fin 512) : val_main_v9 (F := Ideal) x0 x2 (ix1 m) = ((Z W g m : ℝ) : EReal) := by
  rw [val_main_v9_apply, val_main_cst_1_apply, Ideal.ofBits_def, Cert.Lift.ofBits_zero, zero_add]
  unfold Z
  rw [← Cert.Lift.sum_coe]
  refine Finset.sum_congr rfl fun k _ => ?_
  have e : idx_main_v9 (ix1 m) k = ix2 m k := funext fun a => Fin.ext (by
    match a with
    | ⟨0, _⟩ => rfl
    | ⟨1, _⟩ => rfl)
  rw [e, v8_at x0 x2 W g hW hg]

include hW hg in
/-- The row sums broadcast along the columns. -/
theorem v11_at (m : Fin 512) (n : Fin 65536) : val_main_v11 (F := Ideal) x0 x2 (ix2 m n) = ((Z W g m : ℝ) : EReal) := by
  rw [val_main_v11_apply, val_main_v10_apply]
  have e : idx_main_v10 (idx_main_v11 (ix2 m n)) = ix1 m := funext fun a => Fin.ext (by
    match a with
    | ⟨0, _⟩ => rfl)
  rw [e, v9_at x0 x2 W g hW hg]

include hW hg in
/-- The softmax weights: the quotient by a positive real. -/
theorem v12_at (m : Fin 512) (n : Fin 65536) :
    val_main_v12 (F := Ideal) x0 x2 (ix2 m n)
      = ((Real.exp (Cert.Spec.sc W g m n - Cert.Spec.mx (Cert.Spec.sc W g m)) / Z W g m : ℝ) : EReal) := by
  rw [val_main_v12_apply, Ideal.hostDivf_def, v8_at x0 x2 W g hW hg, v11_at x0 x2 W g hW hg,
    Cert.Lift.div_coe_coe _ _ (Z_pos W g m).ne']

include hW hg hgp in
/-- The reference's pooled array at (m, d) is the softmax pooling over the reals. -/
theorem ref_pool (m d : Fin 512) :
    val_main_v13 (F := Ideal) x0 x1 x2 (ix2 m d) = ((Cert.Spec.poolR W g gp m d : ℝ) : EReal) := by
  rw [val_main_v13_apply]
  unfold Cert.Spec.poolR
  rw [← Cert.Lift.sum_coe]
  refine Finset.sum_congr rfl fun k _ => ?_
  have el : lidx_main_v13 (ix2 m d) k = ix2 m k := funext fun a => Fin.ext (by
    match a with
    | ⟨0, _⟩ => rfl
    | ⟨1, _⟩ => rfl)
  have er : ridx_main_v13 (ix2 m d) k = ix2 k d := funext fun a => Fin.ext (by
    match a with
    | ⟨0, _⟩ => rfl
    | ⟨1, _⟩ => rfl)
  rw [el, er, v12_at x0 x2 W g hW hg, hgp, EReal.coe_mul]
  rfl

end Stages

end Cert.Ref

end
-- ==== Proof.Ref.TailProj.lean ====
/-
  The reference's three projections read at an index.

  Q = (g·Wqᵀ + bq) + (gp·Wgpᵀ + bgp) at (n, j) is the query row `Cert.Spec.qrow` of row n at j;
  K = (Ws·Wkᵀ + bk) + (P·Wkpᵀ + bkp) at (m, e), with Ws the first (only) slab of W and P the pooled array;
  V = Ws·Wvᵀ + bv at (m, e).
  Each product with a transposed weight is a sum over the shared coordinate of the two ROWS (n or m of the left
  factor, j or e of the weight); each bias is broadcast along the rows and reads its own coordinate.
-/
import proofs.«410946_j27565100106019_3_alg».proof.Proof.RefRead
import proofs.«410946_j27565100106019_3_alg».proof.Proof.Math.Spec

noncomputable section

open Idealize.ShloMosaic Idealize.ShloMosaic.ValueIdx
open Cert.ReferenceIdeal Cert.ReferenceIdeal.ReadP
open scoped BigOperators

namespace Cert.Ref

variable (x0 x1 : (⟨S65536x512, .f32⟩ : BufTy).Contents (Elt Ideal))
  (x2 : (⟨S1x512x512, .f32⟩ : BufTy).Contents (Elt Ideal))
  (x3 : (⟨S512x512, .f32⟩ : BufTy).Contents (Elt Ideal)) (x4 : (⟨S512, .f32⟩ : BufTy).Contents (Elt Ideal))
  (x5 : (⟨S512x512, .f32⟩ : BufTy).Contents (Elt Ideal)) (x6 : (⟨S512, .f32⟩ : BufTy).Contents (Elt Ideal))
  (x7 : (⟨S512x512, .f32⟩ : BufTy).Contents (Elt Ideal)) (x8 : (⟨S512, .f32⟩ : BufTy).Contents (Elt Ideal))
  (x9 : (⟨S512x512, .f32⟩ : BufTy).Contents (Elt Ideal)) (x10 : (⟨S512, .f32⟩ : BufTy).Contents (Elt Ideal))
  (x11 : (⟨S512x512, .f32⟩ : BufTy).Contents (Elt Ideal)) (x12 : (⟨S512, .f32⟩ : BufTy).Contents (Elt Ideal))

/-- The slab W[0] flattened to a matrix reads W at (0, m, k): the flat position m·512 + k splits back into (m, k). -/
theorem slab_idx (m k : Fin 512) : idx_main_v0 (ix2 m k) = ix3 (0 : Fin 1) m k := by
  have hm := m.isLt
  have hk := k.isLt
  funext a
  match a with
  | ⟨0, _⟩ => rfl
  | ⟨1, _⟩ => exact Fin.ext (by show (m.val * 512 + k.val) / 512 % 512 = m.val; omega)
  | ⟨2, _⟩ => exact Fin.ext (by show (m.val * 512 + k.val) % 512 = k.val; omega)

/-- The query array at (n, j) is the query row of row n at j. -/
theorem ref_Q (n : Fin 65536) (j : Fin 512) :
    val_main_v29 (F := Ideal) x0 x1 x3 x4 x9 x10 (ix2 n j)
      = Cert.Spec.qrow (fun e => x0 (ix2 n e)) (fun e => x1 (ix2 n e)) (fun j e => x3 (ix2 j e))
          (fun j e => x9 (ix2 j e)) (fun j => x4 (ix1 j)) (fun j => x10 (ix1 j)) j := by
  -- g·Wqᵀ: row n of g against row j of Wq; the bias bq at j
  have e1 : ∀ k : Fin 512, lidx_main_v25 (ix2 n j) k = ix2 n k := fun k =>
    funext fun a => Fin.ext (by match a with | ⟨0, _⟩ => rfl | ⟨1, _⟩ => rfl)
  have e2 : ∀ k : Fin 512, idx_main_v24 (ridx_main_v25 (ix2 n j) k) = ix2 j k := fun k =>
    funext fun a => Fin.ext (by match a with | ⟨0, _⟩ => rfl | ⟨1, _⟩ => rfl)
  have e3 : idx_main_v26 (idx_main_v27 (ix2 n j)) = ix1 j :=
    funext fun a => Fin.ext (by match a with | ⟨0, _⟩ => rfl)
  -- gp·Wgpᵀ: row n of gp against row j of Wgp; the bias bgp at j
  have e4 : ∀ k : Fin 512, lidx_main_v20 (ix2 n j) k = ix2 n k := fun k =>
    funext fun a => Fin.ext (by match a with | ⟨0, _⟩ => rfl | ⟨1, _⟩ => rfl)
  have e5 : ∀ k : Fin 512, idx_main_v19 (ridx_main_v20 (ix2 n j) k) = ix2 j k := fun k =>
    funext fun a => Fin.ext (by match a with | ⟨0, _⟩ => rfl | ⟨1, _⟩ => rfl)
  have e6 : idx_main_v21 (idx_main_v22 (ix2 n j)) = ix1 j :=
    funext fun a => Fin.ext (by match a with | ⟨0, _⟩ => rfl)
  rw [val_main_v29_apply, val_main_v28_apply, val_main_v23_apply, val_main_v25_apply, val_main_v27_apply,
    val_main_v26_apply, val_main_v20_apply, val_main_v22_apply, val_main_v21_apply]
  simp only [val_main_v24_apply, val_main_v19_apply, Ideal.addf_def, e1, e2, e3, e4, e5, e6]
  rfl

/-- The key matrix at (m, e): row m of the slab against row e of Wk plus bk at e, and row m of the pooled array
    against row e of Wkp plus bkp at e. -/
theorem ref_K (m e : Fin 512) :
    val_main_v35 (F := Ideal) x0 x1 x2 x5 x6 x11 x12 (ix2 m e)
      = ((∑ d : Fin 512, x2 (ix3 (0 : Fin 1) m d) * x5 (ix2 e d)) + x6 (ix1 e))
        + ((∑ d : Fin 512, val_main_v13 (F := Ideal) x0 x1 x2 (ix2 m d) * x11 (ix2 e d)) + x12 (ix1 e)) := by
  have e1 : ∀ k : Fin 512, idx_main_v0 (lidx_main_v31 (ix2 m e) k) = ix3 (0 : Fin 1) m k := fun k =>
    (congrArg idx_main_v0 (funext fun a => Fin.ext (by match a with | ⟨0, _⟩ => rfl | ⟨1, _⟩ => rfl))).trans
      (slab_idx m k)
  have e2 : ∀ k : Fin 512, idx_main_v30 (ridx_main_v31 (ix2 m e) k) = ix2 e k := fun k =>
    funext fun a => Fin.ext (by match a with | ⟨0, _⟩ => rfl | ⟨1, _⟩ => rfl)
  have e3 : idx_main_v32 (idx_main_v33 (ix2 m e)) = ix1 e :=
    funext fun a => Fin.ext (by match a with | ⟨0, _⟩ => rfl)
  have e4 : ∀ k : Fin 512, lidx_main_v15 (ix2 m e) k = ix2 m k := fun k =>
    funext fun a => Fin.ext (by match a with | ⟨0, _⟩ => rfl | ⟨1, _⟩ => rfl)
  have e5 : ∀ k : Fin 512, idx_main_v14 (ridx_main_v15 (ix2 m e) k) = ix2 e k := fun k =>
    funext fun a => Fin.ext (by match a with | ⟨0, _⟩ => rfl | ⟨1, _⟩ => rfl)
  have e6 : idx_main_v16 (idx_main_v17 (ix2 m e)) = ix1 e :=
    funext fun a => Fin.ext (by match a with | ⟨0, _⟩ => rfl)
  rw [val_main_v35_apply, val_main_v34_apply, val_main_v18_apply, val_main_v31_apply, val_main_v33_apply,
    val_main_v32_apply, val_main_v15_apply, val_main_v17_apply, val_main_v16_apply]
  generalize val_main_v13 (F := Ideal) x0 x1 x2 = P
  simp only [val_main_v0_apply, val_main_v30_apply, val_main_v14_apply, Ideal.addf_def, e1, e2, e3, e4, e5, e6]

/-- The value matrix at (m, e): row m of the slab against row e of Wv, plus bv at e. -/
theorem ref_V (m e : Fin 512) :
    val_main_v40 (F := Ideal) x2 x7 x8 (ix2 m e)
      = (∑ d : Fin 512, x2 (ix3 (0 : Fin 1) m d) * x7 (ix2 e d)) + x8 (ix1 e) := by
  have e1 : ∀ k : Fin 512, idx_main_v0 (lidx_main_v37 (ix2 m e) k) = ix3 (0 : Fin 1) m k := fun k =>
    (congrArg idx_main_v0 (funext fun a => Fin.ext (by match a with | ⟨0, _⟩ => rfl | ⟨1, _⟩ => rfl))).trans
      (slab_idx m k)
  have e2 : ∀ k : Fin 512, idx_main_v36 (ridx_main_v37 (ix2 m e) k) = ix2 e k := fun k =>
    funext fun a => Fin.ext (by match a with | ⟨0, _⟩ => rfl | ⟨1, _⟩ => rfl)
  have e3 : idx_main_v38 (idx_main_v39 (ix2 m e)) = ix1 e :=
    funext fun a => Fin.ext (by match a with | ⟨0, _⟩ => rfl)
  rw [val_main_v40_apply, val_main_v37_apply, val_main_v39_apply, val_main_v38_apply]
  simp only [val_main_v0_apply, val_main_v36_apply, Ideal.addf_def, e1, e2, e3]

end Cert.Ref

end
-- ==== Proof.Ref.TailSoft.lean ====
/-
  The reference's attention row read at an index.

  For a row n of the 65536: the scaled scores s m = (∑ e, Q n e · K m e) · (1/8) over the 512 keys; their maximum,
  taken as a fold of max from −∞ (and once more against −∞, which changes nothing); the exponentials exp (s m − max);
  their sum, taken from 0; the quotients; and the value product plus the residual row of g.  Each stage is stated at
  coordinates (n, m) or (n, d), in terms of the stages before it.
-/
import proofs.«410946_j27565100106019_3_alg».proof.Proof.RefRead
import proofs.«410946_j27565100106019_3_alg».proof.Proof.Math.Lift

noncomputable section

open Idealize.ShloMosaic Idealize.ShloMosaic.ValueIdx
open Cert.ReferenceIdeal Cert.ReferenceIdeal.Gen Cert.ReferenceIdeal.ReadP
open scoped BigOperators

namespace Cert.Ref

variable (x0 x1 : (⟨S65536x512, .f32⟩ : BufTy).Contents (Elt Ideal))
  (x2 : (⟨S1x512x512, .f32⟩ : BufTy).Contents (Elt Ideal))
  (x3 : (⟨S512x512, .f32⟩ : BufTy).Contents (Elt Ideal)) (x4 : (⟨S512, .f32⟩ : BufTy).Contents (Elt Ideal))
  (x5 : (⟨S512x512, .f32⟩ : BufTy).Contents (Elt Ideal)) (x6 : (⟨S512, .f32⟩ : BufTy).Contents (Elt Ideal))
  (x7 : (⟨S512x512, .f32⟩ : BufTy).Contents (Elt Ideal)) (x8 : (⟨S512, .f32⟩ : BufTy).Contents (Elt Ideal))
  (x9 : (⟨S512x512, .f32⟩ : BufTy).Contents (Elt Ideal)) (x10 : (⟨S512, .f32⟩ : BufTy).Contents (Elt Ideal))
  (x11 : (⟨S512x512, .f32⟩ : BufTy).Contents (Elt Ideal)) (x12 : (⟨S512, .f32⟩ : BufTy).Contents (Elt Ideal))

/-- The scaled scores at (n, m): row n of Q against row m of K, times the constant. -/
theorem scores_at (n : Fin 65536) (m : Fin 512) :
    val_main_v43 (F := Ideal) x0 x1 x2 x3 x4 x5 x6 x9 x10 x11 x12 (ix2 n m)
      = (∑ e : Fin 512, val_main_v29 (F := Ideal) x0 x1 x3 x4 x9 x10 (ix2 n e)
            * val_main_v35 (F := Ideal) x0 x1 x2 x5 x6 x11 x12 (ix2 m e))
          * Ideal.ofBits .f32 0x3E000000#32 := by
  have e1 : ∀ k : Fin 512, lidx_main_v41 (ix2 n m) k = ix2 n k := fun k =>
    funext fun a => Fin.ext (by match a with | ⟨0, _⟩ => rfl | ⟨1, _⟩ => rfl)
  have e2 : ∀ k : Fin 512, ridx_main_v41 (ix2 n m) k = ix2 m k := fun k =>
    funext fun a => Fin.ext (by match a with | ⟨0, _⟩ => rfl | ⟨1, _⟩ => rfl)
  rw [val_main_v43_apply, val_main_v41_apply, val_main_v42_apply, val_main_cst_2_apply]
  simp only [Ideal.mulf_def, Ideal.ofBits_def, e1, e2]

/-- From −∞ the reduce with a maximum body along a row of a [65536, 512] array is, at row n, the fold of max from −∞
    over the row's 512 entries: a fold of a commutative associative operation does not depend on the order. -/
theorem hostReduce_max_row (x : FVec Ideal S65536x512 .f32) (n : Fin 65536) :
    Host.reduce FloatOps.maximumf x (val_main_cst_3 (F := Ideal)) reducesTo_S65536x512_S65536_d1 h_S_ (ix1 n)
      = (Finset.univ : Finset (Fin 512)).fold max ⊥ (fun m => x (ix2 n m)) := by
  have hR : S65536x512.Reduces [1] S65536 := by decide
  refine (Host.reduce_eq_fold_single FloatOps.maximumf x _ reducesTo_S65536x512_S65536_d1 hR h_S_ (ix1 n)).trans ?_
  -- the initial value is −∞, and row n with the coordinate m put back is (n, m)
  have hb : val_main_cst_3 (F := Ideal) (Shape.Idx.first h_S_) = ⊥ :=
    (val_main_cst_3_apply _).trans Cert.Lift.ofBits_neg_inf
  have hf : (x ∘ hR.lift (ix1 n)) = fun m : Fin 512 => x (ix2 n m) := funext fun k =>
    congrArg x (funext fun a => Fin.ext (by match a with | ⟨0, _⟩ => rfl | ⟨1, _⟩ => rfl))
  rw [hb]
  exact congrArg (fun f => Finset.fold max ⊥ f (Finset.univ : Finset (Fin 512))) hf

/-- The row maximum at n: the fold of max from −∞ over the row's 512 scores (the further maximum against −∞ is the
    identity). -/
theorem rowmax_at (n : Fin 65536) :
    val_main_v46 (F := Ideal) x0 x1 x2 x3 x4 x5 x6 x9 x10 x11 x12 (ix1 n)
      = (Finset.univ : Finset (Fin 512)).fold max ⊥
          (fun m => val_main_v43 (F := Ideal) x0 x1 x2 x3 x4 x5 x6 x9 x10 x11 x12 (ix2 n m)) := by
  rw [val_main_v46_apply, val_main_v45_apply, val_main_cst_4_apply]
  unfold val_main_v44
  generalize val_main_v43 (F := Ideal) x0 x1 x2 x3 x4 x5 x6 x9 x10 x11 x12 = y
  refine (congrArg (FloatOps.maximumf (F := Ideal) (FloatOps.ofBits .f32 0xFF800000#32))
    (hostReduce_max_row y n)).trans ?_
  show max (Ideal.ofBits .f32 0xFF800000#32) _ = _
  rw [Cert.Lift.ofBits_neg_inf]
  exact Cert.Lift.max_bot_left _

/-- The exponentials at (n, m): exp of the score less the row's maximum. -/
theorem expo_at (n : Fin 65536) (m : Fin 512) :
    val_main_v50 (F := Ideal) x0 x1 x2 x3 x4 x5 x6 x9 x10 x11 x12 (ix2 n m)
      = Ideal.exp (val_main_v43 (F := Ideal) x0 x1 x2 x3 x4 x5 x6 x9 x10 x11 x12 (ix2 n m)
          - val_main_v46 (F := Ideal) x0 x1 x2 x3 x4 x5 x6 x9 x10 x11 x12 (ix1 n)) := by
  have e : idx_main_v47 (idx_main_v48 (ix2 n m)) = ix1 n :=
    funext fun a => Fin.ext (by match a with | ⟨0, _⟩ => rfl)
  rw [val_main_v50_apply, val_main_v49_apply, val_main_v48_apply, val_main_v47_apply, e]
  rfl

/-- The row sum at n: from 0, the sum of the row's 512 exponentials. -/
theorem rowsum_at (n : Fin 65536) :
    val_main_v51 (F := Ideal) x0 x1 x2 x3 x4 x5 x6 x9 x10 x11 x12 (ix1 n)
      = ∑ m : Fin 512, val_main_v50 (F := Ideal) x0 x1 x2 x3 x4 x5 x6 x9 x10 x11 x12 (ix2 n m) := by
  have e : ∀ k : Fin 512, idx_main_v51 (ix1 n) k = ix2 n k := fun k =>
    funext fun a => Fin.ext (by match a with | ⟨0, _⟩ => rfl | ⟨1, _⟩ => rfl)
  rw [val_main_v51_apply, val_main_cst_5_apply]
  simp only [Ideal.ofBits_def, Cert.Lift.ofBits_zero, zero_add, e]

/-- The attention weights at (n, m): the exponential over the row's sum. -/
theorem attn_at (n : Fin 65536) (m : Fin 512) :
    val_main_v54 (F := Ideal) x0 x1 x2 x3 x4 x5 x6 x9 x10 x11 x12 (ix2 n m)
      = Ideal.div (val_main_v50 (F := Ideal) x0 x1 x2 x3 x4 x5 x6 x9 x10 x11 x12 (ix2 n m))
          (val_main_v51 (F := Ideal) x0 x1 x2 x3 x4 x5 x6 x9 x10 x11 x12 (ix1 n)) := by
  have e : idx_main_v52 (idx_main_v53 (ix2 n m)) = ix1 n :=
    funext fun a => Fin.ext (by match a with | ⟨0, _⟩ => rfl)
  rw [val_main_v54_apply, val_main_v53_apply, val_main_v52_apply, e]
  rfl

/-- The attended row plus the residual at (n, d): row n of the weights against column d of V, plus g at (n, d). -/
theorem out_at (n : Fin 65536) (d : Fin 512) :
    val_main_v56 (F := Ideal) x0 x1 x2 x3 x4 x5 x6 x7 x8 x9 x10 x11 x12 (ix2 n d)
      = (∑ m : Fin 512, val_main_v54 (F := Ideal) x0 x1 x2 x3 x4 x5 x6 x9 x10 x11 x12 (ix2 n m)
            * val_main_v40 (F := Ideal) x2 x7 x8 (ix2 m d))
          + x0 (ix2 n d) := by
  have e1 : ∀ k : Fin 512, lidx_main_v55 (ix2 n d) k = ix2 n k := fun k =>
    funext fun a => Fin.ext (by match a with | ⟨0, _⟩ => rfl | ⟨1, _⟩ => rfl)
  have e2 : ∀ k : Fin 512, ridx_main_v55 (ix2 n d) k = ix2 k d := fun k =>
    funext fun a => Fin.ext (by match a with | ⟨0, _⟩ => rfl | ⟨1, _⟩ => rfl)
  rw [val_main_v56_apply, val_main_v55_apply]
  simp only [Ideal.addf_def, e1, e2]

end Cert.Ref

end
-- ==== Proof.Ref.RowForm.lean ====
/-
  An output row from its named parts.

  `Cert.Spec.rowOut` builds one output row through eight intermediate quantities: the scaled scores s, their maximum
  M, the exponentials p, their sum L, the quotients a, the value product plus residual o, its mean mu and variance
  var.  Whoever has eight quantities satisfying the same eight defining equations has the same row: each equation
  determines its quantity from the ones before it, so the quantities are the specification's own.
-/
import proofs.«410946_j27565100106019_3_alg».proof.Proof.Math.Spec

noncomputable section

open Idealize.ShloMosaic
open scoped BigOperators

namespace Cert.Ref

/-- Eight quantities that satisfy the defining equations of `Cert.Spec.rowOut`'s intermediate values give its
    result. -/
theorem rowOut_of (c eps nn : EReal) (q : Fin 512 → EReal) (K V : Fin 512 → Fin 512 → EReal)
    (g gam bet : Fin 512 → EReal)
    (s : Fin 512 → EReal) (M : EReal) (p : Fin 512 → EReal) (L : EReal) (a o : Fin 512 → EReal) (mu var : EReal)
    (hs : ∀ m, s m = (∑ e : Fin 512, q e * K m e) * c)
    (hM : M = (Finset.univ : Finset (Fin 512)).fold max ⊥ s)
    (hp : ∀ m, p m = Ideal.exp (s m - M))
    (hL : L = ∑ m : Fin 512, p m)
    (ha : ∀ m, a m = Ideal.div (p m) L)
    (ho : ∀ d', o d' = (∑ m : Fin 512, a m * V m d') + g d')
    (hmu : mu = Ideal.div (∑ d' : Fin 512, o d') nn)
    (hvar : var = Ideal.div (∑ d' : Fin 512, (o d' - mu) * (o d' - mu)) nn) (d : Fin 512) :
    (o d - mu) * Ideal.rsqrt (var + eps) * gam d + bet d = Cert.Spec.rowOut c eps nn q K V g gam bet d := by
  obtain rfl : s = fun m => (∑ e : Fin 512, q e * K m e) * c := funext hs
  subst hM
  obtain rfl : p = _ := funext hp
  subst hL
  obtain rfl : a = _ := funext ha
  obtain rfl : o = _ := funext ho
  subst hmu
  subst hvar
  rfl

end Cert.Ref

end
-- ==== Proof.Ref.Tail.lean ====
/-
  The reference's result read at an index, as the shared row function.

  After the attended row o (value product plus residual): the mean over the row's 512 entries (their sum from 0, over
  512), the centred entries, the variance (the sum of their squares from 0, over 512), the reciprocal square root of
  the variance plus ε, the scale γ and the shift β.  Each stage is stated at coordinates, in terms of the stages before
  it; the per-row reductions live in a column [65536, 1] and are read at (n, 0).

  Then the whole: the scores, their maximum, the exponentials, their sum, the quotients, the attended row, its mean and
  its variance are eight quantities that satisfy the defining equations of `Cert.Spec.rowOut`'s intermediate values,
  so the result at (n, d) is `rowOut` of row n at d — first over the query, key and value arrays as they stand, then
  with the query row written as `Cert.Spec.qrow`.
-/
import proofs.«410946_j27565100106019_3_alg».proof.Proof.Ref.TailProj
import proofs.«410946_j27565100106019_3_alg».proof.Proof.Ref.TailSoft
import proofs.«410946_j27565100106019_3_alg».proof.Proof.Ref.RowForm

noncomputable section

open Idealize.ShloMosaic Idealize.ShloMosaic.ValueIdx
open Cert.ReferenceIdeal Cert.ReferenceIdeal.Gen Cert.ReferenceIdeal.ReadP
open scoped BigOperators

namespace Cert.Ref

variable (x0 x1 : (⟨S65536x512, .f32⟩ : BufTy).Contents (Elt Ideal))
  (x2 : (⟨S1x512x512, .f32⟩ : BufTy).Contents (Elt Ideal))
  (x3 : (⟨S512x512, .f32⟩ : BufTy).Contents (Elt Ideal)) (x4 : (⟨S512, .f32⟩ : BufTy).Contents (Elt Ideal))
  (x5 : (⟨S512x512, .f32⟩ : BufTy).Contents (Elt Ideal)) (x6 : (⟨S512, .f32⟩ : BufTy).Contents (Elt Ideal))
  (x7 : (⟨S512x512, .f32⟩ : BufTy).Contents (Elt Ideal)) (x8 : (⟨S512, .f32⟩ : BufTy).Contents (Elt Ideal))
  (x9 : (⟨S512x512, .f32⟩ : BufTy).Contents (Elt Ideal)) (x10 : (⟨S512, .f32⟩ : BufTy).Contents (Elt Ideal))
  (x11 : (⟨S512x512, .f32⟩ : BufTy).Contents (Elt Ideal))
  (x12 x13 x14 : (⟨S512, .f32⟩ : BufTy).Contents (Elt Ideal))

/-- The row mean at (n, 0): from 0, the sum of the attended row's 512 entries, over 512. -/
theorem mean_at (n : Fin 65536) :
    val_main_v60 (F := Ideal) x0 x1 x2 x3 x4 x5 x6 x7 x8 x9 x10 x11 x12 (ix2 n (0 : Fin 1))
      = Ideal.div (∑ d : Fin 512, val_main_v56 (F := Ideal) x0 x1 x2 x3 x4 x5 x6 x7 x8 x9 x10 x11 x12 (ix2 n d))
          (Ideal.ofBits .f32 0x44000000#32) := by
  have e1 : idx_main_v58 (ix2 n (0 : Fin 1)) = ix1 n :=
    funext fun a => Fin.ext (by match a with | ⟨0, _⟩ => rfl)
  have e2 : ∀ k : Fin 512, idx_main_v57 (ix1 n) k = ix2 n k := fun k =>
    funext fun a => Fin.ext (by match a with | ⟨0, _⟩ => rfl | ⟨1, _⟩ => rfl)
  rw [val_main_v60_apply, val_main_v58_apply, val_main_v59_apply, val_main_cst_7_apply, e1, val_main_v57_apply,
    val_main_cst_6_apply]
  simp only [Ideal.hostDivf_def, Ideal.ofBits_def, Cert.Lift.ofBits_zero, zero_add, e2]

/-- The centred entries at (n, d): the attended row less its mean (as the squares' operand). -/
theorem centred_at (n : Fin 65536) (d : Fin 512) :
    val_main_v62 (F := Ideal) x0 x1 x2 x3 x4 x5 x6 x7 x8 x9 x10 x11 x12 (ix2 n d)
      = val_main_v56 (F := Ideal) x0 x1 x2 x3 x4 x5 x6 x7 x8 x9 x10 x11 x12 (ix2 n d)
        - val_main_v60 (F := Ideal) x0 x1 x2 x3 x4 x5 x6 x7 x8 x9 x10 x11 x12 (ix2 n (0 : Fin 1)) := by
  have e : idx_main_v61 (ix2 n d) = ix2 n (0 : Fin 1) :=
    funext fun a => Fin.ext (by match a with | ⟨0, _⟩ => rfl | ⟨1, _⟩ => rfl)
  rw [val_main_v62_apply, val_main_v61_apply, e]
  rfl

/-- The centred entries once more (as the normalised product's operand). -/
theorem centred_norm_at (n : Fin 65536) (d : Fin 512) :
    val_main_v69 (F := Ideal) x0 x1 x2 x3 x4 x5 x6 x7 x8 x9 x10 x11 x12 (ix2 n d)
      = val_main_v56 (F := Ideal) x0 x1 x2 x3 x4 x5 x6 x7 x8 x9 x10 x11 x12 (ix2 n d)
        - val_main_v60 (F := Ideal) x0 x1 x2 x3 x4 x5 x6 x7 x8 x9 x10 x11 x12 (ix2 n (0 : Fin 1)) := by
  have e : idx_main_v68 (ix2 n d) = ix2 n (0 : Fin 1) :=
    funext fun a => Fin.ext (by match a with | ⟨0, _⟩ => rfl | ⟨1, _⟩ => rfl)
  rw [val_main_v69_apply, val_main_v68_apply, e]
  rfl

/-- The row variance at (n, 0): from 0, the sum of the squared centred entries, over 512. -/
theorem var_at (n : Fin 65536) :
    val_main_v67 (F := Ideal) x0 x1 x2 x3 x4 x5 x6 x7 x8 x9 x10 x11 x12 (ix2 n (0 : Fin 1))
      = Ideal.div (∑ d : Fin 512, val_main_v62 (F := Ideal) x0 x1 x2 x3 x4 x5 x6 x7 x8 x9 x10 x11 x12 (ix2 n d)
            * val_main_v62 (F := Ideal) x0 x1 x2 x3 x4 x5 x6 x7 x8 x9 x10 x11 x12 (ix2 n d))
          (Ideal.ofBits .f32 0x44000000#32) := by
  have e1 : idx_main_v65 (ix2 n (0 : Fin 1)) = ix1 n :=
    funext fun a => Fin.ext (by match a with | ⟨0, _⟩ => rfl)
  have e2 : ∀ k : Fin 512, idx_main_v64 (ix1 n) k = ix2 n k := fun k =>
    funext fun a => Fin.ext (by match a with | ⟨0, _⟩ => rfl | ⟨1, _⟩ => rfl)
  rw [val_main_v67_apply, val_main_v65_apply, val_main_v66_apply, val_main_cst_9_apply, e1, val_main_v64_apply,
    val_main_cst_8_apply]
  simp only [val_main_v63_apply, Ideal.hostDivf_def, Ideal.mulf_def, Ideal.ofBits_def, Cert.Lift.ofBits_zero,
    zero_add, e2]

/-- The result at (n, d): the centred entry times the reciprocal square root of the variance plus ε, times γ at d,
    plus β at d. -/
theorem result_at (n : Fin 65536) (d : Fin 512) :
    val_main_v80 (F := Ideal) x0 x1 x2 x3 x4 x5 x6 x7 x8 x9 x10 x11 x12 x13 x14 (ix2 n d)
      = val_main_v69 (F := Ideal) x0 x1 x2 x3 x4 x5 x6 x7 x8 x9 x10 x11 x12 (ix2 n d)
          * Ideal.rsqrt (val_main_v67 (F := Ideal) x0 x1 x2 x3 x4 x5 x6 x7 x8 x9 x10 x11 x12 (ix2 n (0 : Fin 1))
              + Ideal.ofBits .f32 0x3727C5AC#32)
          * x13 (ix1 d) + x14 (ix1 d) := by
  have e1 : idx_main_v73 (ix2 n d) = ix2 n (0 : Fin 1) :=
    funext fun a => Fin.ext (by match a with | ⟨0, _⟩ => rfl | ⟨1, _⟩ => rfl)
  have e2 : idx_main_v75 (idx_main_v76 (ix2 n d)) = ix1 d :=
    funext fun a => Fin.ext (by match a with | ⟨0, _⟩ => rfl)
  have e3 : idx_main_v78 (idx_main_v79 (ix2 n d)) = ix1 d :=
    funext fun a => Fin.ext (by match a with | ⟨0, _⟩ => rfl)
  rw [val_main_v80_apply, val_main_v77_apply, val_main_v74_apply, val_main_v73_apply, e1, val_main_v72_apply,
    val_main_v71_apply, val_main_v70_apply, val_main_cst_10_apply, val_main_v76_apply, val_main_v75_apply, e2,
    val_main_v79_apply, val_main_v78_apply, e3]
  rfl

/-- THE RESULT AT (n, d) over the query, key and value arrays as they stand: the row function of row n at d. -/
theorem ref_tail_of (n : Fin 65536) (d : Fin 512) :
    val_main_v80 (F := Ideal) x0 x1 x2 x3 x4 x5 x6 x7 x8 x9 x10 x11 x12 x13 x14 (ix2 n d)
      = Cert.Spec.rowOut (Ideal.ofBits .f32 0x3E000000#32) (Ideal.ofBits .f32 0x3727C5AC#32)
          (Ideal.ofBits .f32 0x44000000#32)
          (fun e => val_main_v29 (F := Ideal) x0 x1 x3 x4 x9 x10 (ix2 n e))
          (fun m e => val_main_v35 (F := Ideal) x0 x1 x2 x5 x6 x11 x12 (ix2 m e))
          (fun m e => val_main_v40 (F := Ideal) x2 x7 x8 (ix2 m e))
          (fun e => x0 (ix2 n e)) (fun e => x13 (ix1 e)) (fun e => x14 (ix1 e)) d := by
  -- the variance over the centred entries written out
  have hvar : val_main_v67 (F := Ideal) x0 x1 x2 x3 x4 x5 x6 x7 x8 x9 x10 x11 x12 (ix2 n (0 : Fin 1))
      = Ideal.div (∑ d' : Fin 512,
            (val_main_v56 (F := Ideal) x0 x1 x2 x3 x4 x5 x6 x7 x8 x9 x10 x11 x12 (ix2 n d')
              - val_main_v60 (F := Ideal) x0 x1 x2 x3 x4 x5 x6 x7 x8 x9 x10 x11 x12 (ix2 n (0 : Fin 1)))
            * (val_main_v56 (F := Ideal) x0 x1 x2 x3 x4 x5 x6 x7 x8 x9 x10 x11 x12 (ix2 n d')
              - val_main_v60 (F := Ideal) x0 x1 x2 x3 x4 x5 x6 x7 x8 x9 x10 x11 x12 (ix2 n (0 : Fin 1))))
          (Ideal.ofBits .f32 0x44000000#32) := by
    rw [var_at]
    simp only [centred_at]
  rw [result_at, centred_norm_at]
  exact rowOut_of (Ideal.ofBits .f32 0x3E000000#32) (Ideal.ofBits .f32 0x3727C5AC#32)
    (Ideal.ofBits .f32 0x44000000#32)
    (fun e => val_main_v29 (F := Ideal) x0 x1 x3 x4 x9 x10 (ix2 n e))
    (fun m e => val_main_v35 (F := Ideal) x0 x1 x2 x5 x6 x11 x12 (ix2 m e))
    (fun m e => val_main_v40 (F := Ideal) x2 x7 x8 (ix2 m e))
    (fun e => x0 (ix2 n e)) (fun e => x13 (ix1 e)) (fun e => x14 (ix1 e))
    (fun m => val_main_v43 (F := Ideal) x0 x1 x2 x3 x4 x5 x6 x9 x10 x11 x12 (ix2 n m))
    (val_main_v46 (F := Ideal) x0 x1 x2 x3 x4 x5 x6 x9 x10 x11 x12 (ix1 n))
    (fun m => val_main_v50 (F := Ideal) x0 x1 x2 x3 x4 x5 x6 x9 x10 x11 x12 (ix2 n m))
    (val_main_v51 (F := Ideal) x0 x1 x2 x3 x4 x5 x6 x9 x10 x11 x12 (ix1 n))
    (fun m => val_main_v54 (F := Ideal) x0 x1 x2 x3 x4 x5 x6 x9 x10 x11 x12 (ix2 n m))
    (fun d' => val_main_v56 (F := Ideal) x0 x1 x2 x3 x4 x5 x6 x7 x8 x9 x10 x11 x12 (ix2 n d'))
    (val_main_v60 (F := Ideal) x0 x1 x2 x3 x4 x5 x6 x7 x8 x9 x10 x11 x12 (ix2 n (0 : Fin 1)))
    (val_main_v67 (F := Ideal) x0 x1 x2 x3 x4 x5 x6 x7 x8 x9 x10 x11 x12 (ix2 n (0 : Fin 1)))
    (fun m => scores_at x0 x1 x2 x3 x4 x5 x6 x9 x10 x11 x12 n m)
    (rowmax_at x0 x1 x2 x3 x4 x5 x6 x9 x10 x11 x12 n)
    (fun m => expo_at x0 x1 x2 x3 x4 x5 x6 x9 x10 x11 x12 n m)
    (rowsum_at x0 x1 x2 x3 x4 x5 x6 x9 x10 x11 x12 n)
    (fun m => attn_at x0 x1 x2 x3 x4 x5 x6 x9 x10 x11 x12 n m)
    (fun d' => out_at x0 x1 x2 x3 x4 x5 x6 x7 x8 x9 x10 x11 x12 n d')
    (mean_at x0 x1 x2 x3 x4 x5 x6 x7 x8 x9 x10 x11 x12 n)
    hvar d

/-- THE RESULT AT (n, d), the query row written out: the row function of row n at d, from the row's query
    `Cert.Spec.qrow`, the key and value matrices, the residual row of g and the layer norm's γ and β. -/
theorem ref_tail (n : Fin 65536) (d : Fin 512) :
    val_main_v80 (F := Ideal) x0 x1 x2 x3 x4 x5 x6 x7 x8 x9 x10 x11 x12 x13 x14 (ix2 n d)
      = Cert.Spec.rowOut (Ideal.ofBits .f32 0x3E000000#32) (Ideal.ofBits .f32 0x3727C5AC#32)
          (Ideal.ofBits .f32 0x44000000#32)
          (Cert.Spec.qrow (fun e => x0 (ix2 n e)) (fun e => x1 (ix2 n e)) (fun j e => x3 (ix2 j e))
            (fun j e => x9 (ix2 j e)) (fun j => x4 (ix1 j)) (fun j => x10 (ix1 j)))
          (fun m e => val_main_v35 (F := Ideal) x0 x1 x2 x5 x6 x11 x12 (ix2 m e))
          (fun m e => val_main_v40 (F := Ideal) x2 x7 x8 (ix2 m e))
          (fun e => x0 (ix2 n e)) (fun e => x13 (ix1 e)) (fun e => x14 (ix1 e)) d := by
  have hq : (fun e => val_main_v29 (F := Ideal) x0 x1 x3 x4 x9 x10 (ix2 n e))
      = Cert.Spec.qrow (fun e => x0 (ix2 n e)) (fun e => x1 (ix2 n e)) (fun j e => x3 (ix2 j e))
          (fun j e => x9 (ix2 j e)) (fun j => x4 (ix1 j)) (fun j => x10 (ix1 j)) :=
    funext fun e => ref_Q x0 x1 x3 x4 x9 x10 n e
  rw [ref_tail_of, hq]

end Cert.Ref

end
-- ==== Proof.PreFin.lean ====
/-
  The precondition `finite_inputs` read back at the ideal instance. The printed predicate is a conjunction of
  fifteen terms, one per argument array x: the reduction by `and`, over every axis, of the elementwise comparison
  |x| < +∞. At the extended reals |x| is max x (-x) and the pattern 0x7F800000 denotes ⊤, so the comparison is 1
  at an index exactly when the entry there is neither ⊤ nor ⊥, that is, when it is a real number. The
  conjunction being 1 therefore says: every entry of every argument is (the image of) a real.
-/
import proofs.«410946_j27565100106019_3_alg».proof.Pre_finite_inputs
import Idealize.ShloMosaic.PureOps.Ideal
import Idealize.ShloMosaic.Lib.ReduceAll

noncomputable section

namespace Cert.PreFin

open Idealize.ShloMosaic Cert.Pre_finite_inputs

/-- The rank-0 shape has one index. -/
instance : Subsingleton S_.Idx := ⟨fun a b => funext fun d => d.elim0⟩

/-- The f32 pattern 0x7F800000 (exponent all ones, significand zero, sign clear) denotes +∞. -/
theorem inf_bits : Ideal.ofBits .f32 0x7F800000#32 = (⊤ : EReal) := by
  simp [Ideal.ofBits, Ideal.ieee]

/-- An extended real whose absolute value max x (-x) is below ⊤ is a real: at ⊥ the negation is ⊤, at ⊤ the
    value itself is. -/
theorem real_of_abs_lt_top (x : EReal) (h : max x (-x) < ⊤) : ∃ r : ℝ, x = (r : EReal) := by
  induction x using EReal.rec with
  | bot => simp at h
  | coe r => exact ⟨r, rfl⟩
  | top => simp at h

/-- The comparison |x| < +∞ at one entry, read back. -/
theorem real_of_cmp (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  apply real_of_abs_lt_top
  have h' : BitVec.ofBool (decide (max x (-x) < Ideal.ofBits .f32 0x7F800000#32)) = 1#1 := h
  rw [inf_bits] at h'
  by_contra hn
  rw [decide_eq_false hn] at h'
  exact absurd h' (by decide)

/-- One term of the conjunction: `jnp.all(jnp.abs(x) < inf)` being 1 makes every entry of x a real. -/
theorem all_real {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant (F := Ideal) S_ .f32 0x7F800000#32)))
          init hr hu j = 1#1) :
    ∀ i, ∃ r : ℝ, x i = (r : EReal) :=
  fun i => real_of_cmp (x i) (Host.reduce_andi_all _ init hr hu j e i)

variable [Facts]

/-- The precondition decoded: every entry of each of the fifteen arguments is a real. -/
theorem finite_of_pre
    (x0 : FVec Ideal S65536x512 .f32) (x1 : FVec Ideal S65536x512 .f32) (x2 : FVec Ideal S1x512x512 .f32)
    (x3 : FVec Ideal S512x512 .f32) (x4 : FVec Ideal S512 .f32) (x5 : FVec Ideal S512x512 .f32)
    (x6 : FVec Ideal S512 .f32) (x7 : FVec Ideal S512x512 .f32) (x8 : FVec Ideal S512 .f32)
    (x9 : FVec Ideal S512x512 .f32) (x10 : FVec Ideal S512 .f32) (x11 : FVec Ideal S512x512 .f32)
    (x12 : FVec Ideal S512 .f32) (x13 : FVec Ideal S512 .f32) (x14 : FVec Ideal S512 .f32)
    (h : fn (F := Ideal) x0 x1 x2 x3 x4 x5 x6 x7 x8 x9 x10 x11 x12 x13 x14 = (fun _ => 1#1)) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) ∧ (∀ i, ∃ r : ℝ, x5 i = (r : EReal))
    ∧ (∀ i, ∃ r : ℝ, x6 i = (r : EReal)) ∧ (∀ i, ∃ r : ℝ, x7 i = (r : EReal)) ∧ (∀ i, ∃ r : ℝ, x8 i = (r : EReal))
    ∧ (∀ i, ∃ r : ℝ, x9 i = (r : EReal)) ∧ (∀ i, ∃ r : ℝ, x10 i = (r : EReal)) ∧ (∀ i, ∃ r : ℝ, x11 i = (r : EReal))
    ∧ (∀ i, ∃ r : ℝ, x12 i = (r : EReal)) ∧ (∀ i, ∃ r : ℝ, x13 i = (r : EReal)) ∧ (∀ i, ∃ r : ℝ, x14 i = (r : EReal)) := by
  have e := congrFun h (fun a => a.elim0 : S_.Idx)
  dsimp only [fn, fn_part1, fn_part2, fn_part3, fn_part4, andi] at e
  obtain ⟨e, e14⟩ := IntOp.andi_eq_one.1 e
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨all_real x0 _ _ _ _ _ e0, all_real x1 _ _ _ _ _ e1, all_real x2 _ _ _ _ _ e2, all_real x3 _ _ _ _ _ e3,
    all_real x4 _ _ _ _ _ e4, all_real x5 _ _ _ _ _ e5, all_real x6 _ _ _ _ _ e6, all_real x7 _ _ _ _ _ e7,
    all_real x8 _ _ _ _ _ e8, all_real x9 _ _ _ _ _ e9, all_real x10 _ _ _ _ _ e10, all_real x11 _ _ _ _ _ e11,
    all_real x12 _ _ _ _ _ e12, all_real x13 _ _ _ _ _ e13, all_real x14 _ _ _ _ _ e14⟩

/-- A real's image is recovered from its real part. -/
theorem coe_toReal_of_real {x : EReal} (h : ∃ r : ℝ, x = (r : EReal)) : x = ((x.toReal : ℝ) : EReal) := by
  obtain ⟨r, rfl⟩ := h
  rfl

/-- The same, each entry written as the image of its own real part. -/
theorem toReal_of_pre
    (x0 : FVec Ideal S65536x512 .f32) (x1 : FVec Ideal S65536x512 .f32) (x2 : FVec Ideal S1x512x512 .f32)
    (x3 : FVec Ideal S512x512 .f32) (x4 : FVec Ideal S512 .f32) (x5 : FVec Ideal S512x512 .f32)
    (x6 : FVec Ideal S512 .f32) (x7 : FVec Ideal S512x512 .f32) (x8 : FVec Ideal S512 .f32)
    (x9 : FVec Ideal S512x512 .f32) (x10 : FVec Ideal S512 .f32) (x11 : FVec Ideal S512x512 .f32)
    (x12 : FVec Ideal S512 .f32) (x13 : FVec Ideal S512 .f32) (x14 : FVec Ideal S512 .f32)
    (h : fn (F := Ideal) x0 x1 x2 x3 x4 x5 x6 x7 x8 x9 x10 x11 x12 x13 x14 = (fun _ => 1#1)) :
    (∀ i, x0 i = (((x0 i).toReal : ℝ) : EReal)) ∧ (∀ i, x1 i = (((x1 i).toReal : ℝ) : EReal))
    ∧ (∀ i, x2 i = (((x2 i).toReal : ℝ) : EReal)) ∧ (∀ i, x3 i = (((x3 i).toReal : ℝ) : EReal))
    ∧ (∀ i, x4 i = (((x4 i).toReal : ℝ) : EReal)) ∧ (∀ i, x5 i = (((x5 i).toReal : ℝ) : EReal))
    ∧ (∀ i, x6 i = (((x6 i).toReal : ℝ) : EReal)) ∧ (∀ i, x7 i = (((x7 i).toReal : ℝ) : EReal))
    ∧ (∀ i, x8 i = (((x8 i).toReal : ℝ) : EReal)) ∧ (∀ i, x9 i = (((x9 i).toReal : ℝ) : EReal))
    ∧ (∀ i, x10 i = (((x10 i).toReal : ℝ) : EReal)) ∧ (∀ i, x11 i = (((x11 i).toReal : ℝ) : EReal))
    ∧ (∀ i, x12 i = (((x12 i).toReal : ℝ) : EReal)) ∧ (∀ i, x13 i = (((x13 i).toReal : ℝ) : EReal))
    ∧ (∀ i, x14 i = (((x14 i).toReal : ℝ) : EReal)) := by
  obtain ⟨h0, h1, h2, h3, h4, h5, h6, h7, h8, h9, h10, h11, h12, h13, h14⟩ :=
    finite_of_pre x0 x1 x2 x3 x4 x5 x6 x7 x8 x9 x10 x11 x12 x13 x14 h
  exact ⟨fun i => coe_toReal_of_real (h0 i), fun i => coe_toReal_of_real (h1 i), fun i => coe_toReal_of_real (h2 i),
    fun i => coe_toReal_of_real (h3 i), fun i => coe_toReal_of_real (h4 i), fun i => coe_toReal_of_real (h5 i),
    fun i => coe_toReal_of_real (h6 i), fun i => coe_toReal_of_real (h7 i), fun i => coe_toReal_of_real (h8 i),
    fun i => coe_toReal_of_real (h9 i), fun i => coe_toReal_of_real (h10 i), fun i => coe_toReal_of_real (h11 i),
    fun i => coe_toReal_of_real (h12 i), fun i => coe_toReal_of_real (h13 i), fun i => coe_toReal_of_real (h14 i)⟩

end Cert.PreFin

end
-- ==== Proof.KI.Value.lean ====
/-
  The value claim at the ideal values, kernel side joined to reference side.

  The main kernel's output array at (n, d) is the row function of row n of g and g_p, the projection weights, the
  summed bias, a key matrix K, a value matrix V and the layer norm's scale and shift (the block function read at
  an index, over what the second host stretch left in the resident operands).  The reference's result at (n, d) is the
  same row function over its own K and V.  The two value matrices are the same sums.  The two key matrices differ only
  in the pooled array they are built from: the kernel's is the two halves of its streamed softmax joined, the
  reference's the whole-array softmax pooling; with finite inputs both are the real softmax pooling of the rows,
  because the weight slab split in two formats is (W, W − W) = (W, 0) when W is finite.
-/
import proofs.«410946_j27565100106019_3_alg».proof.Defs
import proofs.«410946_j27565100106019_3_alg».proof.Proof.KI.RunHost
import proofs.«410946_j27565100106019_3_alg».proof.Proof.KI.HostIdx
import proofs.«410946_j27565100106019_3_alg».proof.Proof.KI.Val1
import proofs.«410946_j27565100106019_3_alg».proof.Proof.KI.GlueTail
import proofs.«410946_j27565100106019_3_alg».proof.Proof.KI.GluePool
import proofs.«410946_j27565100106019_3_alg».proof.Proof.Ref.Pool
import proofs.«410946_j27565100106019_3_alg».proof.Proof.Ref.Tail
import proofs.«410946_j27565100106019_3_alg».proof.Proof.PreFin
import proofs.«410946_j27565100106019_3_alg».proof.Proof.Math.Lift
import proofs.«410946_j27565100106019_3_alg».proof.Proof.Gen.Pre_finite_inputs
import Idealize.ShloMosaic.Lib.ValueIdx

set_option maxRecDepth 16384

noncomputable section

namespace Cert.KernelIdeal.Val

open Cert.KernelIdeal Cert.KernelIdeal.Gen Cert.KernelIdeal.GenP Cert.KernelIdeal.Hand
open Idealize.ShloMosaic Idealize.ShloMosaic.TcCoe Idealize.ShloMosaic.ValueIdx
open Idealize.SL Idealize.SL.Sem
open scoped BigOperators

variable (m : (ℓ : Loc nD τ sig) → Buf (Elt Ideal) ℓ) (ρ : Dev nD → PrngReg) (c : Dev nD)

/-! ## What the main kernel reads, at an index -/

/-- The two projection biases bq and bgp at launch, as functions of the coordinate. -/
abbrev biasQ : Fin 512 → EReal := fun j => (m ((c.tc : Thread nD τ).loc main_arg4)) (ix1 j)
abbrev biasGp : Fin 512 → EReal := fun j => (m ((c.tc : Thread nD τ).loc main_arg10)) (ix1 j)

/-- The rows g and g_p. -/
theorem rd_g (n : Fin 65536) (e : Fin 512) : V3 m ρ c main_arg0 (ix2 n e) = (m ((c.tc : Thread nD τ).loc main_arg0)) (ix2 n e) := by
  rw [V3_arg0]
theorem rd_gp (n : Fin 65536) (e : Fin 512) : V3 m ρ c main_arg1 (ix2 n e) = (m ((c.tc : Thread nD τ).loc main_arg1)) (ix2 n e) := by
  rw [V3_arg1]
/-- The transposed projection weights at (e, j) are the weights at (j, e). -/
theorem rd_wq (e j : Fin 512) : V3 m ρ c main_v50 (ix2 e j) = (m ((c.tc : Thread nD τ).loc main_arg3)) (ix2 j e) := by
  rw [V3_v50, wTH_apply]
theorem rd_wgp (e j : Fin 512) : V3 m ρ c main_v52 (ix2 e j) = (m ((c.tc : Thread nD τ).loc main_arg9)) (ix2 j e) := by
  rw [V3_v52, wTH_apply]
/-- The summed bias row. -/
theorem rd_bias (j : Fin 512) :
    V3 m ρ c main_v59 (ix2 (0 : Fin 1) j) = biasQ m c j + biasGp m c j := by
  rw [V3_v59, rowH_apply, addf_apply]
/-- The layer norm's scale and shift rows. -/
theorem rd_gamma (d : Fin 512) : V3 m ρ c main_v60 (ix2 (0 : Fin 1) d) = (m ((c.tc : Thread nD τ).loc main_arg13)) (ix1 d) := by
  rw [V3_v60, rowH_apply]
theorem rd_beta (d : Fin 512) : V3 m ρ c main_v61 (ix2 (0 : Fin 1) d) = (m ((c.tc : Thread nD τ).loc main_arg14)) (ix1 d) := by
  rw [V3_v61, rowH_apply]

/-- The value matrix the kernel reads is the reference's, entry by entry: row a of the slab against row d of Wv,
    plus bv at d. -/
theorem rd_value (a d : Fin 512) :
    V3 m ρ c main_v57 (ix2 a d)
      = Cert.ReferenceIdeal.ReadP.val_main_v40 (F := Ideal) (m ((c.tc : Thread nD τ).loc main_arg2)) (m ((c.tc : Thread nD τ).loc main_arg7)) (m ((c.tc : Thread nD τ).loc main_arg8)) (ix2 a d) := by
  rw [V3_v57, truncf_apply, Vh_apply, Cert.Ref.ref_V]
  simp only [wsH_apply]

/-! ## The pooled array -/

section Pool

variable (hpre : Cert.Pre_KernelIdeal m)

include hpre in
/-- With finite inputs, the kernel's pooled array (its two halves' final maxima, denominators and weighted sums joined
    by the host) is the reference's pooled array: both are the softmax pooling over the reals of the rows' real parts.
    The kernel's scores use the slab split in two formats; the low half is W − W, which is 0 for finite W. -/
theorem pooled_eq (a d : Fin 512) :
    pooledH ((dat0 (V1 m ρ) c).arrAt 4 cfg0.N) ((dat0 (V1 m ρ) c).arrAt 5 cfg0.N) ((dat0 (V1 m ρ) c).arrAt 6 cfg0.N) (ix2 a d)
      = Cert.ReferenceIdeal.ReadP.val_main_v13 (F := Ideal) (m ((c.tc : Thread nD τ).loc main_arg0)) (m ((c.tc : Thread nD τ).loc main_arg1)) (m ((c.tc : Thread nD τ).loc main_arg2)) (ix2 a d) := by
  obtain ⟨h0, h1, h2, -⟩ := Cert.PreFin.toReal_of_pre _ _ _ _ _ _ _ _ _ _ _ _ _ _ _ (hpre c)
  have hV1 : ∀ a' d' : Fin 512, V1 m ρ c main_v1 (ix2 a' d')
      = ((((m ((c.tc : Thread nD τ).loc main_arg2)) (ix3 (0 : Fin 1) a' d')).toReal : ℝ) : EReal) := fun a' d' => by
    rw [V1_v1, wsHiH_apply]; exact h2 _
  have hV4 : ∀ a' d' : Fin 512, V1 m ρ c main_v4 (ix2 a' d') = (0 : EReal) := fun a' d' => by
    rw [V1_v4, wsLoH_apply, h2 (ix3 (0 : Fin 1) a' d'), ← EReal.coe_sub, sub_self, EReal.coe_zero]
  have hg : ∀ (n : Fin 65536) (e : Fin 512), V1 m ρ c main_arg0 (ix2 n e)
      = ((((m ((c.tc : Thread nD τ).loc main_arg0)) (ix2 n e)).toReal : ℝ) : EReal) := fun n e => by
    rw [V1_arg0]; exact h0 _
  have hgp : ∀ (n : Fin 65536) (e : Fin 512), V1 m ρ c main_arg1 (ix2 n e)
      = ((((m ((c.tc : Thread nD τ).loc main_arg1)) (ix2 n e)).toReal : ℝ) : EReal) := fun n e => by
    rw [V1_arg1]; exact h1 _
  refine (pooledH_apply _ _ _ a d).trans ?_
  refine (pooled_glue (V1 m ρ) c (fun a' d' => ((m ((c.tc : Thread nD τ).loc main_arg2)) (ix3 (0 : Fin 1) a' d')).toReal)
    (fun n e => ((m ((c.tc : Thread nD τ).loc main_arg0)) (ix2 n e)).toReal) (fun n e => ((m ((c.tc : Thread nD τ).loc main_arg1)) (ix2 n e)).toReal) hV1 hV4 hg hgp a d).trans ?_
  exact (Cert.Ref.ref_pool (m ((c.tc : Thread nD τ).loc main_arg0)) (m ((c.tc : Thread nD τ).loc main_arg1)) (m ((c.tc : Thread nD τ).loc main_arg2)) (fun a' d' => ((m ((c.tc : Thread nD τ).loc main_arg2)) (ix3 (0 : Fin 1) a' d')).toReal)
    (fun n e => ((m ((c.tc : Thread nD τ).loc main_arg0)) (ix2 n e)).toReal) (fun n e => ((m ((c.tc : Thread nD τ).loc main_arg1)) (ix2 n e)).toReal)
    (fun a' d' => h2 _) (fun n e => h0 _) (fun n e => h1 _) a d).symm

include hpre in
/-- The scaled transposed key matrix the kernel reads at (e, a) is the reference's key matrix at (a, e) times 0.125. -/
theorem rd_key (e a : Fin 512) :
    V3 m ρ c main_v56 (ix2 e a)
      = Cert.ReferenceIdeal.ReadP.val_main_v35 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12)) (ix2 a e) * ((0.125 : ℝ) : EReal) := by
  rw [V3_v56, kTH_apply, Kh_apply, Cert.Lift.ofBits_eighth, Cert.Ref.ref_K]
  simp only [wsH_apply, pooled_eq m ρ c hpre]

include hpre in
/-- THE VALUE: when the program returns, the result array holds, on every core, the reference's result as a function
    of the launch contents of the fifteen arguments. -/
theorem kernel_value :
    (dat1 (V3 m ρ) c).arrAt 9 cfg1.N
      = Cert.ReferenceIdeal.ReadP.val_main_v80 (F := Ideal)
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14)) := by
  rw [final1]
  funext i
  obtain ⟨n, d, rfl⟩ : ∃ (n : Fin 65536) (d : Fin 512), i = ix2 n d := ⟨i 0, i 1, ValueIdx.eq_ix2 i⟩
  rw [G1_rowOut (V3 m ρ) c (m ((c.tc : Thread nD τ).loc main_arg0)) (m ((c.tc : Thread nD τ).loc main_arg1))
      (fun j e => (m ((c.tc : Thread nD τ).loc main_arg3)) (ix2 j e)) (fun j e => (m ((c.tc : Thread nD τ).loc main_arg9)) (ix2 j e))
      (fun a e => Cert.ReferenceIdeal.ReadP.val_main_v35 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12)) (ix2 a e))
      (fun a e => Cert.ReferenceIdeal.ReadP.val_main_v40 (F := Ideal) (m ((c.tc : Thread nD τ).loc main_arg2)) (m ((c.tc : Thread nD τ).loc main_arg7)) (m ((c.tc : Thread nD τ).loc main_arg8)) (ix2 a e))
      (biasQ m c) (biasGp m c)
      (fun e => (m ((c.tc : Thread nD τ).loc main_arg13)) (ix1 e)) (fun e => (m ((c.tc : Thread nD τ).loc main_arg14)) (ix1 e))
      (rd_g m ρ c) (rd_gp m ρ c) (rd_wq m ρ c) (rd_wgp m ρ c) (rd_bias m ρ c) (rd_key m ρ c hpre) (rd_value m ρ c)
      (rd_gamma m ρ c) (rd_beta m ρ c) n d,
    Cert.Ref.ref_tail, Cert.Lift.ofBits_eighth]

end Pool

end Cert.KernelIdeal.Val

end
-- ==== Proof.lean ====
/-
  The certificate's five claims, assembled.

  The kernel and the reference compute one function of fifteen arrays.  With Ws the one slab of W: P is the softmax
  pooling of the rows of gp by the scores of the rows of Ws against the 65536 rows of g; K = (Ws·Wkᵀ + bk) +
  (P·Wkpᵀ + bkp) and V = Ws·Wvᵀ + bv are the 512 keys and values; and for every row n of g the result row is the
  layer norm (scale γ, shift β) of softmax((Q n · Kᵀ)/8) · V + g n, where Q n = (g n · Wqᵀ + bq) + (gp n · Wgpᵀ + bgp).
  The kernel streams the pooling over row blocks in two halves and joins the halves; the reference takes each softmax
  over a whole axis at once.

  The frames: each of the three programs terminates from any launch memory, faults nowhere, and returns with its
  fifteen argument arrays as launched.  For the two kernel programs this is read off the run in which every buffer's
  final contents is named; for the reference, off its run as a composition of whole-array operations.

  The idealisation changes the kernel in one place: a value narrowed to bf16 and widened back is printed as the value
  itself.  At the extended reals a change of format is the identity, so nothing changes there; at the word level the
  pair is the rounding through bf16.

  The value claim, at the extended reals and for inputs every entry of which is a real number: the kernel's result
  array is the reference's result function applied to the kernel's own arguments.  Two equalities carry this.  The
  pooled array is the same on both sides because both are the real-valued softmax pooling (the streamed form equals
  the whole-axis form over the reals, where every exponential is positive and every sum finite).  From the pooled array
  on, both sides are the same function of extended reals row by row, with no finiteness asked.  The reference's own run
  ends at that result function of ITS arguments, and the two programs' arguments agree, array by array.
-/
import proofs.«410946_j27565100106019_3_alg».proof.Defs
import proofs.«410946_j27565100106019_3_alg».proof.Proof.Gen.Kernel
import proofs.«410946_j27565100106019_3_alg».proof.Proof.Gen.KernelIdeal
import proofs.«410946_j27565100106019_3_alg».proof.Proof.Gen.ReferenceIdeal
import proofs.«410946_j27565100106019_3_alg».proof.Proof.Gen.Pre_finite_inputs
import proofs.«410946_j27565100106019_3_alg».proof.Proof.K.Run
import proofs.«410946_j27565100106019_3_alg».proof.Proof.KI.Run
import proofs.«410946_j27565100106019_3_alg».proof.Proof.KI.Value
import proofs.«410946_j27565100106019_3_alg».proof.Proof.RefRun
import proofs.«410946_j27565100106019_3_alg».proof.Proof.RefReadEq

noncomputable section

open Idealize.ShloMosaic Idealize.ShloMosaic.TcCoe Idealize.SL.Sem

namespace Cert.Proof

/-! ## The frames -/

/-- The word-level kernel returns with its arguments as launched. -/
theorem frame_k : Cert.frame_Kernel := fun m ρ _ => Cert.Kernel.Hand.frame (F := Bits) m ρ

/-- The kernel at the extended reals returns with its arguments as launched. -/
theorem frame_ki : Cert.frame_KernelIdeal := fun m ρ _ => Cert.KernelIdeal.Hand.frame (F := Ideal) m ρ

/-- The reference returns with its arguments as launched: its run names the result and the arguments, and the
    arguments' part is the frame. -/
theorem frame_ri : Cert.frame_ReferenceIdeal := fun m ρ _ =>
  (θ_run Cert.ReferenceIdeal.defs _ _).mono (fun _ h c => (h c).2)
    (Cert.ReferenceIdeal.ValueP.run (F := Ideal) m ρ)

/-! ## The idealisation -/

/-- Narrowing a [1024, 512] block of f32 values to bf16 and widening it back: the identity at the extended reals, the
    rounding through bf16 at the word level. -/
theorem preserves : Cert.preserves_Kernel_KernelIdeal :=
  IdealRules.truncf_extf.statement _ .f32 .bf16

/-! ## The value claim -/

/-- The common result on core c: the reference's result function of the kernel's fifteen argument arrays there. -/
def result (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v62) :=
  Cert.ReferenceIdeal.ReadP.val_main_v80 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))

/-- At the extended reals, from memories that agree on the fifteen arguments, all of them finite: both programs run,
    both end with the common result in their result arrays, and both keep their arguments.  The kernel's side is its
    run with the result array named, followed by the value of that array; the reference's side is its run, its result
    read as the result function of its own arguments, and the fifteen agreements. -/
theorem algebraic : Cert.algebraic_KernelIdeal_ReferenceIdeal := by
  intro m ρ m' ρ' hpre hagree
  refine ⟨result m, ?_, ?_⟩
  · exact (θ_run Cert.KernelIdeal.defs _ _).mono
      (fun r h c => ⟨(h c).1.trans (Cert.KernelIdeal.Val.kernel_value m ρ c hpre), (h c).2⟩)
      (Cert.KernelIdeal.Hand.run_value (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11, h12, h13, h14⟩ := hagree c
    rw [Cert.ReferenceIdeal.ReadP.val_main_v80_eq, h0, h1, h2, h3, h4, h5, h6, h7, h8, h9, h10, h11, h12, h13, h14]
    rfl

/-! ## The claim -/

theorem claim : Cert.Claim :=
  ⟨Cert.Kernel.Gen.facts, Cert.KernelIdeal.Gen.facts, Cert.ReferenceIdeal.Gen.facts,
    Cert.Pre_finite_inputs.Gen.facts, frame_k, frame_ki, frame_ri, preserves, algebraic⟩

end Cert.Proof

end
